-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v168) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x128x160x320 : Shape := ⟨4, ![4, 128, 160, 320]⟩
abbrev S_ : Shape := ⟨0, ![]⟩

class Facts : Prop where
  bcast_S_S4x128x160x320 : S_.BroadcastsInDim S4x128x160x320 (![] : Fin 0 → Fin S4x128x160x320.rank)
  reducesTo_S4x128x160x320_S_d0_1_2_3 : S4x128x160x320.ReducesTo [0, 1, 2, 3] S_
  h_S_ : 0 < S_.numel

variable [Facts]

def fn {F : FTy → Type} [FloatOps F] (main_arg0 : FVec F S4x128x160x320 .f32) (main_arg1 : FVec F S4x128x160x320 .f32) : IVec S_ 1 :=
  let main_v0 : FVec F S4x128x160x320 .f32 := Host.absf main_arg0
  let main_cst : FVec F S_ .f32 := constant S_ .f32 0x7F800000#32
  let main_v1 : FVec F S4x128x160x320 .f32 := broadcastInDim S4x128x160x320 ![] bcast_S_S4x128x160x320 main_cst
  let main_v2 : IVec S4x128x160x320 1 := cmpf .olt main_v0 main_v1
  let main_c : IVec S_ 1 := constantI S_ 1 1#1
  let main_v3 : IVec S_ 1 := (fun x v => Host.reduce IntOp.andi x v reducesTo_S4x128x160x320_S_d0_1_2_3 h_S_) main_v2 main_c
  let main_v4 : FVec F S4x128x160x320 .f32 := Host.absf main_arg1
  let main_cst_0 : FVec F S_ .f32 := constant S_ .f32 0x7F800000#32
  let main_v5 : FVec F S4x128x160x320 .f32 := broadcastInDim S4x128x160x320 ![] bcast_S_S4x128x160x320 main_cst_0
  let main_v6 : IVec S4x128x160x320 1 := cmpf .olt main_v4 main_v5
  let main_c_1 : IVec S_ 1 := constantI S_ 1 1#1
  let main_v7 : IVec S_ 1 := (fun x v => Host.reduce IntOp.andi x v reducesTo_S4x128x160x320_S_d0_1_2_3 h_S_) main_v6 main_c_1
  let main_v8 : IVec S_ 1 := andi main_v3 main_v7
  main_v8
-- ==== Kernel.lean ====
abbrev S4x128x160x320 : Shape := ⟨4, ![4, 128, 160, 320]⟩
abbrev S4x41x160x320 : Shape := ⟨4, ![4, 41, 160, 320]⟩
abbrev S1x128x40x320 : Shape := ⟨4, ![1, 128, 40, 320]⟩
abbrev S1x41x40x320 : Shape := ⟨4, ![1, 41, 40, 320]⟩
abbrev S128x40x320 : Shape := ⟨3, ![128, 40, 320]⟩
abbrev S41x40x320 : Shape := ⟨3, ![41, 40, 320]⟩
abbrev S128x40x312 : Shape := ⟨3, ![128, 40, 312]⟩
abbrev S40x312 : Shape := ⟨2, ![40, 312]⟩
abbrev S1x1x40x312 : Shape := ⟨4, ![1, 1, 40, 312]⟩
abbrev S128x40x313 : Shape := ⟨3, ![128, 40, 313]⟩
abbrev S40x313 : Shape := ⟨2, ![40, 313]⟩
abbrev S1x1x40x313 : Shape := ⟨4, ![1, 1, 40, 313]⟩
abbrev S128x40x314 : Shape := ⟨3, ![128, 40, 314]⟩
abbrev S40x314 : Shape := ⟨2, ![40, 314]⟩
abbrev S1x1x40x314 : Shape := ⟨4, ![1, 1, 40, 314]⟩
abbrev S128x40x315 : Shape := ⟨3, ![128, 40, 315]⟩
abbrev S40x315 : Shape := ⟨2, ![40, 315]⟩
abbrev S1x1x40x315 : Shape := ⟨4, ![1, 1, 40, 315]⟩
abbrev S128x40x316 : Shape := ⟨3, ![128, 40, 316]⟩
abbrev S40x316 : Shape := ⟨2, ![40, 316]⟩
abbrev S1x1x40x316 : Shape := ⟨4, ![1, 1, 40, 316]⟩
abbrev S128x40x317 : Shape := ⟨3, ![128, 40, 317]⟩
abbrev S40x317 : Shape := ⟨2, ![40, 317]⟩
abbrev S1x1x40x317 : Shape := ⟨4, ![1, 1, 40, 317]⟩
abbrev S128x40x318 : Shape := ⟨3, ![128, 40, 318]⟩
abbrev S40x318 : Shape := ⟨2, ![40, 318]⟩
abbrev S1x1x40x318 : Shape := ⟨4, ![1, 1, 40, 318]⟩
abbrev S128x40x319 : Shape := ⟨3, ![128, 40, 319]⟩
abbrev S40x319 : Shape := ⟨2, ![40, 319]⟩
abbrev S1x1x40x319 : Shape := ⟨4, ![1, 1, 40, 319]⟩
abbrev S40x320 : Shape := ⟨2, ![40, 320]⟩
abbrev S1x1x40x320 : Shape := ⟨4, ![1, 1, 40, 320]⟩
abbrev S128x40x311 : Shape := ⟨3, ![128, 40, 311]⟩
abbrev S40x311 : Shape := ⟨2, ![40, 311]⟩
abbrev S1x1x40x311 : Shape := ⟨4, ![1, 1, 40, 311]⟩
abbrev S128x40x310 : Shape := ⟨3, ![128, 40, 310]⟩
abbrev S40x310 : Shape := ⟨2, ![40, 310]⟩
abbrev S1x1x40x310 : Shape := ⟨4, ![1, 1, 40, 310]⟩
abbrev S128x40x309 : Shape := ⟨3, ![128, 40, 309]⟩
abbrev S40x309 : Shape := ⟨2, ![40, 309]⟩
abbrev S1x1x40x309 : Shape := ⟨4, ![1, 1, 40, 309]⟩
abbrev S128x40x308 : Shape := ⟨3, ![128, 40, 308]⟩
abbrev S40x308 : Shape := ⟨2, ![40, 308]⟩
abbrev S1x1x40x308 : Shape := ⟨4, ![1, 1, 40, 308]⟩
abbrev S128x40x307 : Shape := ⟨3, ![128, 40, 307]⟩
abbrev S40x307 : Shape := ⟨2, ![40, 307]⟩
abbrev S1x1x40x307 : Shape := ⟨4, ![1, 1, 40, 307]⟩
abbrev S128x40x306 : Shape := ⟨3, ![128, 40, 306]⟩
abbrev S40x306 : Shape := ⟨2, ![40, 306]⟩
abbrev S1x1x40x306 : Shape := ⟨4, ![1, 1, 40, 306]⟩
abbrev S128x40x305 : Shape := ⟨3, ![128, 40, 305]⟩
abbrev S40x305 : Shape := ⟨2, ![40, 305]⟩
abbrev S1x1x40x305 : Shape := ⟨4, ![1, 1, 40, 305]⟩
abbrev S128x40x304 : Shape := ⟨3, ![128, 40, 304]⟩
abbrev S40x304 : Shape := ⟨2, ![40, 304]⟩
abbrev S1x1x40x304 : Shape := ⟨4, ![1, 1, 40, 304]⟩
abbrev S128x40x303 : Shape := ⟨3, ![128, 40, 303]⟩
abbrev S40x303 : Shape := ⟨2, ![40, 303]⟩
abbrev S1x1x40x303 : Shape := ⟨4, ![1, 1, 40, 303]⟩
abbrev S128x40x302 : Shape := ⟨3, ![128, 40, 302]⟩
abbrev S40x302 : Shape := ⟨2, ![40, 302]⟩
abbrev S1x1x40x302 : Shape := ⟨4, ![1, 1, 40, 302]⟩
abbrev S128x40x301 : Shape := ⟨3, ![128, 40, 301]⟩
abbrev S40x301 : Shape := ⟨2, ![40, 301]⟩
abbrev S1x1x40x301 : Shape := ⟨4, ![1, 1, 40, 301]⟩
abbrev S128x40x300 : Shape := ⟨3, ![128, 40, 300]⟩
abbrev S40x300 : Shape := ⟨2, ![40, 300]⟩
abbrev S1x1x40x300 : Shape := ⟨4, ![1, 1, 40, 300]⟩
abbrev S128x40x299 : Shape := ⟨3, ![128, 40, 299]⟩
abbrev S40x299 : Shape := ⟨2, ![40, 299]⟩
abbrev S1x1x40x299 : Shape := ⟨4, ![1, 1, 40, 299]⟩
abbrev S128x40x298 : Shape := ⟨3, ![128, 40, 298]⟩
abbrev S40x298 : Shape := ⟨2, ![40, 298]⟩
abbrev S1x1x40x298 : Shape := ⟨4, ![1, 1, 40, 298]⟩
abbrev S128x40x297 : Shape := ⟨3, ![128, 40, 297]⟩
abbrev S40x297 : Shape := ⟨2, ![40, 297]⟩
abbrev S1x1x40x297 : Shape := ⟨4, ![1, 1, 40, 297]⟩
abbrev S128x40x296 : Shape := ⟨3, ![128, 40, 296]⟩
abbrev S40x296 : Shape := ⟨2, ![40, 296]⟩
abbrev S1x1x40x296 : Shape := ⟨4, ![1, 1, 40, 296]⟩
abbrev S128x40x295 : Shape := ⟨3, ![128, 40, 295]⟩
abbrev S40x295 : Shape := ⟨2, ![40, 295]⟩
abbrev S1x1x40x295 : Shape := ⟨4, ![1, 1, 40, 295]⟩
abbrev S128x40x294 : Shape := ⟨3, ![128, 40, 294]⟩
abbrev S40x294 : Shape := ⟨2, ![40, 294]⟩
abbrev S1x1x40x294 : Shape := ⟨4, ![1, 1, 40, 294]⟩
abbrev S128x40x293 : Shape := ⟨3, ![128, 40, 293]⟩
abbrev S40x293 : Shape := ⟨2, ![40, 293]⟩
abbrev S1x1x40x293 : Shape := ⟨4, ![1, 1, 40, 293]⟩
abbrev S128x40x292 : Shape := ⟨3, ![128, 40, 292]⟩
abbrev S40x292 : Shape := ⟨2, ![40, 292]⟩
abbrev S1x1x40x292 : Shape := ⟨4, ![1, 1, 40, 292]⟩
abbrev S128x40x291 : Shape := ⟨3, ![128, 40, 291]⟩
abbrev S40x291 : Shape := ⟨2, ![40, 291]⟩
abbrev S1x1x40x291 : Shape := ⟨4, ![1, 1, 40, 291]⟩
abbrev S128x40x290 : Shape := ⟨3, ![128, 40, 290]⟩
abbrev S40x290 : Shape := ⟨2, ![40, 290]⟩
abbrev S1x1x40x290 : Shape := ⟨4, ![1, 1, 40, 290]⟩
abbrev S128x40x289 : Shape := ⟨3, ![128, 40, 289]⟩
abbrev S40x289 : Shape := ⟨2, ![40, 289]⟩
abbrev S1x1x40x289 : Shape := ⟨4, ![1, 1, 40, 289]⟩
abbrev S128x40x288 : Shape := ⟨3, ![128, 40, 288]⟩
abbrev S40x288 : Shape := ⟨2, ![40, 288]⟩
abbrev S1x1x40x288 : Shape := ⟨4, ![1, 1, 40, 288]⟩

abbrev nBuf : Space → Nat
  | .hbm => 3
  | .vmem => 6
  | .smem => 0
  | _ => 0

abbrev bufTy : (tb : Table) → Fin (tcTables nBuf tb) → BufTy
  | .hbm, ⟨0, _⟩ => ⟨S4x128x160x320, .f32⟩
  | .hbm, ⟨1, _⟩ => ⟨S4x128x160x320, .f32⟩
  | .hbm, ⟨2, _⟩ => ⟨S4x41x160x320, .f32⟩
  | .local _ .vmem, ⟨0, _⟩ => ⟨S1x128x40x320, .f32⟩
  | .local _ .vmem, ⟨1, _⟩ => ⟨S1x128x40x320, .f32⟩
  | .local _ .vmem, ⟨2, _⟩ => ⟨S1x128x40x320, .f32⟩
  | .local _ .vmem, ⟨3, _⟩ => ⟨S1x128x40x320, .f32⟩
  | .local _ .vmem, ⟨4, _⟩ => ⟨S1x41x40x320, .f32⟩
  | .local _ .vmem, ⟨5, _⟩ => ⟨S1x41x40x320, .f32⟩
  | _, _ => ⟨S4x128x160x320, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 4], ![false, false]⟩

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

abbrev stage0_0 : Fin 2 → Memref sig .tc .vmem S1x128x40x320 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x128x40x320 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x41x40x320 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

class Facts₀ : Prop where
  inb_S1x128x40x320_S1x128x40x320_0_0_0_0 : ∀ a, (![0, 0, 0, 0] : Fin 4 → Nat) a + S1x128x40x320.size a ≤ S1x128x40x320.size a
  h_S1x128x40x320 : 0 < S1x128x40x320.numel
  shapeCasts_S1x128x40x320_S128x40x320 : S1x128x40x320.ShapeCasts S128x40x320
  inb_S1x41x40x320_S1x41x40x320_0_0_0_0 : ∀ a, (![0, 0, 0, 0] : Fin 4 → Nat) a + S1x41x40x320.size a ≤ S1x41x40x320.size a
  h_S1x41x40x320 : 0 < S1x41x40x320.numel
  shapeCasts_S1x41x40x320_S41x40x320 : S1x41x40x320.ShapeCasts S41x40x320
  shapeCasts_S41x40x320_S1x41x40x320 : S41x40x320.ShapeCasts S1x41x40x320
  slices_S128x40x320_o0_0_8_S128x40x312 : S128x40x320.Slices ![0, 0, 8] S128x40x312
  slices_S128x40x320_o0_0_0_S128x40x312 : S128x40x320.Slices ![0, 0, 0] S128x40x312
  reduces_S128x40x312_S40x312 : S128x40x312.Reduces [0] S40x312
  inb_S1x41x40x320_S1x1x40x312_0_0_0_8 : ∀ a, (![0, 0, 0, 8] : Fin 4 → Nat) a + S1x1x40x312.size a ≤ S1x41x40x320.size a
  h_S1x1x40x312 : 0 < S1x1x40x312.numel
  shapeCasts_S1x1x40x312_S40x312 : S1x1x40x312.ShapeCasts S40x312
  shapeCasts_S40x312_S1x1x40x312 : S40x312.ShapeCasts S1x1x40x312
  slices_S128x40x320_o0_0_7_S128x40x313 : S128x40x320.Slices ![0, 0, 7] S128x40x313
  slices_S128x40x320_o0_0_0_S128x40x313 : S128x40x320.Slices ![0, 0, 0] S128x40x313
  reduces_S128x40x313_S40x313 : S128x40x313.Reduces [0] S40x313
  inb_S1x41x40x320_S1x1x40x313_0_1_0_7 : ∀ a, (![0, 1, 0, 7] : Fin 4 → Nat) a + S1x1x40x313.size a ≤ S1x41x40x320.size a
  h_S1x1x40x313 : 0 < S1x1x40x313.numel
  shapeCasts_S1x1x40x313_S40x313 : S1x1x40x313.ShapeCasts S40x313
  shapeCasts_S40x313_S1x1x40x313 : S40x313.ShapeCasts S1x1x40x313
  slices_S128x40x320_o0_0_6_S128x40x314 : S128x40x320.Slices ![0, 0, 6] S128x40x314
  slices_S128x40x320_o0_0_0_S128x40x314 : S128x40x320.Slices ![0, 0, 0] S128x40x314
  reduces_S128x40x314_S40x314 : S128x40x314.Reduces [0] S40x314
  inb_S1x41x40x320_S1x1x40x314_0_2_0_6 : ∀ a, (![0, 2, 0, 6] : Fin 4 → Nat) a + S1x1x40x314.size a ≤ S1x41x40x320.size a
  h_S1x1x40x314 : 0 < S1x1x40x314.numel
  shapeCasts_S1x1x40x314_S40x314 : S1x1x40x314.ShapeCasts S40x314
  shapeCasts_S40x314_S1x1x40x314 : S40x314.ShapeCasts S1x1x40x314
  slices_S128x40x320_o0_0_5_S128x40x315 : S128x40x320.Slices ![0, 0, 5] S128x40x315
  slices_S128x40x320_o0_0_0_S128x40x315 : S128x40x320.Slices ![0, 0, 0] S128x40x315
  reduces_S128x40x315_S40x315 : S128x40x315.Reduces [0] S40x315
  inb_S1x41x40x320_S1x1x40x315_0_3_0_5 : ∀ a, (![0, 3, 0, 5] : Fin 4 → Nat) a + S1x1x40x315.size a ≤ S1x41x40x320.size a
  h_S1x1x40x315 : 0 < S1x1x40x315.numel
  shapeCasts_S1x1x40x315_S40x315 : S1x1x40x315.ShapeCasts S40x315
  shapeCasts_S40x315_S1x1x40x315 : S40x315.ShapeCasts S1x1x40x315
  slices_S128x40x320_o0_0_4_S128x40x316 : S128x40x320.Slices ![0, 0, 4] S128x40x316
  slices_S128x40x320_o0_0_0_S128x40x316 : S128x40x320.Slices ![0, 0, 0] S128x40x316
  reduces_S128x40x316_S40x316 : S128x40x316.Reduces [0] S40x316
  inb_S1x41x40x320_S1x1x40x316_0_4_0_4 : ∀ a, (![0, 4, 0, 4] : Fin 4 → Nat) a + S1x1x40x316.size a ≤ S1x41x40x320.size a
  h_S1x1x40x316 : 0 < S1x1x40x316.numel
  shapeCasts_S1x1x40x316_S40x316 : S1x1x40x316.ShapeCasts S40x316
  shapeCasts_S40x316_S1x1x40x316 : S40x316.ShapeCasts S1x1x40x316
  slices_S128x40x320_o0_0_3_S128x40x317 : S128x40x320.Slices ![0, 0, 3] S128x40x317
  slices_S128x40x320_o0_0_0_S128x40x317 : S128x40x320.Slices ![0, 0, 0] S128x40x317
  reduces_S128x40x317_S40x317 : S128x40x317.Reduces [0] S40x317
  inb_S1x41x40x320_S1x1x40x317_0_5_0_3 : ∀ a, (![0, 5, 0, 3] : Fin 4 → Nat) a + S1x1x40x317.size a ≤ S1x41x40x320.size a
  h_S1x1x40x317 : 0 < S1x1x40x317.numel
  shapeCasts_S1x1x40x317_S40x317 : S1x1x40x317.ShapeCasts S40x317
  shapeCasts_S40x317_S1x1x40x317 : S40x317.ShapeCasts S1x1x40x317
  slices_S128x40x320_o0_0_2_S128x40x318 : S128x40x320.Slices ![0, 0, 2] S128x40x318
  slices_S128x40x320_o0_0_0_S128x40x318 : S128x40x320.Slices ![0, 0, 0] S128x40x318
  reduces_S128x40x318_S40x318 : S128x40x318.Reduces [0] S40x318
  inb_S1x41x40x320_S1x1x40x318_0_6_0_2 : ∀ a, (![0, 6, 0, 2] : Fin 4 → Nat) a + S1x1x40x318.size a ≤ S1x41x40x320.size a
  h_S1x1x40x318 : 0 < S1x1x40x318.numel
  shapeCasts_S1x1x40x318_S40x318 : S1x1x40x318.ShapeCasts S40x318
  shapeCasts_S40x318_S1x1x40x318 : S40x318.ShapeCasts S1x1x40x318
  slices_S128x40x320_o0_0_1_S128x40x319 : S128x40x320.Slices ![0, 0, 1] S128x40x319
  slices_S128x40x320_o0_0_0_S128x40x319 : S128x40x320.Slices ![0, 0, 0] S128x40x319
  reduces_S128x40x319_S40x319 : S128x40x319.Reduces [0] S40x319
  inb_S1x41x40x320_S1x1x40x319_0_7_0_1 : ∀ a, (![0, 7, 0, 1] : Fin 4 → Nat) a + S1x1x40x319.size a ≤ S1x41x40x320.size a
  h_S1x1x40x319 : 0 < S1x1x40x319.numel
  shapeCasts_S1x1x40x319_S40x319 : S1x1x40x319.ShapeCasts S40x319
  shapeCasts_S40x319_S1x1x40x319 : S40x319.ShapeCasts S1x1x40x319
  reduces_S128x40x320_S40x320 : S128x40x320.Reduces [0] S40x320
  inb_S1x41x40x320_S1x1x40x320_0_8_0_0 : ∀ a, (![0, 8, 0, 0] : Fin 4 → Nat) a + S1x1x40x320.size a ≤ S1x41x40x320.size a
  h_S1x1x40x320 : 0 < S1x1x40x320.numel
  shapeCasts_S1x1x40x320_S40x320 : S1x1x40x320.ShapeCasts S40x320
  shapeCasts_S40x320_S1x1x40x320 : S40x320.ShapeCasts S1x1x40x320
  inb_S1x41x40x320_S1x1x40x319_0_9_0_0 : ∀ a, (![0, 9, 0, 0] : Fin 4 → Nat) a + S1x1x40x319.size a ≤ S1x41x40x320.size a
  inb_S1x41x40x320_S1x1x40x318_0_10_0_0 : ∀ a, (![0, 10, 0, 0] : Fin 4 → Nat) a + S1x1x40x318.size a ≤ S1x41x40x320.size a
  inb_S1x41x40x320_S1x1x40x317_0_11_0_0 : ∀ a, (![0, 11, 0, 0] : Fin 4 → Nat) a + S1x1x40x317.size a ≤ S1x41x40x320.size a
  inb_S1x41x40x320_S1x1x40x316_0_12_0_0 : ∀ a, (![0, 12, 0, 0] : Fin 4 → Nat) a + S1x1x40x316.size a ≤ S1x41x40x320.size a
  inb_S1x41x40x320_S1x1x40x315_0_13_0_0 : ∀ a, (![0, 13, 0, 0] : Fin 4 → Nat) a + S1x1x40x315.size a ≤ S1x41x40x320.size a
  inb_S1x41x40x320_S1x1x40x314_0_14_0_0 : ∀ a, (![0, 14, 0, 0] : Fin 4 → Nat) a + S1x1x40x314.size a ≤ S1x41x40x320.size a
  inb_S1x41x40x320_S1x1x40x313_0_15_0_0 : ∀ a, (![0, 15, 0, 0] : Fin 4 → Nat) a + S1x1x40x313.size a ≤ S1x41x40x320.size a
  inb_S1x41x40x320_S1x1x40x312_0_16_0_0 : ∀ a, (![0, 16, 0, 0] : Fin 4 → Nat) a + S1x1x40x312.size a ≤ S1x41x40x320.size a
  slices_S128x40x320_o0_0_0_S128x40x311 : S128x40x320.Slices ![0, 0, 0] S128x40x311
  slices_S128x40x320_o0_0_9_S128x40x311 : S128x40x320.Slices ![0, 0, 9] S128x40x311
  reduces_S128x40x311_S40x311 : S128x40x311.Reduces [0] S40x311
  inb_S1x41x40x320_S1x1x40x311_0_17_0_0 : ∀ a, (![0, 17, 0, 0] : Fin 4 → Nat) a + S1x1x40x311.size a ≤ S1x41x40x320.size a
  h_S1x1x40x311 : 0 < S1x1x40x311.numel
  shapeCasts_S1x1x40x311_S40x311 : S1x1x40x311.ShapeCasts S40x311
  shapeCasts_S40x311_S1x1x40x311 : S40x311.ShapeCasts S1x1x40x311
  slices_S128x40x320_o0_0_0_S128x40x310 : S128x40x320.Slices ![0, 0, 0] S128x40x310
  slices_S128x40x320_o0_0_10_S128x40x310 : S128x40x320.Slices ![0, 0, 10] S128x40x310
  reduces_S128x40x310_S40x310 : S128x40x310.Reduces [0] S40x310
  inb_S1x41x40x320_S1x1x40x310_0_18_0_0 : ∀ a, (![0, 18, 0, 0] : Fin 4 → Nat) a + S1x1x40x310.size a ≤ S1x41x40x320.size a
  h_S1x1x40x310 : 0 < S1x1x40x310.numel
  shapeCasts_S1x1x40x310_S40x310 : S1x1x40x310.ShapeCasts S40x310
  shapeCasts_S40x310_S1x1x40x310 : S40x310.ShapeCasts S1x1x40x310
  slices_S128x40x320_o0_0_0_S128x40x309 : S128x40x320.Slices ![0, 0, 0] S128x40x309
  slices_S128x40x320_o0_0_11_S128x40x309 : S128x40x320.Slices ![0, 0, 11] S128x40x309
  reduces_S128x40x309_S40x309 : S128x40x309.Reduces [0] S40x309
  inb_S1x41x40x320_S1x1x40x309_0_19_0_0 : ∀ a, (![0, 19, 0, 0] : Fin 4 → Nat) a + S1x1x40x309.size a ≤ S1x41x40x320.size a
  h_S1x1x40x309 : 0 < S1x1x40x309.numel
  shapeCasts_S1x1x40x309_S40x309 : S1x1x40x309.ShapeCasts S40x309
  shapeCasts_S40x309_S1x1x40x309 : S40x309.ShapeCasts S1x1x40x309
  slices_S128x40x320_o0_0_0_S128x40x308 : S128x40x320.Slices ![0, 0, 0] S128x40x308
  slices_S128x40x320_o0_0_12_S128x40x308 : S128x40x320.Slices ![0, 0, 12] S128x40x308
  reduces_S128x40x308_S40x308 : S128x40x308.Reduces [0] S40x308
  inb_S1x41x40x320_S1x1x40x308_0_20_0_0 : ∀ a, (![0, 20, 0, 0] : Fin 4 → Nat) a + S1x1x40x308.size a ≤ S1x41x40x320.size a
  h_S1x1x40x308 : 0 < S1x1x40x308.numel
  shapeCasts_S1x1x40x308_S40x308 : S1x1x40x308.ShapeCasts S40x308
  shapeCasts_S40x308_S1x1x40x308 : S40x308.ShapeCasts S1x1x40x308
  slices_S128x40x320_o0_0_0_S128x40x307 : S128x40x320.Slices ![0, 0, 0] S128x40x307
  slices_S128x40x320_o0_0_13_S128x40x307 : S128x40x320.Slices ![0, 0, 13] S128x40x307
  reduces_S128x40x307_S40x307 : S128x40x307.Reduces [0] S40x307
  inb_S1x41x40x320_S1x1x40x307_0_21_0_0 : ∀ a, (![0, 21, 0, 0] : Fin 4 → Nat) a + S1x1x40x307.size a ≤ S1x41x40x320.size a
  h_S1x1x40x307 : 0 < S1x1x40x307.numel
  shapeCasts_S1x1x40x307_S40x307 : S1x1x40x307.ShapeCasts S40x307
  shapeCasts_S40x307_S1x1x40x307 : S40x307.ShapeCasts S1x1x40x307
  slices_S128x40x320_o0_0_0_S128x40x306 : S128x40x320.Slices ![0, 0, 0] S128x40x306
  slices_S128x40x320_o0_0_14_S128x40x306 : S128x40x320.Slices ![0, 0, 14] S128x40x306
  reduces_S128x40x306_S40x306 : S128x40x306.Reduces [0] S40x306
  inb_S1x41x40x320_S1x1x40x306_0_22_0_0 : ∀ a, (![0, 22, 0, 0] : Fin 4 → Nat) a + S1x1x40x306.size a ≤ S1x41x40x320.size a
  h_S1x1x40x306 : 0 < S1x1x40x306.numel
  shapeCasts_S1x1x40x306_S40x306 : S1x1x40x306.ShapeCasts S40x306
  shapeCasts_S40x306_S1x1x40x306 : S40x306.ShapeCasts S1x1x40x306
  slices_S128x40x320_o0_0_0_S128x40x305 : S128x40x320.Slices ![0, 0, 0] S128x40x305
  slices_S128x40x320_o0_0_15_S128x40x305 : S128x40x320.Slices ![0, 0, 15] S128x40x305
  reduces_S128x40x305_S40x305 : S128x40x305.Reduces [0] S40x305
  inb_S1x41x40x320_S1x1x40x305_0_23_0_0 : ∀ a, (![0, 23, 0, 0] : Fin 4 → Nat) a + S1x1x40x305.size a ≤ S1x41x40x320.size a
  h_S1x1x40x305 : 0 < S1x1x40x305.numel
  shapeCasts_S1x1x40x305_S40x305 : S1x1x40x305.ShapeCasts S40x305
  shapeCasts_S40x305_S1x1x40x305 : S40x305.ShapeCasts S1x1x40x305
  slices_S128x40x320_o0_0_0_S128x40x304 : S128x40x320.Slices ![0, 0, 0] S128x40x304
  slices_S128x40x320_o0_0_16_S128x40x304 : S128x40x320.Slices ![0, 0, 16] S128x40x304
  reduces_S128x40x304_S40x304 : S128x40x304.Reduces [0] S40x304
  inb_S1x41x40x320_S1x1x40x304_0_24_0_0 : ∀ a, (![0, 24, 0, 0] : Fin 4 → Nat) a + S1x1x40x304.size a ≤ S1x41x40x320.size a
  h_S1x1x40x304 : 0 < S1x1x40x304.numel
  shapeCasts_S1x1x40x304_S40x304 : S1x1x40x304.ShapeCasts S40x304
  shapeCasts_S40x304_S1x1x40x304 : S40x304.ShapeCasts S1x1x40x304
  slices_S128x40x320_o0_0_0_S128x40x303 : S128x40x320.Slices ![0, 0, 0] S128x40x303
  slices_S128x40x320_o0_0_17_S128x40x303 : S128x40x320.Slices ![0, 0, 17] S128x40x303
  reduces_S128x40x303_S40x303 : S128x40x303.Reduces [0] S40x303
  inb_S1x41x40x320_S1x1x40x303_0_25_0_0 : ∀ a, (![0, 25, 0, 0] : Fin 4 → Nat) a + S1x1x40x303.size a ≤ S1x41x40x320.size a
  h_S1x1x40x303 : 0 < S1x1x40x303.numel
  shapeCasts_S1x1x40x303_S40x303 : S1x1x40x303.ShapeCasts S40x303
  shapeCasts_S40x303_S1x1x40x303 : S40x303.ShapeCasts S1x1x40x303
  slices_S128x40x320_o0_0_0_S128x40x302 : S128x40x320.Slices ![0, 0, 0] S128x40x302
  slices_S128x40x320_o0_0_18_S128x40x302 : S128x40x320.Slices ![0, 0, 18] S128x40x302
  reduces_S128x40x302_S40x302 : S128x40x302.Reduces [0] S40x302
  inb_S1x41x40x320_S1x1x40x302_0_26_0_0 : ∀ a, (![0, 26, 0, 0] : Fin 4 → Nat) a + S1x1x40x302.size a ≤ S1x41x40x320.size a
  h_S1x1x40x302 : 0 < S1x1x40x302.numel
  shapeCasts_S1x1x40x302_S40x302 : S1x1x40x302.ShapeCasts S40x302
  shapeCasts_S40x302_S1x1x40x302 : S40x302.ShapeCasts S1x1x40x302
  slices_S128x40x320_o0_0_0_S128x40x301 : S128x40x320.Slices ![0, 0, 0] S128x40x301
  slices_S128x40x320_o0_0_19_S128x40x301 : S128x40x320.Slices ![0, 0, 19] S128x40x301
  reduces_S128x40x301_S40x301 : S128x40x301.Reduces [0] S40x301
  inb_S1x41x40x320_S1x1x40x301_0_27_0_0 : ∀ a, (![0, 27, 0, 0] : Fin 4 → Nat) a + S1x1x40x301.size a ≤ S1x41x40x320.size a
  h_S1x1x40x301 : 0 < S1x1x40x301.numel
  shapeCasts_S1x1x40x301_S40x301 : S1x1x40x301.ShapeCasts S40x301
  shapeCasts_S40x301_S1x1x40x301 : S40x301.ShapeCasts S1x1x40x301
  slices_S128x40x320_o0_0_0_S128x40x300 : S128x40x320.Slices ![0, 0, 0] S128x40x300
  slices_S128x40x320_o0_0_20_S128x40x300 : S128x40x320.Slices ![0, 0, 20] S128x40x300
  reduces_S128x40x300_S40x300 : S128x40x300.Reduces [0] S40x300
  inb_S1x41x40x320_S1x1x40x300_0_28_0_0 : ∀ a, (![0, 28, 0, 0] : Fin 4 → Nat) a + S1x1x40x300.size a ≤ S1x41x40x320.size a
  h_S1x1x40x300 : 0 < S1x1x40x300.numel
  shapeCasts_S1x1x40x300_S40x300 : S1x1x40x300.ShapeCasts S40x300
  shapeCasts_S40x300_S1x1x40x300 : S40x300.ShapeCasts S1x1x40x300
  slices_S128x40x320_o0_0_0_S128x40x299 : S128x40x320.Slices ![0, 0, 0] S128x40x299
  slices_S128x40x320_o0_0_21_S128x40x299 : S128x40x320.Slices ![0, 0, 21] S128x40x299
  reduces_S128x40x299_S40x299 : S128x40x299.Reduces [0] S40x299
  inb_S1x41x40x320_S1x1x40x299_0_29_0_0 : ∀ a, (![0, 29, 0, 0] : Fin 4 → Nat) a + S1x1x40x299.size a ≤ S1x41x40x320.size a
  h_S1x1x40x299 : 0 < S1x1x40x299.numel
  shapeCasts_S1x1x40x299_S40x299 : S1x1x40x299.ShapeCasts S40x299
  shapeCasts_S40x299_S1x1x40x299 : S40x299.ShapeCasts S1x1x40x299
  slices_S128x40x320_o0_0_0_S128x40x298 : S128x40x320.Slices ![0, 0, 0] S128x40x298
  slices_S128x40x320_o0_0_22_S128x40x298 : S128x40x320.Slices ![0, 0, 22] S128x40x298
  reduces_S128x40x298_S40x298 : S128x40x298.Reduces [0] S40x298
  inb_S1x41x40x320_S1x1x40x298_0_30_0_0 : ∀ a, (![0, 30, 0, 0] : Fin 4 → Nat) a + S1x1x40x298.size a ≤ S1x41x40x320.size a
  h_S1x1x40x298 : 0 < S1x1x40x298.numel
  shapeCasts_S1x1x40x298_S40x298 : S1x1x40x298.ShapeCasts S40x298
  shapeCasts_S40x298_S1x1x40x298 : S40x298.ShapeCasts S1x1x40x298
  slices_S128x40x320_o0_0_0_S128x40x297 : S128x40x320.Slices ![0, 0, 0] S128x40x297
  slices_S128x40x320_o0_0_23_S128x40x297 : S128x40x320.Slices ![0, 0, 23] S128x40x297
  reduces_S128x40x297_S40x297 : S128x40x297.Reduces [0] S40x297
  inb_S1x41x40x320_S1x1x40x297_0_31_0_0 : ∀ a, (![0, 31, 0, 0] : Fin 4 → Nat) a + S1x1x40x297.size a ≤ S1x41x40x320.size a
  h_S1x1x40x297 : 0 < S1x1x40x297.numel
  shapeCasts_S1x1x40x297_S40x297 : S1x1x40x297.ShapeCasts S40x297
  shapeCasts_S40x297_S1x1x40x297 : S40x297.ShapeCasts S1x1x40x297
  slices_S128x40x320_o0_0_0_S128x40x296 : S128x40x320.Slices ![0, 0, 0] S128x40x296
  slices_S128x40x320_o0_0_24_S128x40x296 : S128x40x320.Slices ![0, 0, 24] S128x40x296
  reduces_S128x40x296_S40x296 : S128x40x296.Reduces [0] S40x296
  inb_S1x41x40x320_S1x1x40x296_0_32_0_0 : ∀ a, (![0, 32, 0, 0] : Fin 4 → Nat) a + S1x1x40x296.size a ≤ S1x41x40x320.size a
  h_S1x1x40x296 : 0 < S1x1x40x296.numel
  shapeCasts_S1x1x40x296_S40x296 : S1x1x40x296.ShapeCasts S40x296
  shapeCasts_S40x296_S1x1x40x296 : S40x296.ShapeCasts S1x1x40x296
  slices_S128x40x320_o0_0_0_S128x40x295 : S128x40x320.Slices ![0, 0, 0] S128x40x295
  slices_S128x40x320_o0_0_25_S128x40x295 : S128x40x320.Slices ![0, 0, 25] S128x40x295
  reduces_S128x40x295_S40x295 : S128x40x295.Reduces [0] S40x295
  inb_S1x41x40x320_S1x1x40x295_0_33_0_0 : ∀ a, (![0, 33, 0, 0] : Fin 4 → Nat) a + S1x1x40x295.size a ≤ S1x41x40x320.size a
  h_S1x1x40x295 : 0 < S1x1x40x295.numel
  shapeCasts_S1x1x40x295_S40x295 : S1x1x40x295.ShapeCasts S40x295
  shapeCasts_S40x295_S1x1x40x295 : S40x295.ShapeCasts S1x1x40x295
  slices_S128x40x320_o0_0_0_S128x40x294 : S128x40x320.Slices ![0, 0, 0] S128x40x294
  slices_S128x40x320_o0_0_26_S128x40x294 : S128x40x320.Slices ![0, 0, 26] S128x40x294
  reduces_S128x40x294_S40x294 : S128x40x294.Reduces [0] S40x294
  inb_S1x41x40x320_S1x1x40x294_0_34_0_0 : ∀ a, (![0, 34, 0, 0] : Fin 4 → Nat) a + S1x1x40x294.size a ≤ S1x41x40x320.size a
  h_S1x1x40x294 : 0 < S1x1x40x294.numel
  shapeCasts_S1x1x40x294_S40x294 : S1x1x40x294.ShapeCasts S40x294
  shapeCasts_S40x294_S1x1x40x294 : S40x294.ShapeCasts S1x1x40x294
  slices_S128x40x320_o0_0_0_S128x40x293 : S128x40x320.Slices ![0, 0, 0] S128x40x293
  slices_S128x40x320_o0_0_27_S128x40x293 : S128x40x320.Slices ![0, 0, 27] S128x40x293
  reduces_S128x40x293_S40x293 : S128x40x293.Reduces [0] S40x293
  inb_S1x41x40x320_S1x1x40x293_0_35_0_0 : ∀ a, (![0, 35, 0, 0] : Fin 4 → Nat) a + S1x1x40x293.size a ≤ S1x41x40x320.size a
  h_S1x1x40x293 : 0 < S1x1x40x293.numel
  shapeCasts_S1x1x40x293_S40x293 : S1x1x40x293.ShapeCasts S40x293
  shapeCasts_S40x293_S1x1x40x293 : S40x293.ShapeCasts S1x1x40x293
  slices_S128x40x320_o0_0_0_S128x40x292 : S128x40x320.Slices ![0, 0, 0] S128x40x292
  slices_S128x40x320_o0_0_28_S128x40x292 : S128x40x320.Slices ![0, 0, 28] S128x40x292
  reduces_S128x40x292_S40x292 : S128x40x292.Reduces [0] S40x292
  inb_S1x41x40x320_S1x1x40x292_0_36_0_0 : ∀ a, (![0, 36, 0, 0] : Fin 4 → Nat) a + S1x1x40x292.size a ≤ S1x41x40x320.size a
  h_S1x1x40x292 : 0 < S1x1x40x292.numel
  shapeCasts_S1x1x40x292_S40x292 : S1x1x40x292.ShapeCasts S40x292
  shapeCasts_S40x292_S1x1x40x292 : S40x292.ShapeCasts S1x1x40x292
  slices_S128x40x320_o0_0_0_S128x40x291 : S128x40x320.Slices ![0, 0, 0] S128x40x291
  slices_S128x40x320_o0_0_29_S128x40x291 : S128x40x320.Slices ![0, 0, 29] S128x40x291
  reduces_S128x40x291_S40x291 : S128x40x291.Reduces [0] S40x291
  inb_S1x41x40x320_S1x1x40x291_0_37_0_0 : ∀ a, (![0, 37, 0, 0] : Fin 4 → Nat) a + S1x1x40x291.size a ≤ S1x41x40x320.size a
  h_S1x1x40x291 : 0 < S1x1x40x291.numel
  shapeCasts_S1x1x40x291_S40x291 : S1x1x40x291.ShapeCasts S40x291
  shapeCasts_S40x291_S1x1x40x291 : S40x291.ShapeCasts S1x1x40x291
  slices_S128x40x320_o0_0_0_S128x40x290 : S128x40x320.Slices ![0, 0, 0] S128x40x290
  slices_S128x40x320_o0_0_30_S128x40x290 : S128x40x320.Slices ![0, 0, 30] S128x40x290
  reduces_S128x40x290_S40x290 : S128x40x290.Reduces [0] S40x290
  inb_S1x41x40x320_S1x1x40x290_0_38_0_0 : ∀ a, (![0, 38, 0, 0] : Fin 4 → Nat) a + S1x1x40x290.size a ≤ S1x41x40x320.size a
  h_S1x1x40x290 : 0 < S1x1x40x290.numel
  shapeCasts_S1x1x40x290_S40x290 : S1x1x40x290.ShapeCasts S40x290
  shapeCasts_S40x290_S1x1x40x290 : S40x290.ShapeCasts S1x1x40x290
  slices_S128x40x320_o0_0_0_S128x40x289 : S128x40x320.Slices ![0, 0, 0] S128x40x289
  slices_S128x40x320_o0_0_31_S128x40x289 : S128x40x320.Slices ![0, 0, 31] S128x40x289
  reduces_S128x40x289_S40x289 : S128x40x289.Reduces [0] S40x289
  inb_S1x41x40x320_S1x1x40x289_0_39_0_0 : ∀ a, (![0, 39, 0, 0] : Fin 4 → Nat) a + S1x1x40x289.size a ≤ S1x41x40x320.size a
  h_S1x1x40x289 : 0 < S1x1x40x289.numel
  shapeCasts_S1x1x40x289_S40x289 : S1x1x40x289.ShapeCasts S40x289
  shapeCasts_S40x289_S1x1x40x289 : S40x289.ShapeCasts S1x1x40x289
  slices_S128x40x320_o0_0_0_S128x40x288 : S128x40x320.Slices ![0, 0, 0] S128x40x288
  slices_S128x40x320_o0_0_32_S128x40x288 : S128x40x320.Slices ![0, 0, 32] S128x40x288
  reduces_S128x40x288_S40x288 : S128x40x288.Reduces [0] S40x288
  inb_S1x41x40x320_S1x1x40x288_0_40_0_0 : ∀ a, (![0, 40, 0, 0] : Fin 4 → Nat) a + S1x1x40x288.size a ≤ S1x41x40x320.size a
  h_S1x1x40x288 : 0 < S1x1x40x288.numel
  shapeCasts_S1x1x40x288_S40x288 : S1x1x40x288.ShapeCasts S40x288
  shapeCasts_S40x288_S1x1x40x288 : S40x288.ShapeCasts S1x1x40x288
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x128x40x320.size a ≤ S4x128x160x320.size a
  hwx0_0 : ∀ i : grid0.Coords, EltTy.bits .f32 = 32 ∨ (Rect.block (s := S4x128x160x320) S1x128x40x320.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x128x40x320.size a ≤ S4x128x160x320.size a
  hwx0_1 : ∀ i : grid0.Coords, EltTy.bits .f32 = 32 ∨ (Rect.block (s := S4x128x160x320) S1x128x40x320.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x41x40x320.size a ≤ S4x41x160x320.size a
  hwx0_2 : ∀ i : grid0.Coords, EltTy.bits .f32 = 32 ∨ (Rect.block (s := S4x41x160x320) S1x41x40x320.size (cc0_transform_2 i) (hinb0_2 i)).WholeWords (EltTy.packing .f32)

variable [Facts₀]

abbrev win0_0 : Pipeline.Window sig grid0 :=
  Pipeline.Window.ofSpec (Memref.whole main_arg0) S1x128x40x320.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x128x40x320.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x41x40x320.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S4x128x160x320 : Shape := ⟨4, ![4, 128, 160, 320]⟩
abbrev S_ : Shape := ⟨0, ![]⟩
abbrev S4x128x160x360 : Shape := ⟨4, ![4, 128, 160, 360]⟩
abbrev S4x160x320 : Shape := ⟨3, ![4, 160, 320]⟩
abbrev S4x1x160x320 : Shape := ⟨4, ![4, 1, 160, 320]⟩
abbrev S4x16x160x320 : Shape := ⟨4, ![4, 16, 160, 320]⟩
abbrev S4x9x160x320 : Shape := ⟨4, ![4, 9, 160, 320]⟩
abbrev S4x41x160x320 : Shape := ⟨4, ![4, 41, 160, 320]⟩

abbrev nBuf : Space → Nat
  | .hbm => 378
  | .vmem => 0
  | .smem => 0
  | _ => 0

abbrev hbmTy0_0 (i : Nat) : BufTy := match i % 128 with
  | 0 => ⟨S4x128x160x320, .f32⟩
  | 1 => ⟨S4x128x160x320, .f32⟩
  | 2 => ⟨S_, .i32⟩
  | 3 => ⟨S_, .f32⟩
  | 4 => ⟨S4x128x160x360, .f32⟩
  | 5 => ⟨S_, .i32⟩
  | 6 => ⟨S_, .i32⟩
  | 7 => ⟨S_, .i32⟩
  | 8 => ⟨S_, .i32⟩
  | 9 => ⟨S4x128x160x320, .f32⟩
  | 10 => ⟨S4x128x160x320, .f32⟩
  | 11 => ⟨S_, .f32⟩
  | 12 => ⟨S4x160x320, .f32⟩
  | 13 => ⟨S_, .i32⟩
  | 14 => ⟨S_, .i32⟩
  | 15 => ⟨S_, .i32⟩
  | 16 => ⟨S_, .i32⟩
  | 17 => ⟨S4x128x160x320, .f32⟩
  | 18 => ⟨S4x128x160x320, .f32⟩
  | 19 => ⟨S_, .f32⟩
  | 20 => ⟨S4x160x320, .f32⟩
  | 21 => ⟨S_, .i32⟩
  | 22 => ⟨S_, .i32⟩
  | 23 => ⟨S_, .i32⟩
  | 24 => ⟨S_, .i32⟩
  | 25 => ⟨S4x128x160x320, .f32⟩
  | 26 => ⟨S4x128x160x320, .f32⟩
  | 27 => ⟨S_, .f32⟩
  | 28 => ⟨S4x160x320, .f32⟩
  | 29 => ⟨S_, .i32⟩
  | 30 => ⟨S_, .i32⟩
  | 31 => ⟨S_, .i32⟩
  | 32 => ⟨S_, .i32⟩
  | 33 => ⟨S4x128x160x320, .f32⟩
  | 34 => ⟨S4x128x160x320, .f32⟩
  | 35 => ⟨S_, .f32⟩
  | 36 => ⟨S4x160x320, .f32⟩
  | 37 => ⟨S_, .i32⟩
  | 38 => ⟨S_, .i32⟩
  | 39 => ⟨S_, .i32⟩
  | 40 => ⟨S_, .i32⟩
  | 41 => ⟨S4x128x160x320, .f32⟩
  | 42 => ⟨S4x128x160x320, .f32⟩
  | 43 => ⟨S_, .f32⟩
  | 44 => ⟨S4x160x320, .f32⟩
  | 45 => ⟨S_, .i32⟩
  | 46 => ⟨S_, .i32⟩
  | 47 => ⟨S_, .i32⟩
  | 48 => ⟨S_, .i32⟩
  | 49 => ⟨S4x128x160x320, .f32⟩
  | 50 => ⟨S4x128x160x320, .f32⟩
  | 51 => ⟨S_, .f32⟩
  | 52 => ⟨S4x160x320, .f32⟩
  | 53 => ⟨S_, .i32⟩
  | 54 => ⟨S_, .i32⟩
  | 55 => ⟨S_, .i32⟩
  | 56 => ⟨S_, .i32⟩
  | 57 => ⟨S4x128x160x320, .f32⟩
  | 58 => ⟨S4x128x160x320, .f32⟩
  | 59 => ⟨S_, .f32⟩
  | 60 => ⟨S4x160x320, .f32⟩
  | 61 => ⟨S_, .i32⟩
  | 62 => ⟨S_, .i32⟩
  | 63 => ⟨S_, .i32⟩
  | 64 => ⟨S_, .i32⟩
  | 65 => ⟨S4x128x160x320, .f32⟩
  | 66 => ⟨S4x128x160x320, .f32⟩
  | 67 => ⟨S_, .f32⟩
  | 68 => ⟨S4x160x320, .f32⟩
  | 69 => ⟨S_, .i32⟩
  | 70 => ⟨S_, .i32⟩
  | 71 => ⟨S_, .i32⟩
  | 72 => ⟨S_, .i32⟩
  | 73 => ⟨S4x128x160x320, .f32⟩
  | 74 => ⟨S4x128x160x320, .f32⟩
  | 75 => ⟨S_, .f32⟩
  | 76 => ⟨S4x160x320, .f32⟩
  | 77 => ⟨S_, .i32⟩
  | 78 => ⟨S_, .i32⟩
  | 79 => ⟨S_, .i32⟩
  | 80 => ⟨S_, .i32⟩
  | 81 => ⟨S4x128x160x320, .f32⟩
  | 82 => ⟨S4x128x160x320, .f32⟩
  | 83 => ⟨S_, .f32⟩
  | 84 => ⟨S4x160x320, .f32⟩
  | 85 => ⟨S_, .i32⟩
  | 86 => ⟨S_, .i32⟩
  | 87 => ⟨S_, .i32⟩
  | 88 => ⟨S_, .i32⟩
  | 89 => ⟨S4x128x160x320, .f32⟩
  | 90 => ⟨S4x128x160x320, .f32⟩
  | 91 => ⟨S_, .f32⟩
  | 92 => ⟨S4x160x320, .f32⟩
  | 93 => ⟨S_, .i32⟩
  | 94 => ⟨S_, .i32⟩
  | 95 => ⟨S_, .i32⟩
  | 96 => ⟨S_, .i32⟩
  | 97 => ⟨S4x128x160x320, .f32⟩
  | 98 => ⟨S4x128x160x320, .f32⟩
  | 99 => ⟨S_, .f32⟩
  | 100 => ⟨S4x160x320, .f32⟩
  | 101 => ⟨S_, .i32⟩
  | 102 => ⟨S_, .i32⟩
  | 103 => ⟨S_, .i32⟩
  | 104 => ⟨S_, .i32⟩
  | 105 => ⟨S4x128x160x320, .f32⟩
  | 106 => ⟨S4x128x160x320, .f32⟩
  | 107 => ⟨S_, .f32⟩
  | 108 => ⟨S4x160x320, .f32⟩
  | 109 => ⟨S_, .i32⟩
  | 110 => ⟨S_, .i32⟩
  | 111 => ⟨S_, .i32⟩
  | 112 => ⟨S_, .i32⟩
  | 113 => ⟨S4x128x160x320, .f32⟩
  | 114 => ⟨S4x128x160x320, .f32⟩
  | 115 => ⟨S_, .f32⟩
  | 116 => ⟨S4x160x320, .f32⟩
  | 117 => ⟨S_, .i32⟩
  | 118 => ⟨S_, .i32⟩
  | 119 => ⟨S_, .i32⟩
  | 120 => ⟨S_, .i32⟩
  | 121 => ⟨S4x128x160x320, .f32⟩
  | 122 => ⟨S4x128x160x320, .f32⟩
  | 123 => ⟨S_, .f32⟩
  | 124 => ⟨S4x160x320, .f32⟩
  | 125 => ⟨S_, .i32⟩
  | 126 => ⟨S_, .i32⟩
  | 127 => ⟨S_, .i32⟩
  | _ => ⟨S4x128x160x320, .f32⟩

abbrev hbmTy0_1 (i : Nat) : BufTy := match i % 128 with
  | 0 => ⟨S_, .i32⟩
  | 1 => ⟨S4x128x160x320, .f32⟩
  | 2 => ⟨S4x128x160x320, .f32⟩
  | 3 => ⟨S_, .f32⟩
  | 4 => ⟨S4x160x320, .f32⟩
  | 5 => ⟨S_, .i32⟩
  | 6 => ⟨S_, .i32⟩
  | 7 => ⟨S_, .i32⟩
  | 8 => ⟨S_, .i32⟩
  | 9 => ⟨S4x128x160x320, .f32⟩
  | 10 => ⟨S4x128x160x320, .f32⟩
  | 11 => ⟨S_, .f32⟩
  | 12 => ⟨S4x160x320, .f32⟩
  | 13 => ⟨S_, .i32⟩
  | 14 => ⟨S_, .i32⟩
  | 15 => ⟨S_, .i32⟩
  | 16 => ⟨S_, .i32⟩
  | 17 => ⟨S4x128x160x320, .f32⟩
  | 18 => ⟨S4x128x160x320, .f32⟩
  | 19 => ⟨S_, .f32⟩
  | 20 => ⟨S4x160x320, .f32⟩
  | 21 => ⟨S_, .i32⟩
  | 22 => ⟨S_, .i32⟩
  | 23 => ⟨S_, .i32⟩
  | 24 => ⟨S_, .i32⟩
  | 25 => ⟨S4x128x160x320, .f32⟩
  | 26 => ⟨S4x128x160x320, .f32⟩
  | 27 => ⟨S_, .f32⟩
  | 28 => ⟨S4x160x320, .f32⟩
  | 29 => ⟨S_, .i32⟩
  | 30 => ⟨S_, .i32⟩
  | 31 => ⟨S_, .i32⟩
  | 32 => ⟨S_, .i32⟩
  | 33 => ⟨S4x128x160x320, .f32⟩
  | 34 => ⟨S4x128x160x320, .f32⟩
  | 35 => ⟨S_, .f32⟩
  | 36 => ⟨S4x160x320, .f32⟩
  | 37 => ⟨S_, .i32⟩
  | 38 => ⟨S_, .i32⟩
  | 39 => ⟨S_, .i32⟩
  | 40 => ⟨S_, .i32⟩
  | 41 => ⟨S4x128x160x320, .f32⟩
  | 42 => ⟨S4x128x160x320, .f32⟩
  | 43 => ⟨S_, .f32⟩
  | 44 => ⟨S4x160x320, .f32⟩
  | 45 => ⟨S_, .i32⟩
  | 46 => ⟨S_, .i32⟩
  | 47 => ⟨S_, .i32⟩
  | 48 => ⟨S_, .i32⟩
  | 49 => ⟨S4x128x160x320, .f32⟩
  | 50 => ⟨S4x128x160x320, .f32⟩
  | 51 => ⟨S_, .f32⟩
  | 52 => ⟨S4x160x320, .f32⟩
  | 53 => ⟨S_, .i32⟩
  | 54 => ⟨S_, .i32⟩
  | 55 => ⟨S_, .i32⟩
  | 56 => ⟨S_, .i32⟩
  | 57 => ⟨S4x128x160x320, .f32⟩
  | 58 => ⟨S4x128x160x320, .f32⟩
  | 59 => ⟨S_, .f32⟩
  | 60 => ⟨S4x160x320, .f32⟩
  | 61 => ⟨S_, .i32⟩
  | 62 => ⟨S_, .i32⟩
  | 63 => ⟨S_, .i32⟩
  | 64 => ⟨S_, .i32⟩
  | 65 => ⟨S4x128x160x320, .f32⟩
  | 66 => ⟨S4x128x160x320, .f32⟩
  | 67 => ⟨S_, .f32⟩
  | 68 => ⟨S4x160x320, .f32⟩
  | 69 => ⟨S_, .i32⟩
  | 70 => ⟨S_, .i32⟩
  | 71 => ⟨S_, .i32⟩
  | 72 => ⟨S_, .i32⟩
  | 73 => ⟨S4x128x160x320, .f32⟩
  | 74 => ⟨S4x128x160x320, .f32⟩
  | 75 => ⟨S_, .f32⟩
  | 76 => ⟨S4x160x320, .f32⟩
  | 77 => ⟨S_, .i32⟩
  | 78 => ⟨S_, .i32⟩
  | 79 => ⟨S_, .i32⟩
  | 80 => ⟨S_, .i32⟩
  | 81 => ⟨S4x128x160x320, .f32⟩
  | 82 => ⟨S4x128x160x320, .f32⟩
  | 83 => ⟨S_, .f32⟩
  | 84 => ⟨S4x160x320, .f32⟩
  | 85 => ⟨S_, .i32⟩
  | 86 => ⟨S_, .i32⟩
  | 87 => ⟨S_, .i32⟩
  | 88 => ⟨S_, .i32⟩
  | 89 => ⟨S4x128x160x320, .f32⟩
  | 90 => ⟨S4x128x160x320, .f32⟩
  | 91 => ⟨S_, .f32⟩
  | 92 => ⟨S4x160x320, .f32⟩
  | 93 => ⟨S_, .i32⟩
  | 94 => ⟨S_, .i32⟩
  | 95 => ⟨S_, .i32⟩
  | 96 => ⟨S_, .i32⟩
  | 97 => ⟨S4x128x160x320, .f32⟩
  | 98 => ⟨S4x128x160x320, .f32⟩
  | 99 => ⟨S_, .f32⟩
  | 100 => ⟨S4x160x320, .f32⟩
  | 101 => ⟨S_, .i32⟩
  | 102 => ⟨S_, .i32⟩
  | 103 => ⟨S_, .i32⟩
  | 104 => ⟨S_, .i32⟩
  | 105 => ⟨S4x128x160x320, .f32⟩
  | 106 => ⟨S4x128x160x320, .f32⟩
  | 107 => ⟨S_, .f32⟩
  | 108 => ⟨S4x160x320, .f32⟩
  | 109 => ⟨S_, .i32⟩
  | 110 => ⟨S_, .i32⟩
  | 111 => ⟨S_, .i32⟩
  | 112 => ⟨S_, .i32⟩
  | 113 => ⟨S4x128x160x320, .f32⟩
  | 114 => ⟨S4x128x160x320, .f32⟩
  | 115 => ⟨S_, .f32⟩
  | 116 => ⟨S4x160x320, .f32⟩
  | 117 => ⟨S_, .i32⟩
  | 118 => ⟨S_, .i32⟩
  | 119 => ⟨S_, .i32⟩
  | 120 => ⟨S_, .i32⟩
  | 121 => ⟨S4x128x160x320, .f32⟩
  | 122 => ⟨S4x128x160x320, .f32⟩
  | 123 => ⟨S_, .f32⟩
  | 124 => ⟨S4x160x320, .f32⟩
  | 125 => ⟨S_, .i32⟩
  | 126 => ⟨S_, .i32⟩
  | 127 => ⟨S_, .i32⟩
  | _ => ⟨S4x128x160x320, .f32⟩

abbrev hbmTy0_2 (i : Nat) : BufTy := match i % 128 with
  | 0 => ⟨S_, .i32⟩
  | 1 => ⟨S4x128x160x320, .f32⟩
  | 2 => ⟨S4x128x160x320, .f32⟩
  | 3 => ⟨S_, .f32⟩
  | 4 => ⟨S4x160x320, .f32⟩
  | 5 => ⟨S_, .i32⟩
  | 6 => ⟨S_, .i32⟩
  | 7 => ⟨S_, .i32⟩
  | 8 => ⟨S_, .i32⟩
  | 9 => ⟨S4x128x160x320, .f32⟩
  | 10 => ⟨S4x128x160x320, .f32⟩
  | 11 => ⟨S_, .f32⟩
  | 12 => ⟨S4x160x320, .f32⟩
  | 13 => ⟨S_, .i32⟩
  | 14 => ⟨S_, .i32⟩
  | 15 => ⟨S_, .i32⟩
  | 16 => ⟨S_, .i32⟩
  | 17 => ⟨S4x128x160x320, .f32⟩
  | 18 => ⟨S4x128x160x320, .f32⟩
  | 19 => ⟨S_, .f32⟩
  | 20 => ⟨S4x160x320, .f32⟩
  | 21 => ⟨S_, .i32⟩
  | 22 => ⟨S_, .i32⟩
  | 23 => ⟨S_, .i32⟩
  | 24 => ⟨S_, .i32⟩
  | 25 => ⟨S4x128x160x320, .f32⟩
  | 26 => ⟨S4x128x160x320, .f32⟩
  | 27 => ⟨S_, .f32⟩
  | 28 => ⟨S4x160x320, .f32⟩
  | 29 => ⟨S_, .i32⟩
  | 30 => ⟨S_, .i32⟩
  | 31 => ⟨S_, .i32⟩
  | 32 => ⟨S_, .i32⟩
  | 33 => ⟨S4x128x160x320, .f32⟩
  | 34 => ⟨S4x128x160x320, .f32⟩
  | 35 => ⟨S_, .f32⟩
  | 36 => ⟨S4x160x320, .f32⟩
  | 37 => ⟨S_, .i32⟩
  | 38 => ⟨S_, .i32⟩
  | 39 => ⟨S_, .i32⟩
  | 40 => ⟨S_, .i32⟩
  | 41 => ⟨S4x128x160x320, .f32⟩
  | 42 => ⟨S4x128x160x320, .f32⟩
  | 43 => ⟨S_, .f32⟩
  | 44 => ⟨S4x160x320, .f32⟩
  | 45 => ⟨S_, .i32⟩
  | 46 => ⟨S_, .i32⟩
  | 47 => ⟨S_, .i32⟩
  | 48 => ⟨S_, .i32⟩
  | 49 => ⟨S4x128x160x320, .f32⟩
  | 50 => ⟨S4x128x160x320, .f32⟩
  | 51 => ⟨S_, .f32⟩
  | 52 => ⟨S4x160x320, .f32⟩
  | 53 => ⟨S_, .i32⟩
  | 54 => ⟨S_, .i32⟩
  | 55 => ⟨S_, .i32⟩
  | 56 => ⟨S_, .i32⟩
  | 57 => ⟨S4x128x160x320, .f32⟩
  | 58 => ⟨S4x128x160x320, .f32⟩
  | 59 => ⟨S_, .f32⟩
  | 60 => ⟨S4x160x320, .f32⟩
  | 61 => ⟨S_, .i32⟩
  | 62 => ⟨S_, .i32⟩
  | 63 => ⟨S_, .i32⟩
  | 64 => ⟨S_, .i32⟩
  | 65 => ⟨S4x128x160x320, .f32⟩
  | 66 => ⟨S4x128x160x320, .f32⟩
  | 67 => ⟨S_, .f32⟩
  | 68 => ⟨S4x160x320, .f32⟩
  | 69 => ⟨S_, .i32⟩
  | 70 => ⟨S_, .i32⟩
  | 71 => ⟨S_, .i32⟩
  | 72 => ⟨S_, .i32⟩
  | 73 => ⟨S4x128x160x320, .f32⟩
  | 74 => ⟨S4x128x160x320, .f32⟩
  | 75 => ⟨S_, .f32⟩
  | 76 => ⟨S4x160x320, .f32⟩
  | 77 => ⟨S4x1x160x320, .f32⟩
  | 78 => ⟨S4x1x160x320, .f32⟩
  | 79 => ⟨S4x1x160x320, .f32⟩
  | 80 => ⟨S4x1x160x320, .f32⟩
  | 81 => ⟨S4x1x160x320, .f32⟩
  | 82 => ⟨S4x1x160x320, .f32⟩
  | 83 => ⟨S4x1x160x320, .f32⟩
  | 84 => ⟨S4x1x160x320, .f32⟩
  | 85 => ⟨S4x1x160x320, .f32⟩
  | 86 => ⟨S4x1x160x320, .f32⟩
  | 87 => ⟨S4x1x160x320, .f32⟩
  | 88 => ⟨S4x1x160x320, .f32⟩
  | 89 => ⟨S4x1x160x320, .f32⟩
  | 90 => ⟨S4x1x160x320, .f32⟩
  | 91 => ⟨S4x1x160x320, .f32⟩
  | 92 => ⟨S4x1x160x320, .f32⟩
  | 93 => ⟨S4x1x160x320, .f32⟩
  | 94 => ⟨S4x1x160x320, .f32⟩
  | 95 => ⟨S4x1x160x320, .f32⟩
  | 96 => ⟨S4x1x160x320, .f32⟩
  | 97 => ⟨S4x1x160x320, .f32⟩
  | 98 => ⟨S4x1x160x320, .f32⟩
  | 99 => ⟨S4x1x160x320, .f32⟩
  | 100 => ⟨S4x1x160x320, .f32⟩
  | 101 => ⟨S4x1x160x320, .f32⟩
  | 102 => ⟨S4x1x160x320, .f32⟩
  | 103 => ⟨S4x1x160x320, .f32⟩
  | 104 => ⟨S4x1x160x320, .f32⟩
  | 105 => ⟨S4x1x160x320, .f32⟩
  | 106 => ⟨S4x1x160x320, .f32⟩
  | 107 => ⟨S4x1x160x320, .f32⟩
  | 108 => ⟨S4x1x160x320, .f32⟩
  | 109 => ⟨S4x1x160x320, .f32⟩
  | 110 => ⟨S4x1x160x320, .f32⟩
  | 111 => ⟨S4x1x160x320, .f32⟩
  | 112 => ⟨S4x1x160x320, .f32⟩
  | 113 => ⟨S4x1x160x320, .f32⟩
  | 114 => ⟨S4x1x160x320, .f32⟩
  | 115 => ⟨S4x1x160x320, .f32⟩
  | 116 => ⟨S4x1x160x320, .f32⟩
  | 117 => ⟨S4x1x160x320, .f32⟩
  | 118 => ⟨S4x16x160x320, .f32⟩
  | 119 => ⟨S4x16x160x320, .f32⟩
  | 120 => ⟨S4x9x160x320, .f32⟩
  | 121 => ⟨S4x41x160x320, .f32⟩
  | _ => ⟨S4x128x160x320, .f32⟩

abbrev hbmTy (i : Nat) : BufTy := match i / 128 with
  | 0 => hbmTy0_0 i
  | 1 => hbmTy0_1 i
  | 2 => hbmTy0_2 i
  | _ => ⟨S4x128x160x320, .f32⟩

abbrev bufTy : (tb : Table) → Fin (tcTables nBuf tb) → BufTy
  | .hbm, ⟨i, _⟩ => hbmTy i
  | _, _ => ⟨S4x128x160x320, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_call0_v0 : Ref sig .tc := ⟨.hbm, 3, rfl⟩
abbrev main_v0 : Ref sig .tc := ⟨.hbm, 4, rfl⟩
abbrev main_c_0 : Ref sig .tc := ⟨.hbm, 5, rfl⟩
abbrev main_c_1 : Ref sig .tc := ⟨.hbm, 6, rfl⟩
abbrev main_c_2 : Ref sig .tc := ⟨.hbm, 7, rfl⟩
abbrev main_c_3 : Ref sig .tc := ⟨.hbm, 8, rfl⟩
abbrev main_v1 : Ref sig .tc := ⟨.hbm, 9, rfl⟩
abbrev main_v2 : Ref sig .tc := ⟨.hbm, 10, rfl⟩
abbrev main_cst : Ref sig .tc := ⟨.hbm, 11, rfl⟩
abbrev main_v3 : Ref sig .tc := ⟨.hbm, 12, rfl⟩
abbrev main_c_4 : Ref sig .tc := ⟨.hbm, 13, rfl⟩
abbrev main_c_5 : Ref sig .tc := ⟨.hbm, 14, rfl⟩
abbrev main_c_6 : Ref sig .tc := ⟨.hbm, 15, rfl⟩
abbrev main_c_7 : Ref sig .tc := ⟨.hbm, 16, rfl⟩
abbrev main_v4 : Ref sig .tc := ⟨.hbm, 17, rfl⟩
abbrev main_v5 : Ref sig .tc := ⟨.hbm, 18, rfl⟩
abbrev main_cst_8 : Ref sig .tc := ⟨.hbm, 19, rfl⟩
abbrev main_v6 : Ref sig .tc := ⟨.hbm, 20, rfl⟩
abbrev main_c_9 : Ref sig .tc := ⟨.hbm, 21, rfl⟩
abbrev main_c_10 : Ref sig .tc := ⟨.hbm, 22, rfl⟩
abbrev main_c_11 : Ref sig .tc := ⟨.hbm, 23, rfl⟩
abbrev main_c_12 : Ref sig .tc := ⟨.hbm, 24, rfl⟩
abbrev main_v7 : Ref sig .tc := ⟨.hbm, 25, rfl⟩
abbrev main_v8 : Ref sig .tc := ⟨.hbm, 26, rfl⟩
abbrev main_cst_13 : Ref sig .tc := ⟨.hbm, 27, rfl⟩
abbrev main_v9 : Ref sig .tc := ⟨.hbm, 28, rfl⟩
abbrev main_c_14 : Ref sig .tc := ⟨.hbm, 29, rfl⟩
abbrev main_c_15 : Ref sig .tc := ⟨.hbm, 30, rfl⟩
abbrev main_c_16 : Ref sig .tc := ⟨.hbm, 31, rfl⟩
abbrev main_c_17 : Ref sig .tc := ⟨.hbm, 32, rfl⟩
abbrev main_v10 : Ref sig .tc := ⟨.hbm, 33, rfl⟩
abbrev main_v11 : Ref sig .tc := ⟨.hbm, 34, rfl⟩
abbrev main_cst_18 : Ref sig .tc := ⟨.hbm, 35, rfl⟩
abbrev main_v12 : Ref sig .tc := ⟨.hbm, 36, rfl⟩
abbrev main_c_19 : Ref sig .tc := ⟨.hbm, 37, rfl⟩
abbrev main_c_20 : Ref sig .tc := ⟨.hbm, 38, rfl⟩
abbrev main_c_21 : Ref sig .tc := ⟨.hbm, 39, rfl⟩
abbrev main_c_22 : Ref sig .tc := ⟨.hbm, 40, rfl⟩
abbrev main_v13 : Ref sig .tc := ⟨.hbm, 41, rfl⟩
abbrev main_v14 : Ref sig .tc := ⟨.hbm, 42, rfl⟩
abbrev main_cst_23 : Ref sig .tc := ⟨.hbm, 43, rfl⟩
abbrev main_v15 : Ref sig .tc := ⟨.hbm, 44, rfl⟩
abbrev main_c_24 : Ref sig .tc := ⟨.hbm, 45, rfl⟩
abbrev main_c_25 : Ref sig .tc := ⟨.hbm, 46, rfl⟩
abbrev main_c_26 : Ref sig .tc := ⟨.hbm, 47, rfl⟩
abbrev main_c_27 : Ref sig .tc := ⟨.hbm, 48, rfl⟩
abbrev main_v16 : Ref sig .tc := ⟨.hbm, 49, rfl⟩
abbrev main_v17 : Ref sig .tc := ⟨.hbm, 50, rfl⟩
abbrev main_cst_28 : Ref sig .tc := ⟨.hbm, 51, rfl⟩
abbrev main_v18 : Ref sig .tc := ⟨.hbm, 52, rfl⟩
abbrev main_c_29 : Ref sig .tc := ⟨.hbm, 53, rfl⟩
abbrev main_c_30 : Ref sig .tc := ⟨.hbm, 54, rfl⟩
abbrev main_c_31 : Ref sig .tc := ⟨.hbm, 55, rfl⟩
abbrev main_c_32 : Ref sig .tc := ⟨.hbm, 56, rfl⟩
abbrev main_v19 : Ref sig .tc := ⟨.hbm, 57, rfl⟩
abbrev main_v20 : Ref sig .tc := ⟨.hbm, 58, rfl⟩
abbrev main_cst_33 : Ref sig .tc := ⟨.hbm, 59, rfl⟩
abbrev main_v21 : Ref sig .tc := ⟨.hbm, 60, rfl⟩
abbrev main_c_34 : Ref sig .tc := ⟨.hbm, 61, rfl⟩
abbrev main_c_35 : Ref sig .tc := ⟨.hbm, 62, rfl⟩
abbrev main_c_36 : Ref sig .tc := ⟨.hbm, 63, rfl⟩
abbrev main_c_37 : Ref sig .tc := ⟨.hbm, 64, rfl⟩
abbrev main_v22 : Ref sig .tc := ⟨.hbm, 65, rfl⟩
abbrev main_v23 : Ref sig .tc := ⟨.hbm, 66, rfl⟩
abbrev main_cst_38 : Ref sig .tc := ⟨.hbm, 67, rfl⟩
abbrev main_v24 : Ref sig .tc := ⟨.hbm, 68, rfl⟩
abbrev main_c_39 : Ref sig .tc := ⟨.hbm, 69, rfl⟩
abbrev main_c_40 : Ref sig .tc := ⟨.hbm, 70, rfl⟩
abbrev main_c_41 : Ref sig .tc := ⟨.hbm, 71, rfl⟩
abbrev main_c_42 : Ref sig .tc := ⟨.hbm, 72, rfl⟩
abbrev main_v25 : Ref sig .tc := ⟨.hbm, 73, rfl⟩
abbrev main_v26 : Ref sig .tc := ⟨.hbm, 74, rfl⟩
abbrev main_cst_43 : Ref sig .tc := ⟨.hbm, 75, rfl⟩
abbrev main_v27 : Ref sig .tc := ⟨.hbm, 76, rfl⟩
abbrev main_c_44 : Ref sig .tc := ⟨.hbm, 77, rfl⟩
abbrev main_c_45 : Ref sig .tc := ⟨.hbm, 78, rfl⟩
abbrev main_c_46 : Ref sig .tc := ⟨.hbm, 79, rfl⟩
abbrev main_c_47 : Ref sig .tc := ⟨.hbm, 80, rfl⟩
abbrev main_v28 : Ref sig .tc := ⟨.hbm, 81, rfl⟩
abbrev main_v29 : Ref sig .tc := ⟨.hbm, 82, rfl⟩
abbrev main_cst_48 : Ref sig .tc := ⟨.hbm, 83, rfl⟩
abbrev main_v30 : Ref sig .tc := ⟨.hbm, 84, rfl⟩
abbrev main_c_49 : Ref sig .tc := ⟨.hbm, 85, rfl⟩
abbrev main_c_50 : Ref sig .tc := ⟨.hbm, 86, rfl⟩
abbrev main_c_51 : Ref sig .tc := ⟨.hbm, 87, rfl⟩
abbrev main_c_52 : Ref sig .tc := ⟨.hbm, 88, rfl⟩
abbrev main_v31 : Ref sig .tc := ⟨.hbm, 89, rfl⟩
abbrev main_v32 : Ref sig .tc := ⟨.hbm, 90, rfl⟩
abbrev main_cst_53 : Ref sig .tc := ⟨.hbm, 91, rfl⟩
abbrev main_v33 : Ref sig .tc := ⟨.hbm, 92, rfl⟩
abbrev main_c_54 : Ref sig .tc := ⟨.hbm, 93, rfl⟩
abbrev main_c_55 : Ref sig .tc := ⟨.hbm, 94, rfl⟩
abbrev main_c_56 : Ref sig .tc := ⟨.hbm, 95, rfl⟩
abbrev main_c_57 : Ref sig .tc := ⟨.hbm, 96, rfl⟩
abbrev main_v34 : Ref sig .tc := ⟨.hbm, 97, rfl⟩
abbrev main_v35 : Ref sig .tc := ⟨.hbm, 98, rfl⟩
abbrev main_cst_58 : Ref sig .tc := ⟨.hbm, 99, rfl⟩
abbrev main_v36 : Ref sig .tc := ⟨.hbm, 100, rfl⟩
abbrev main_c_59 : Ref sig .tc := ⟨.hbm, 101, rfl⟩
abbrev main_c_60 : Ref sig .tc := ⟨.hbm, 102, rfl⟩
abbrev main_c_61 : Ref sig .tc := ⟨.hbm, 103, rfl⟩
abbrev main_c_62 : Ref sig .tc := ⟨.hbm, 104, rfl⟩
abbrev main_v37 : Ref sig .tc := ⟨.hbm, 105, rfl⟩
abbrev main_v38 : Ref sig .tc := ⟨.hbm, 106, rfl⟩
abbrev main_cst_63 : Ref sig .tc := ⟨.hbm, 107, rfl⟩
abbrev main_v39 : Ref sig .tc := ⟨.hbm, 108, rfl⟩
abbrev main_c_64 : Ref sig .tc := ⟨.hbm, 109, rfl⟩
abbrev main_c_65 : Ref sig .tc := ⟨.hbm, 110, rfl⟩
abbrev main_c_66 : Ref sig .tc := ⟨.hbm, 111, rfl⟩
abbrev main_c_67 : Ref sig .tc := ⟨.hbm, 112, rfl⟩
abbrev main_v40 : Ref sig .tc := ⟨.hbm, 113, rfl⟩
abbrev main_v41 : Ref sig .tc := ⟨.hbm, 114, rfl⟩
abbrev main_cst_68 : Ref sig .tc := ⟨.hbm, 115, rfl⟩
abbrev main_v42 : Ref sig .tc := ⟨.hbm, 116, rfl⟩
abbrev main_c_69 : Ref sig .tc := ⟨.hbm, 117, rfl⟩
abbrev main_c_70 : Ref sig .tc := ⟨.hbm, 118, rfl⟩
abbrev main_c_71 : Ref sig .tc := ⟨.hbm, 119, rfl⟩
abbrev main_c_72 : Ref sig .tc := ⟨.hbm, 120, rfl⟩
abbrev main_v43 : Ref sig .tc := ⟨.hbm, 121, rfl⟩
abbrev main_v44 : Ref sig .tc := ⟨.hbm, 122, rfl⟩
abbrev main_cst_73 : Ref sig .tc := ⟨.hbm, 123, rfl⟩
abbrev main_v45 : Ref sig .tc := ⟨.hbm, 124, rfl⟩
abbrev main_c_74 : Ref sig .tc := ⟨.hbm, 125, rfl⟩
abbrev main_c_75 : Ref sig .tc := ⟨.hbm, 126, rfl⟩
abbrev main_c_76 : Ref sig .tc := ⟨.hbm, 127, rfl⟩
abbrev main_c_77 : Ref sig .tc := ⟨.hbm, 128, rfl⟩
abbrev main_v46 : Ref sig .tc := ⟨.hbm, 129, rfl⟩
abbrev main_v47 : Ref sig .tc := ⟨.hbm, 130, rfl⟩
abbrev main_cst_78 : Ref sig .tc := ⟨.hbm, 131, rfl⟩
abbrev main_v48 : Ref sig .tc := ⟨.hbm, 132, rfl⟩
abbrev main_c_79 : Ref sig .tc := ⟨.hbm, 133, rfl⟩
abbrev main_c_80 : Ref sig .tc := ⟨.hbm, 134, rfl⟩
abbrev main_c_81 : Ref sig .tc := ⟨.hbm, 135, rfl⟩
abbrev main_c_82 : Ref sig .tc := ⟨.hbm, 136, rfl⟩
abbrev main_v49 : Ref sig .tc := ⟨.hbm, 137, rfl⟩
abbrev main_v50 : Ref sig .tc := ⟨.hbm, 138, rfl⟩
abbrev main_cst_83 : Ref sig .tc := ⟨.hbm, 139, rfl⟩
abbrev main_v51 : Ref sig .tc := ⟨.hbm, 140, rfl⟩
abbrev main_c_84 : Ref sig .tc := ⟨.hbm, 141, rfl⟩
abbrev main_c_85 : Ref sig .tc := ⟨.hbm, 142, rfl⟩
abbrev main_c_86 : Ref sig .tc := ⟨.hbm, 143, rfl⟩
abbrev main_c_87 : Ref sig .tc := ⟨.hbm, 144, rfl⟩
abbrev main_v52 : Ref sig .tc := ⟨.hbm, 145, rfl⟩
abbrev main_v53 : Ref sig .tc := ⟨.hbm, 146, rfl⟩
abbrev main_cst_88 : Ref sig .tc := ⟨.hbm, 147, rfl⟩
abbrev main_v54 : Ref sig .tc := ⟨.hbm, 148, rfl⟩
abbrev main_c_89 : Ref sig .tc := ⟨.hbm, 149, rfl⟩
abbrev main_c_90 : Ref sig .tc := ⟨.hbm, 150, rfl⟩
abbrev main_c_91 : Ref sig .tc := ⟨.hbm, 151, rfl⟩
abbrev main_c_92 : Ref sig .tc := ⟨.hbm, 152, rfl⟩
abbrev main_v55 : Ref sig .tc := ⟨.hbm, 153, rfl⟩
abbrev main_v56 : Ref sig .tc := ⟨.hbm, 154, rfl⟩
abbrev main_cst_93 : Ref sig .tc := ⟨.hbm, 155, rfl⟩
abbrev main_v57 : Ref sig .tc := ⟨.hbm, 156, rfl⟩
abbrev main_c_94 : Ref sig .tc := ⟨.hbm, 157, rfl⟩
abbrev main_c_95 : Ref sig .tc := ⟨.hbm, 158, rfl⟩
abbrev main_c_96 : Ref sig .tc := ⟨.hbm, 159, rfl⟩
abbrev main_c_97 : Ref sig .tc := ⟨.hbm, 160, rfl⟩
abbrev main_v58 : Ref sig .tc := ⟨.hbm, 161, rfl⟩
abbrev main_v59 : Ref sig .tc := ⟨.hbm, 162, rfl⟩
abbrev main_cst_98 : Ref sig .tc := ⟨.hbm, 163, rfl⟩
abbrev main_v60 : Ref sig .tc := ⟨.hbm, 164, rfl⟩
abbrev main_c_99 : Ref sig .tc := ⟨.hbm, 165, rfl⟩
abbrev main_c_100 : Ref sig .tc := ⟨.hbm, 166, rfl⟩
abbrev main_c_101 : Ref sig .tc := ⟨.hbm, 167, rfl⟩
abbrev main_c_102 : Ref sig .tc := ⟨.hbm, 168, rfl⟩
abbrev main_v61 : Ref sig .tc := ⟨.hbm, 169, rfl⟩
abbrev main_v62 : Ref sig .tc := ⟨.hbm, 170, rfl⟩
abbrev main_cst_103 : Ref sig .tc := ⟨.hbm, 171, rfl⟩
abbrev main_v63 : Ref sig .tc := ⟨.hbm, 172, rfl⟩
abbrev main_c_104 : Ref sig .tc := ⟨.hbm, 173, rfl⟩
abbrev main_c_105 : Ref sig .tc := ⟨.hbm, 174, rfl⟩
abbrev main_c_106 : Ref sig .tc := ⟨.hbm, 175, rfl⟩
abbrev main_c_107 : Ref sig .tc := ⟨.hbm, 176, rfl⟩
abbrev main_v64 : Ref sig .tc := ⟨.hbm, 177, rfl⟩
abbrev main_v65 : Ref sig .tc := ⟨.hbm, 178, rfl⟩
abbrev main_cst_108 : Ref sig .tc := ⟨.hbm, 179, rfl⟩
abbrev main_v66 : Ref sig .tc := ⟨.hbm, 180, rfl⟩
abbrev main_c_109 : Ref sig .tc := ⟨.hbm, 181, rfl⟩
abbrev main_c_110 : Ref sig .tc := ⟨.hbm, 182, rfl⟩
abbrev main_c_111 : Ref sig .tc := ⟨.hbm, 183, rfl⟩
abbrev main_c_112 : Ref sig .tc := ⟨.hbm, 184, rfl⟩
abbrev main_v67 : Ref sig .tc := ⟨.hbm, 185, rfl⟩
abbrev main_v68 : Ref sig .tc := ⟨.hbm, 186, rfl⟩
abbrev main_cst_113 : Ref sig .tc := ⟨.hbm, 187, rfl⟩
abbrev main_v69 : Ref sig .tc := ⟨.hbm, 188, rfl⟩
abbrev main_c_114 : Ref sig .tc := ⟨.hbm, 189, rfl⟩
abbrev main_c_115 : Ref sig .tc := ⟨.hbm, 190, rfl⟩
abbrev main_c_116 : Ref sig .tc := ⟨.hbm, 191, rfl⟩
abbrev main_c_117 : Ref sig .tc := ⟨.hbm, 192, rfl⟩
abbrev main_v70 : Ref sig .tc := ⟨.hbm, 193, rfl⟩
abbrev main_v71 : Ref sig .tc := ⟨.hbm, 194, rfl⟩
abbrev main_cst_118 : Ref sig .tc := ⟨.hbm, 195, rfl⟩
abbrev main_v72 : Ref sig .tc := ⟨.hbm, 196, rfl⟩
abbrev main_c_119 : Ref sig .tc := ⟨.hbm, 197, rfl⟩
abbrev main_c_120 : Ref sig .tc := ⟨.hbm, 198, rfl⟩
abbrev main_c_121 : Ref sig .tc := ⟨.hbm, 199, rfl⟩
abbrev main_c_122 : Ref sig .tc := ⟨.hbm, 200, rfl⟩
abbrev main_v73 : Ref sig .tc := ⟨.hbm, 201, rfl⟩
abbrev main_v74 : Ref sig .tc := ⟨.hbm, 202, rfl⟩
abbrev main_cst_123 : Ref sig .tc := ⟨.hbm, 203, rfl⟩
abbrev main_v75 : Ref sig .tc := ⟨.hbm, 204, rfl⟩
abbrev main_c_124 : Ref sig .tc := ⟨.hbm, 205, rfl⟩
abbrev main_c_125 : Ref sig .tc := ⟨.hbm, 206, rfl⟩
abbrev main_c_126 : Ref sig .tc := ⟨.hbm, 207, rfl⟩
abbrev main_c_127 : Ref sig .tc := ⟨.hbm, 208, rfl⟩
abbrev main_v76 : Ref sig .tc := ⟨.hbm, 209, rfl⟩
abbrev main_v77 : Ref sig .tc := ⟨.hbm, 210, rfl⟩
abbrev main_cst_128 : Ref sig .tc := ⟨.hbm, 211, rfl⟩
abbrev main_v78 : Ref sig .tc := ⟨.hbm, 212, rfl⟩
abbrev main_c_129 : Ref sig .tc := ⟨.hbm, 213, rfl⟩
abbrev main_c_130 : Ref sig .tc := ⟨.hbm, 214, rfl⟩
abbrev main_c_131 : Ref sig .tc := ⟨.hbm, 215, rfl⟩
abbrev main_c_132 : Ref sig .tc := ⟨.hbm, 216, rfl⟩
abbrev main_v79 : Ref sig .tc := ⟨.hbm, 217, rfl⟩
abbrev main_v80 : Ref sig .tc := ⟨.hbm, 218, rfl⟩
abbrev main_cst_133 : Ref sig .tc := ⟨.hbm, 219, rfl⟩
abbrev main_v81 : Ref sig .tc := ⟨.hbm, 220, rfl⟩
abbrev main_c_134 : Ref sig .tc := ⟨.hbm, 221, rfl⟩
abbrev main_c_135 : Ref sig .tc := ⟨.hbm, 222, rfl⟩
abbrev main_c_136 : Ref sig .tc := ⟨.hbm, 223, rfl⟩
abbrev main_c_137 : Ref sig .tc := ⟨.hbm, 224, rfl⟩
abbrev main_v82 : Ref sig .tc := ⟨.hbm, 225, rfl⟩
abbrev main_v83 : Ref sig .tc := ⟨.hbm, 226, rfl⟩
abbrev main_cst_138 : Ref sig .tc := ⟨.hbm, 227, rfl⟩
abbrev main_v84 : Ref sig .tc := ⟨.hbm, 228, rfl⟩
abbrev main_c_139 : Ref sig .tc := ⟨.hbm, 229, rfl⟩
abbrev main_c_140 : Ref sig .tc := ⟨.hbm, 230, rfl⟩
abbrev main_c_141 : Ref sig .tc := ⟨.hbm, 231, rfl⟩
abbrev main_c_142 : Ref sig .tc := ⟨.hbm, 232, rfl⟩
abbrev main_v85 : Ref sig .tc := ⟨.hbm, 233, rfl⟩
abbrev main_v86 : Ref sig .tc := ⟨.hbm, 234, rfl⟩
abbrev main_cst_143 : Ref sig .tc := ⟨.hbm, 235, rfl⟩
abbrev main_v87 : Ref sig .tc := ⟨.hbm, 236, rfl⟩
abbrev main_c_144 : Ref sig .tc := ⟨.hbm, 237, rfl⟩
abbrev main_c_145 : Ref sig .tc := ⟨.hbm, 238, rfl⟩
abbrev main_c_146 : Ref sig .tc := ⟨.hbm, 239, rfl⟩
abbrev main_c_147 : Ref sig .tc := ⟨.hbm, 240, rfl⟩
abbrev main_v88 : Ref sig .tc := ⟨.hbm, 241, rfl⟩
abbrev main_v89 : Ref sig .tc := ⟨.hbm, 242, rfl⟩
abbrev main_cst_148 : Ref sig .tc := ⟨.hbm, 243, rfl⟩
abbrev main_v90 : Ref sig .tc := ⟨.hbm, 244, rfl⟩
abbrev main_c_149 : Ref sig .tc := ⟨.hbm, 245, rfl⟩
abbrev main_c_150 : Ref sig .tc := ⟨.hbm, 246, rfl⟩
abbrev main_c_151 : Ref sig .tc := ⟨.hbm, 247, rfl⟩
abbrev main_c_152 : Ref sig .tc := ⟨.hbm, 248, rfl⟩
abbrev main_v91 : Ref sig .tc := ⟨.hbm, 249, rfl⟩
abbrev main_v92 : Ref sig .tc := ⟨.hbm, 250, rfl⟩
abbrev main_cst_153 : Ref sig .tc := ⟨.hbm, 251, rfl⟩
abbrev main_v93 : Ref sig .tc := ⟨.hbm, 252, rfl⟩
abbrev main_c_154 : Ref sig .tc := ⟨.hbm, 253, rfl⟩
abbrev main_c_155 : Ref sig .tc := ⟨.hbm, 254, rfl⟩
abbrev main_c_156 : Ref sig .tc := ⟨.hbm, 255, rfl⟩
abbrev main_c_157 : Ref sig .tc := ⟨.hbm, 256, rfl⟩
abbrev main_v94 : Ref sig .tc := ⟨.hbm, 257, rfl⟩
abbrev main_v95 : Ref sig .tc := ⟨.hbm, 258, rfl⟩
abbrev main_cst_158 : Ref sig .tc := ⟨.hbm, 259, rfl⟩
abbrev main_v96 : Ref sig .tc := ⟨.hbm, 260, rfl⟩
abbrev main_c_159 : Ref sig .tc := ⟨.hbm, 261, rfl⟩
abbrev main_c_160 : Ref sig .tc := ⟨.hbm, 262, rfl⟩
abbrev main_c_161 : Ref sig .tc := ⟨.hbm, 263, rfl⟩
abbrev main_c_162 : Ref sig .tc := ⟨.hbm, 264, rfl⟩
abbrev main_v97 : Ref sig .tc := ⟨.hbm, 265, rfl⟩
abbrev main_v98 : Ref sig .tc := ⟨.hbm, 266, rfl⟩
abbrev main_cst_163 : Ref sig .tc := ⟨.hbm, 267, rfl⟩
abbrev main_v99 : Ref sig .tc := ⟨.hbm, 268, rfl⟩
abbrev main_c_164 : Ref sig .tc := ⟨.hbm, 269, rfl⟩
abbrev main_c_165 : Ref sig .tc := ⟨.hbm, 270, rfl⟩
abbrev main_c_166 : Ref sig .tc := ⟨.hbm, 271, rfl⟩
abbrev main_c_167 : Ref sig .tc := ⟨.hbm, 272, rfl⟩
abbrev main_v100 : Ref sig .tc := ⟨.hbm, 273, rfl⟩
abbrev main_v101 : Ref sig .tc := ⟨.hbm, 274, rfl⟩
abbrev main_cst_168 : Ref sig .tc := ⟨.hbm, 275, rfl⟩
abbrev main_v102 : Ref sig .tc := ⟨.hbm, 276, rfl⟩
abbrev main_c_169 : Ref sig .tc := ⟨.hbm, 277, rfl⟩
abbrev main_c_170 : Ref sig .tc := ⟨.hbm, 278, rfl⟩
abbrev main_c_171 : Ref sig .tc := ⟨.hbm, 279, rfl⟩
abbrev main_c_172 : Ref sig .tc := ⟨.hbm, 280, rfl⟩
abbrev main_v103 : Ref sig .tc := ⟨.hbm, 281, rfl⟩
abbrev main_v104 : Ref sig .tc := ⟨.hbm, 282, rfl⟩
abbrev main_cst_173 : Ref sig .tc := ⟨.hbm, 283, rfl⟩
abbrev main_v105 : Ref sig .tc := ⟨.hbm, 284, rfl⟩
abbrev main_c_174 : Ref sig .tc := ⟨.hbm, 285, rfl⟩
abbrev main_c_175 : Ref sig .tc := ⟨.hbm, 286, rfl⟩
abbrev main_c_176 : Ref sig .tc := ⟨.hbm, 287, rfl⟩
abbrev main_c_177 : Ref sig .tc := ⟨.hbm, 288, rfl⟩
abbrev main_v106 : Ref sig .tc := ⟨.hbm, 289, rfl⟩
abbrev main_v107 : Ref sig .tc := ⟨.hbm, 290, rfl⟩
abbrev main_cst_178 : Ref sig .tc := ⟨.hbm, 291, rfl⟩
abbrev main_v108 : Ref sig .tc := ⟨.hbm, 292, rfl⟩
abbrev main_c_179 : Ref sig .tc := ⟨.hbm, 293, rfl⟩
abbrev main_c_180 : Ref sig .tc := ⟨.hbm, 294, rfl⟩
abbrev main_c_181 : Ref sig .tc := ⟨.hbm, 295, rfl⟩
abbrev main_c_182 : Ref sig .tc := ⟨.hbm, 296, rfl⟩
abbrev main_v109 : Ref sig .tc := ⟨.hbm, 297, rfl⟩
abbrev main_v110 : Ref sig .tc := ⟨.hbm, 298, rfl⟩
abbrev main_cst_183 : Ref sig .tc := ⟨.hbm, 299, rfl⟩
abbrev main_v111 : Ref sig .tc := ⟨.hbm, 300, rfl⟩
abbrev main_c_184 : Ref sig .tc := ⟨.hbm, 301, rfl⟩
abbrev main_c_185 : Ref sig .tc := ⟨.hbm, 302, rfl⟩
abbrev main_c_186 : Ref sig .tc := ⟨.hbm, 303, rfl⟩
abbrev main_c_187 : Ref sig .tc := ⟨.hbm, 304, rfl⟩
abbrev main_v112 : Ref sig .tc := ⟨.hbm, 305, rfl⟩
abbrev main_v113 : Ref sig .tc := ⟨.hbm, 306, rfl⟩
abbrev main_cst_188 : Ref sig .tc := ⟨.hbm, 307, rfl⟩
abbrev main_v114 : Ref sig .tc := ⟨.hbm, 308, rfl⟩
abbrev main_c_189 : Ref sig .tc := ⟨.hbm, 309, rfl⟩
abbrev main_c_190 : Ref sig .tc := ⟨.hbm, 310, rfl⟩
abbrev main_c_191 : Ref sig .tc := ⟨.hbm, 311, rfl⟩
abbrev main_c_192 : Ref sig .tc := ⟨.hbm, 312, rfl⟩
abbrev main_v115 : Ref sig .tc := ⟨.hbm, 313, rfl⟩
abbrev main_v116 : Ref sig .tc := ⟨.hbm, 314, rfl⟩
abbrev main_cst_193 : Ref sig .tc := ⟨.hbm, 315, rfl⟩
abbrev main_v117 : Ref sig .tc := ⟨.hbm, 316, rfl⟩
abbrev main_c_194 : Ref sig .tc := ⟨.hbm, 317, rfl⟩
abbrev main_c_195 : Ref sig .tc := ⟨.hbm, 318, rfl⟩
abbrev main_c_196 : Ref sig .tc := ⟨.hbm, 319, rfl⟩
abbrev main_c_197 : Ref sig .tc := ⟨.hbm, 320, rfl⟩
abbrev main_v118 : Ref sig .tc := ⟨.hbm, 321, rfl⟩
abbrev main_v119 : Ref sig .tc := ⟨.hbm, 322, rfl⟩
abbrev main_cst_198 : Ref sig .tc := ⟨.hbm, 323, rfl⟩
abbrev main_v120 : Ref sig .tc := ⟨.hbm, 324, rfl⟩
abbrev main_c_199 : Ref sig .tc := ⟨.hbm, 325, rfl⟩
abbrev main_c_200 : Ref sig .tc := ⟨.hbm, 326, rfl⟩
abbrev main_c_201 : Ref sig .tc := ⟨.hbm, 327, rfl⟩
abbrev main_c_202 : Ref sig .tc := ⟨.hbm, 328, rfl⟩
abbrev main_v121 : Ref sig .tc := ⟨.hbm, 329, rfl⟩
abbrev main_v122 : Ref sig .tc := ⟨.hbm, 330, rfl⟩
abbrev main_cst_203 : Ref sig .tc := ⟨.hbm, 331, rfl⟩
abbrev main_v123 : Ref sig .tc := ⟨.hbm, 332, rfl⟩
abbrev main_v124 : Ref sig .tc := ⟨.hbm, 333, rfl⟩
abbrev main_v125 : Ref sig .tc := ⟨.hbm, 334, rfl⟩
abbrev main_v126 : Ref sig .tc := ⟨.hbm, 335, rfl⟩
abbrev main_v127 : Ref sig .tc := ⟨.hbm, 336, rfl⟩
abbrev main_v128 : Ref sig .tc := ⟨.hbm, 337, rfl⟩
abbrev main_v129 : Ref sig .tc := ⟨.hbm, 338, rfl⟩
abbrev main_v130 : Ref sig .tc := ⟨.hbm, 339, rfl⟩
abbrev main_v131 : Ref sig .tc := ⟨.hbm, 340, rfl⟩
abbrev main_v132 : Ref sig .tc := ⟨.hbm, 341, rfl⟩
abbrev main_v133 : Ref sig .tc := ⟨.hbm, 342, rfl⟩
abbrev main_v134 : Ref sig .tc := ⟨.hbm, 343, rfl⟩
abbrev main_v135 : Ref sig .tc := ⟨.hbm, 344, rfl⟩
abbrev main_v136 : Ref sig .tc := ⟨.hbm, 345, rfl⟩
abbrev main_v137 : Ref sig .tc := ⟨.hbm, 346, rfl⟩
abbrev main_v138 : Ref sig .tc := ⟨.hbm, 347, rfl⟩
abbrev main_v139 : Ref sig .tc := ⟨.hbm, 348, rfl⟩
abbrev main_v140 : Ref sig .tc := ⟨.hbm, 349, rfl⟩
abbrev main_v141 : Ref sig .tc := ⟨.hbm, 350, rfl⟩
abbrev main_v142 : Ref sig .tc := ⟨.hbm, 351, rfl⟩
abbrev main_v143 : Ref sig .tc := ⟨.hbm, 352, rfl⟩
abbrev main_v144 : Ref sig .tc := ⟨.hbm, 353, rfl⟩
abbrev main_v145 : Ref sig .tc := ⟨.hbm, 354, rfl⟩
abbrev main_v146 : Ref sig .tc := ⟨.hbm, 355, rfl⟩
abbrev main_v147 : Ref sig .tc := ⟨.hbm, 356, rfl⟩
abbrev main_v148 : Ref sig .tc := ⟨.hbm, 357, rfl⟩
abbrev main_v149 : Ref sig .tc := ⟨.hbm, 358, rfl⟩
abbrev main_v150 : Ref sig .tc := ⟨.hbm, 359, rfl⟩
abbrev main_v151 : Ref sig .tc := ⟨.hbm, 360, rfl⟩
abbrev main_v152 : Ref sig .tc := ⟨.hbm, 361, rfl⟩
abbrev main_v153 : Ref sig .tc := ⟨.hbm, 362, rfl⟩
abbrev main_v154 : Ref sig .tc := ⟨.hbm, 363, rfl⟩
abbrev main_v155 : Ref sig .tc := ⟨.hbm, 364, rfl⟩
abbrev main_v156 : Ref sig .tc := ⟨.hbm, 365, rfl⟩
abbrev main_v157 : Ref sig .tc := ⟨.hbm, 366, rfl⟩
abbrev main_v158 : Ref sig .tc := ⟨.hbm, 367, rfl⟩
abbrev main_v159 : Ref sig .tc := ⟨.hbm, 368, rfl⟩
abbrev main_v160 : Ref sig .tc := ⟨.hbm, 369, rfl⟩
abbrev main_v161 : Ref sig .tc := ⟨.hbm, 370, rfl⟩
abbrev main_v162 : Ref sig .tc := ⟨.hbm, 371, rfl⟩
abbrev main_v163 : Ref sig .tc := ⟨.hbm, 372, rfl⟩
abbrev main_v164 : Ref sig .tc := ⟨.hbm, 373, rfl⟩
abbrev main_v165 : Ref sig .tc := ⟨.hbm, 374, rfl⟩
abbrev main_v166 : Ref sig .tc := ⟨.hbm, 375, rfl⟩
abbrev main_v167 : Ref sig .tc := ⟨.hbm, 376, rfl⟩
abbrev main_v168 : Ref sig .tc := ⟨.hbm, 377, rfl⟩

abbrev nD : Nat := 1
abbrev τ : Topo := Topo.v7x

variable {F : FTy → Type} [FloatOps F]

class Facts₀ : Prop where
  pads_S4x128x160x320_S4x128x160x360_000_000_000_8320 : S4x128x160x320.Pads (![0, 0, 0, 8] : Fin 4 → Nat) ![0, 0, 0, 32] ![0, 0, 0, 0] S4x128x160x360
  h_S_ : 0 < S_.numel
  sliceFits_S4x128x160x360_S4x128x160x320 : S4x128x160x360.Slices (fun _ => 0) S4x128x160x320
  reducesTo_S4x128x160x320_S4x160x320_d1 : S4x128x160x320.ReducesTo [1] S4x160x320
  bcast_S4x160x320_S4x1x160x320_0_2_3 : S4x160x320.BroadcastsInDim S4x1x160x320 (![0, 2, 3] : Fin 3 → Fin S4x1x160x320.rank)
  concatenates_S4x1x160x320_S4x1x160x320_S4x1x160x320_S4x1x160x320_S4x1x160x320_S4x1x160x320_S4x1x160x320_S4x1x160x320_S4x1x160x320_S4x1x160x320_S4x1x160x320_S4x1x160x320_S4x1x160x320_S4x1x160x320_S4x1x160x320_S4x1x160x320_S4x16x160x320_d1 : Shape.Concatenates [S4x1x160x320, S4x1x160x320, S4x1x160x320, S4x1x160x320, S4x1x160x320, S4x1x160x320, S4x1x160x320, S4x1x160x320, S4x1x160x320, S4x1x160x320, S4x1x160x320, S4x1x160x320, S4x1x160x320, S4x1x160x320, S4x1x160x320, S4x1x160x320] S4x16x160x320 1
  concatenates_S4x1x160x320_S4x1x160x320_S4x1x160x320_S4x1x160x320_S4x1x160x320_S4x1x160x320_S4x1x160x320_S4x1x160x320_S4x1x160x320_S4x9x160x320_d1 : Shape.Concatenates [S4x1x160x320, S4x1x160x320, S4x1x160x320, S4x1x160x320, S4x1x160x320, S4x1x160x320, S4x1x160x320, S4x1x160x320, S4x1x160x320] S4x9x160x320 1
  concatenates_S4x16x160x320_S4x16x160x320_S4x9x160x320_S4x41x160x320_d1 : Shape.Concatenates [S4x16x160x320, S4x16x160x320, S4x9x160x320] S4x41x160x320 1

variable [Facts₀]

class Facts : Prop extends Facts₀ where

variable [Facts]
-- ==== Proof.Spec.lean ====
/-
  The one function both programs compute: a cost volume of two images along the width.

  For a batch entry `b`, a displacement `d` in 0..40, a row `h` and a column `w`, the result is the sum over
  the 128 channels `c` of `x1[b, c, h, w] * x2[b, c, h, w + d - 8]` when column `w + d - 8` lies inside the
  second image (0 ≤ w + d - 8 < 320), and zero otherwise: the second image is read as if padded with 8 zero
  columns on the left and 32 on the right, and a product with a padding zero contributes nothing.
-/
import Idealize.ShloMosaic.Lib.ValueIdx
import Idealize.ShloMosaic.PureOps.Ideal

noncomputable section

open scoped BigOperators

namespace Cert.Corr

open Idealize.ShloMosaic Idealize.ShloMosaic.ValueIdx

/-- The images: batch 4, channels 128, rows 160, columns 320. -/
abbrev SImg : Shape := ⟨4, ![4, 128, 160, 320]⟩
/-- The cost volume: batch 4, displacements 41, rows 160, columns 320. -/
abbrev SVol : Shape := ⟨4, ![4, 41, 160, 320]⟩

/-- Column `w` shifted by displacement `d` (that is, column `w + d - 8`) lies inside the second image. -/
def Inside (d w : ℕ) : Prop := 8 ≤ w + d ∧ w + d < 328

instance (d w : ℕ) : Decidable (Inside d w) := by unfold Inside; infer_instance

theorem Inside.lt {d w : ℕ} (h : Inside d w) : w + d - 8 < 320 := by unfold Inside at h; omega

/-- The cost at (b, d, h, w): the channel sum of products with the shifted second image, zero where the shifted
    column falls on the padding. -/
def corr (x1 x2 : SImg.Idx → EReal) (b : Fin 4) (d : Fin 41) (h : Fin 160) (w : Fin 320) : EReal :=
  if hi : Inside d.val w.val then
    ∑ c : Fin 128, x1 (ix4 b c h w) * x2 (ix4 b c h ⟨w.val + d.val - 8, hi.lt⟩)
  else 0

/-- The whole cost volume as an array. -/
def corrArr (x1 x2 : SImg.Idx → EReal) : SVol.Idx → EReal :=
  fun j => corr x1 x2 (j 0) (j 1) (j 2) (j 3)

theorem corrArr_ix4 (x1 x2 : SImg.Idx → EReal) (b : Fin 4) (d : Fin 41) (h : Fin 160) (w : Fin 320) :
    corrArr x1 x2 (ix4 b d h w) = corr x1 x2 b d h w := rfl

theorem corr_of_inside (x1 x2 : SImg.Idx → EReal) (b : Fin 4) (d : Fin 41) (h : Fin 160) (w : Fin 320)
    (k : Fin 320) (hk : k.val + 8 = w.val + d.val) :
    corr x1 x2 b d h w = ∑ c : Fin 128, x1 (ix4 b c h w) * x2 (ix4 b c h k) := by
  have hi : Inside d.val w.val := by unfold Inside; have := k.isLt; omega
  unfold corr
  rw [dif_pos hi]
  have : (⟨w.val + d.val - 8, hi.lt⟩ : Fin 320) = k := Fin.ext (by show w.val + d.val - 8 = k.val; omega)
  rw [this]

theorem corr_of_not_inside (x1 x2 : SImg.Idx → EReal) (b : Fin 4) (d : Fin 41) (h : Fin 160) (w : Fin 320)
    (hn : ¬ Inside d.val w.val) : corr x1 x2 b d h w = 0 := by
  unfold corr; rw [dif_neg hn]

end Cert.Corr

end
-- ==== Proof.Payload.lean ====
/-
  One displacement's channel sum, read at an index, for any window width.

  A displacement multiplies a width-`n` window of the first image block (starting at column `a`) with a width-`n`
  window of the second (starting at column `b`), entry by entry, and adds the 128 channel planes. Read at row `r` and
  window column `j` that is the sum over channels `c` of `x1[c, r, a + j] * x2[c, r, b + j]`. The width is a
  variable, so the one statement serves all 41 displacements.
-/
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.Corr

open Idealize.ShloMosaic Idealize.ShloMosaic.ValueIdx

/-- A [40, n] matrix stored as a [1, 1, 40, n] block reads, at (u, v, r, j), the matrix at (r, j). -/
theorem cast_rows_apply {α : Type} {n : ℕ} (x : (⟨2, ![40, n]⟩ : Shape).Idx → α)
    (h : (⟨2, ![40, n]⟩ : Shape).ShapeCasts ⟨4, ![1, 1, 40, n]⟩) (u v : Fin 1) (r : Fin 40) (j : Fin n) :
    shapeCast ⟨4, ![1, 1, 40, n]⟩ x h (ix4 u v r j) = x (ix2 r j) :=
  shapeCast_apply x h _ _ (by
    have hu : u.val = 0 := by omega
    have hv : v.val = 0 := by omega
    rw [Shape.rowMajor_val_four, Shape.rowMajor_val_two]
    show r.val * n + j.val = ((u.val * 1 + v.val) * 40 + r.val) * n + j.val
    rw [hu, hv]; simp)

/-- A [1, 128, 40, 320] block viewed as [128, 40, 320] reads, at (c, r, k), the block at (0, c, r, k). -/
theorem block_planes_apply {α : Type} (x : (⟨4, ![1, 128, 40, 320]⟩ : Shape).Idx → α)
    (h : (⟨4, ![1, 128, 40, 320]⟩ : Shape).ShapeCasts ⟨3, ![128, 40, 320]⟩) (c : Fin 128) (r : Fin 40) (k : Fin 320) :
    shapeCast ⟨3, ![128, 40, 320]⟩ x h (ix3 c r k) = x (ix4 (0 : Fin 1) c r k) :=
  shapeCast_1abc_abc_apply x h c r k

/-- The channel sum of the product of two column windows, at row `r` and window column `j`. -/
theorem channelSum_apply {n a b : ℕ} (x1 x2 : FVec Ideal ⟨3, ![128, 40, 320]⟩ .f32)
    (hs1 : (⟨3, ![128, 40, 320]⟩ : Shape).Slices ![0, 0, a] ⟨3, ![128, 40, n]⟩)
    (hs2 : (⟨3, ![128, 40, 320]⟩ : Shape).Slices ![0, 0, b] ⟨3, ![128, 40, n]⟩)
    (hr : (⟨3, ![128, 40, n]⟩ : Shape).Reduces [0] ⟨2, ![40, n]⟩) (hφ : FKind.Formats .f32)
    (hacc : (0x00000000#32 : BitVec FTy.f32.bits) = FKind.add.neutral .f32 hφ)
    (r : Fin 40) (j : Fin n) (k1 k2 : Fin 320) (hk1 : k1.val = a + j.val) (hk2 : k2.val = b + j.val) :
    multiReduction .add [0] ⟨2, ![40, n]⟩
        (mulf (extractStridedSlice ⟨3, ![128, 40, n]⟩ ![0, 0, a] x1 hs1)
          (extractStridedSlice ⟨3, ![128, 40, n]⟩ ![0, 0, b] x2 hs2))
        0x00000000#32 hr hφ hacc (ix2 r j)
      = ∑ c : Fin 128, x1 (ix3 c r k1) * x2 (ix3 c r k2) := by
  refine (Ideal.multiReduction_add_single _ _ hr hφ hacc (ix2 r j)).trans ?_
  show ∑ c : Fin 128, _ = _
  refine Finset.sum_congr rfl fun c _ => ?_
  rw [mulf_apply]
  congr 1
  · refine extractStridedSlice_apply _ x1 hs1 _ (ix3 c r k1) fun d => ?_
    match d with
    | ⟨0, _⟩ => show c.val = 0 + c.val; omega
    | ⟨1, _⟩ => show r.val = 0 + r.val; omega
    | ⟨2, _⟩ => show k1.val = a + j.val; exact hk1
  · refine extractStridedSlice_apply _ x2 hs2 _ (ix3 c r k2) fun d => ?_
    match d with
    | ⟨0, _⟩ => show c.val = 0 + c.val; omega
    | ⟨1, _⟩ => show r.val = 0 + r.val; omega
    | ⟨2, _⟩ => show k2.val = b + j.val; exact hk2

/-- The stored tile of one displacement: the channel sum over the two image blocks, at (·, ·, r, j). -/
theorem tile_apply {n a b : ℕ} (x0 x1 : FVec Ideal ⟨4, ![1, 128, 40, 320]⟩ .f32)
    (hc : (⟨4, ![1, 128, 40, 320]⟩ : Shape).ShapeCasts ⟨3, ![128, 40, 320]⟩)
    (hs1 : (⟨3, ![128, 40, 320]⟩ : Shape).Slices ![0, 0, a] ⟨3, ![128, 40, n]⟩)
    (hs2 : (⟨3, ![128, 40, 320]⟩ : Shape).Slices ![0, 0, b] ⟨3, ![128, 40, n]⟩)
    (hr : (⟨3, ![128, 40, n]⟩ : Shape).Reduces [0] ⟨2, ![40, n]⟩) (hφ : FKind.Formats .f32)
    (hacc : (0x00000000#32 : BitVec FTy.f32.bits) = FKind.add.neutral .f32 hφ)
    (ho : (⟨2, ![40, n]⟩ : Shape).ShapeCasts ⟨4, ![1, 1, 40, n]⟩)
    (u v : Fin 1) (r : Fin 40) (j : Fin n) (k1 k2 : Fin 320) (hk1 : k1.val = a + j.val) (hk2 : k2.val = b + j.val) :
    shapeCast ⟨4, ![1, 1, 40, n]⟩
        (multiReduction .add [0] ⟨2, ![40, n]⟩
          (mulf (extractStridedSlice ⟨3, ![128, 40, n]⟩ ![0, 0, a] (shapeCast ⟨3, ![128, 40, 320]⟩ x0 hc) hs1)
            (extractStridedSlice ⟨3, ![128, 40, n]⟩ ![0, 0, b] (shapeCast ⟨3, ![128, 40, 320]⟩ x1 hc) hs2))
          0x00000000#32 hr hφ hacc) ho (ix4 u v r j)
      = ∑ c : Fin 128, x0 (ix4 (0 : Fin 1) c r k1) * x1 (ix4 (0 : Fin 1) c r k2) := by
  rw [cast_rows_apply]
  refine (channelSum_apply _ _ hs1 hs2 hr hφ hacc r j k1 k2 hk1 hk2).trans ?_
  refine Finset.sum_congr rfl fun c _ => ?_
  rw [block_planes_apply, block_planes_apply]

/-- The same when the windows are the whole rows (the displacement whose shifted column is the column itself plus
    nothing: no window is cut): the channel sum of the plain product. -/
theorem tile_apply_full (x0 x1 : FVec Ideal ⟨4, ![1, 128, 40, 320]⟩ .f32)
    (hc : (⟨4, ![1, 128, 40, 320]⟩ : Shape).ShapeCasts ⟨3, ![128, 40, 320]⟩)
    (hr : (⟨3, ![128, 40, 320]⟩ : Shape).Reduces [0] ⟨2, ![40, 320]⟩) (hφ : FKind.Formats .f32)
    (hacc : (0x00000000#32 : BitVec FTy.f32.bits) = FKind.add.neutral .f32 hφ)
    (ho : (⟨2, ![40, 320]⟩ : Shape).ShapeCasts ⟨4, ![1, 1, 40, 320]⟩)
    (u v : Fin 1) (r : Fin 40) (j : Fin 320) (k1 k2 : Fin 320) (hk1 : k1.val = j.val) (hk2 : k2.val = j.val) :
    shapeCast ⟨4, ![1, 1, 40, 320]⟩
        (multiReduction .add [0] ⟨2, ![40, 320]⟩
          (mulf (shapeCast ⟨3, ![128, 40, 320]⟩ x0 hc) (shapeCast ⟨3, ![128, 40, 320]⟩ x1 hc))
          0x00000000#32 hr hφ hacc) ho (ix4 u v r j)
      = ∑ c : Fin 128, x0 (ix4 (0 : Fin 1) c r k1) * x1 (ix4 (0 : Fin 1) c r k2) := by
  obtain rfl : k1 = j := Fin.ext hk1
  obtain rfl : k2 = k1 := Fin.ext hk2
  rw [cast_rows_apply]
  refine (Ideal.multiReduction_add_single _ _ hr hφ hacc (ix2 r k2)).trans ?_
  show ∑ c : Fin 128, _ = _
  refine Finset.sum_congr rfl fun c _ => ?_
  rw [mulf_apply]
  congr 1
  · exact block_planes_apply x0 hc c r k2
  · exact block_planes_apply x1 hc c r k2

end Cert.Corr

end
-- ==== Proof.LibCanonBox.lean ====
/-
  Reading the canonical contents of a list of stores, newest first, through a newest store whose rectangle is a
  unit-stride box of rank four given by literal offsets and sizes.

  `View.canon (p :: L)` at an index `y` is `p`'s payload at the local index when `y` lies in `p`'s box, and the
  older stores' contents otherwise. For a rank-four box written `Rect.unit ![o0, o1, o2, o3] ![s0, s1, s2, s3]` and
  an index written by coordinates, the two cases are stated over plain natural-number facts, so that a proof can walk a
  long literal list of stores one store at a time with the same two steps.
-/
import Idealize.ShloMosaic.Lib.ValueIdx
import Idealize.ShloMosaic.Lib.Pipeline.Value

noncomputable section

namespace Idealize.ShloMosaic.View

open Idealize.ShloMosaic.ValueIdx

variable {Val : EltTy → Type} {e : EltTy}

/-- The canon under a newest rank-four box store, at an index by coordinates: the store's payload at the local
    coordinates when every coordinate is inside the box (`hin`), the older stores' canon when some coordinate is
    outside (`hout`). Both branches are reduced to one target value `G`. -/
theorem canon_cons_box4_cases [∀ e, Nonempty (Val e)] {n0 n1 n2 n3 : ℕ} (o0 o1 o2 o3 s0 s1 s2 s3 : ℕ)
    (inb : ∀ a, (![o0, o1, o2, o3] : Fin 4 → ℕ) a + (![s0, s1, s2, s3] : Fin 4 → ℕ) a
      ≤ (⟨4, ![n0, n1, n2, n3]⟩ : Shape).size a)
    (w : (⟨4, ![s0, s1, s2, s3]⟩ : Shape).Idx → Val e)
    (L : List (Piece Val ⟨4, ![n0, n1, n2, n3]⟩ e))
    (y0 : Fin n0) (y1 : Fin n1) (y2 : Fin n2) (y3 : Fin n3) (G : Val e)
    (hin : ∀ (x0 : Fin s0) (x1 : Fin s1) (x2 : Fin s2) (x3 : Fin s3),
      y0.val = o0 + x0.val → y1.val = o1 + x1.val → y2.val = o2 + x2.val → y3.val = o3 + x3.val →
      w (ix4 x0 x1 x2 x3) = G)
    (hout : (y0.val < o0 ∨ o0 + s0 ≤ y0.val ∨ y1.val < o1 ∨ o1 + s1 ≤ y1.val ∨ y2.val < o2 ∨ o2 + s2 ≤ y2.val
        ∨ y3.val < o3 ∨ o3 + s3 ≤ y3.val) → canon L (ix4 y0 y1 y2 y3) = G) :
    canon ((⟨Rect.unit (s := ⟨4, ![n0, n1, n2, n3]⟩) ![o0, o1, o2, o3] ![s0, s1, s2, s3] inb, w⟩ :
      Piece Val ⟨4, ![n0, n1, n2, n3]⟩ e) :: L) (ix4 y0 y1 y2 y3) = G := by
  by_cases hbox : (o0 ≤ y0.val ∧ y0.val < o0 + s0) ∧ (o1 ≤ y1.val ∧ y1.val < o1 + s1)
      ∧ (o2 ≤ y2.val ∧ y2.val < o2 + s2) ∧ (o3 ≤ y3.val ∧ y3.val < o3 + s3)
  · obtain ⟨⟨l0, u0⟩, ⟨l1, u1⟩, ⟨l2, u2⟩, ⟨l3, u3⟩⟩ := hbox
    have e : ix4 y0 y1 y2 y3
        = (Rect.unit (s := ⟨4, ![n0, n1, n2, n3]⟩) ![o0, o1, o2, o3] ![s0, s1, s2, s3] inb).emb
            (ix4 (⟨y0.val - o0, by omega⟩ : Fin s0) (⟨y1.val - o1, by omega⟩ : Fin s1)
              (⟨y2.val - o2, by omega⟩ : Fin s2) (⟨y3.val - o3, by omega⟩ : Fin s3)) := by
      funext a; apply Fin.ext
      match a with
      | ⟨0, _⟩ => show y0.val = o0 + 1 * (y0.val - o0); omega
      | ⟨1, _⟩ => show y1.val = o1 + 1 * (y1.val - o1); omega
      | ⟨2, _⟩ => show y2.val = o2 + 1 * (y2.val - o2); omega
      | ⟨3, _⟩ => show y3.val = o3 + 1 * (y3.val - o3); omega
    rw [e, canon_cons_emb]
    exact hin _ _ _ _ (by show y0.val = o0 + (y0.val - o0); omega) (by show y1.val = o1 + (y1.val - o1); omega)
      (by show y2.val = o2 + (y2.val - o2); omega) (by show y3.val = o3 + (y3.val - o3); omega)
  · rw [canon_cons_of_not_mem]
    · exact hout (by omega)
    · rw [Rect.mem_set_unit]
      intro hm
      apply hbox
      have m0 := hm (0 : Fin 4)
      have m1 := hm (1 : Fin 4)
      have m2 := hm (2 : Fin 4)
      have m3 := hm (3 : Fin 4)
      exact ⟨m0, m1, m2, m3⟩

end Idealize.ShloMosaic.View

end
-- ==== Proof.KTile.lean ====
/-
  What one grid point leaves in its output block, as a function of its two image blocks.

  The body first stores zeros over the whole [41, 40, 320] block and then, for each displacement `d`, stores the
  channel sum of products over the columns whose shifted partner exists (a window of the row: columns `8 - d` onward
  for `d ≤ 8`, columns up to `328 - d` for `d ≥ 8`). Read back at (d, r, w): the newest store whose box holds the
  index wins. A displacement's box holds (d, r, w) exactly when column `w + d - 8` exists, and then its payload is the
  channel sum there; if no displacement's box holds it, the zero fill is read. The walk below goes through the stores
  newest first and keeps, as it passes displacement `D`, the fact that an index with an existing shifted column must
  have a displacement below `D`.
-/
import proofs.«125826_j13580686590324_1_alg».proof.Proof.KernelIdealFrame
import proofs.«125826_j13580686590324_1_alg».proof.Proof.Spec
import proofs.«125826_j13580686590324_1_alg».proof.Proof.Payload
import proofs.«125826_j13580686590324_1_alg».proof.Proof.LibCanonBox

set_option maxRecDepth 16384

noncomputable section

open scoped BigOperators

namespace Cert.KernelIdeal.Tile

open Idealize.ShloMosaic Idealize.ShloMosaic.ValueIdx Idealize.ShloMosaic.Tactic
open Cert.KernelIdeal Cert.KernelIdeal.Gen Cert.KernelIdeal.GenP Cert.Corr

/-- The block's value at displacement `d`, row `r`, column `w`, from the two image blocks `A` and `B`. -/
def tileG (A B : FVec Ideal S1x128x40x320 .f32) (d : Fin 41) (r : Fin 40) (w : Fin 320) : EReal :=
  if hi : Inside d.val w.val then
    ∑ c : Fin 128, A (ix4 (0 : Fin 1) c r w) * B (ix4 (0 : Fin 1) c r ⟨w.val + d.val - 8, hi.lt⟩)
  else 0

theorem tileG_of_inside (A B : FVec Ideal S1x128x40x320 .f32) (d : Fin 41) (r : Fin 40) (w k : Fin 320)
    (hk : k.val + 8 = w.val + d.val) :
    tileG A B d r w = ∑ c : Fin 128, A (ix4 (0 : Fin 1) c r w) * B (ix4 (0 : Fin 1) c r k) := by
  have hi : Inside d.val w.val := by unfold Inside; have := k.isLt; omega
  unfold tileG
  rw [dif_pos hi]
  have : (⟨w.val + d.val - 8, hi.lt⟩ : Fin 320) = k := Fin.ext (by show w.val + d.val - 8 = k.val; omega)
  rw [this]

theorem tileG_of_not_inside (A B : FVec Ideal S1x128x40x320 .f32) (d : Fin 41) (r : Fin 40) (w : Fin 320)
    (hn : ¬ Inside d.val w.val) : tileG A B d r w = 0 := by
  unfold tileG; rw [dif_neg hn]

/-- Passing displacement `o1`'s store: its box starts at column `o3 = 8 - o1` and its end `o3 + s3` is
    `320` less the columns `o1 - 8` that have no partner; an index outside the box whose shifted column exists
    cannot have displacement `o1`. -/
theorem inside_step (u : Fin 1) (d : Fin 41) (r : Fin 40) (w : Fin 320) (o1 o3 s3 : ℕ)
    (hg : o3 = 8 - o1 ∧ o3 + s3 + (o1 - 8) = 320)
    (inv : Inside d.val w.val → d.val < o1 + 1)
    (hout : u.val < 0 ∨ 0 + 1 ≤ u.val ∨ d.val < o1 ∨ o1 + 1 ≤ d.val ∨ r.val < 0 ∨ 0 + 40 ≤ r.val
      ∨ w.val < o3 ∨ o3 + s3 ≤ w.val) :
    Inside d.val w.val → d.val < o1 := by
  intro hi
  have h1 := inv hi
  have hu := u.isLt
  have hr := r.isLt
  have hw := w.isLt
  unfold Inside at hi
  omega

set_option hygiene false in
/-- One store of the walk: inside its box the payload is the channel sum, which is the block's value there;
    outside, the bound on the displacement moves down by one. -/
macro "corr_step" : tactic => `(tactic|
  (refine View.canon_cons_box4_cases _ _ _ _ _ _ _ _ _ _ _ _ _ _ _ _ ?_ ?_
   · intro x0 x1 x2 x3 h0 h1 h2 h3
     have hx1 := x1.isLt
     have hx3 := x3.isLt
     have hw := w.isLt
     obtain rfl : x2 = r := Fin.ext (by omega)
     rw [tileG_of_inside A B d x2 w ⟨w.val + d.val - 8, by omega⟩ (by show w.val + d.val - 8 + 8 = w.val + d.val; omega)]
     dsimp only [k0_pay1, k0_pay2, k0_pay3, k0_pay4, k0_pay6, k0_pay7, k0_pay8, k0_pay9, k0_pay10, k0_pay11, k0_pay12,
       k0_pay13, k0_pay14, k0_pay15, k0_pay16, k0_pay17, k0_pay18, k0_pay19, k0_pay20, k0_pay21, k0_pay22, k0_pay23,
       k0_pay24, k0_pay25, k0_pay26, k0_pay27, k0_pay28, k0_pay29, k0_pay30, k0_pay31, k0_pay32, k0_pay33, k0_pay34,
       k0_pay35, k0_pay36, k0_pay37, k0_pay38, k0_pay39, k0_pay40, k0_pay41, k0_pay42, k0_pay43, k0_pay44, k0_pay45,
       k0_pay46, k0_pay47, k0_pay48, k0_pay49, k0_pay50, k0_pay51, k0_pay52, k0_pay53]
     first
       | exact tile_apply_full A B _ _ _ _ _ x0 x1 x2 x3 w ⟨w.val + d.val - 8, by omega⟩ (by omega)
           (by show w.val + d.val - 8 = x3.val; omega)
       | exact tile_apply A B _ _ _ _ _ _ _ x0 x1 x2 x3 w ⟨w.val + d.val - 8, by omega⟩ (by omega)
           (by show w.val + d.val - 8 = _ + x3.val; omega)
   intro hout
   replace inv := inside_step u d r w _ _ _ (by decide) inv hout
   clear hout))

/-- What the run leaves in the output block: `tileG` of the two image blocks, index by index. -/
theorem out_apply (c : Dev nD) (i : grid0.Coords) (arg2 : Memref sig .tc .vmem S1x128x40x320 .f32) (harg2 : arg2.IsWhole)
    (arg3 : Memref sig .tc .vmem S1x128x40x320 .f32) (harg3 : arg3.IsWhole)
    (arg4 : Memref sig .tc .vmem S1x41x40x320 .f32) (harg4 : arg4.IsWhole)
    (A B : FVec Ideal S1x128x40x320 .f32) (u : Fin 1) (d : Fin 41) (r : Fin 40) (w : Fin 320) :
    out0_A_2 (F := Ideal) c i arg2 harg2 arg3 harg3 arg4 harg4 A B (ix4 u d r w) = tileG A B d r w := by
  have hc := cover0_A_2 (F := Ideal) c i arg2 harg2 arg3 harg3 arg4 harg4 A B (ix4 u d r w)
  unfold out0_A_2
  refine (View.read_writes_apply_eq_canon VO0_2 (VO0_2.junk) (ix4 u d r w)
    (kernelRun0_A (F := Ideal) c i arg2 harg2 arg3 harg3 arg4 harg4 A B).1 hc).trans ?_
  clear hc
  unfold kernelRun0_A
  dsimp only
  sl_unfold_words
  have hz4 : (![0, 0, 0, 0] : Fin 4 → Nat) = fun _ => 0 := funext fun a => by fin_cases a <;> rfl
  simp only [View.readAt_eq_ld, harg2.read_unread, harg3.read_unread, View.ld_unit_zero (S := S1x128x40x320) hz4]
  have inv : Inside d.val w.val → d.val < 40 + 1 := fun _ => d.isLt
  iterate 41 corr_step
  refine View.canon_cons_box4_cases _ _ _ _ _ _ _ _ _ _ _ _ _ _ _ _ ?_ ?_
  · intro x0 x1 x2 x3 h0 h1 h2 h3
    rw [tileG_of_not_inside A B d r w (fun hi => absurd (inv hi) (Nat.not_lt_zero _))]
    dsimp only [k0_pay5]
    exact Ideal.ofBits_zero_f32
  · intro hout
    have hu := u.isLt
    have hd := d.isLt
    have hr := r.isLt
    have hw := w.isLt
    omega

end Cert.KernelIdeal.Tile

end
-- ==== Proof.KVol.lean ====
/-
  From one grid point's block to the whole cost volume, and the idealized kernel's run.

  The grid has 4 × 4 points: point (b, q) works on batch entry `b` and rows `40 q … 40 q + 39`. Its two input
  blocks are those rows of the two images, all channels and columns; its output block is those rows of the cost
  volume, all displacements and columns. A column shift does not leave the block's rows, so the block's value
  `tileG` at (d, r, w) is the cost at (b, d, 40 q + r, w). The 16 output blocks tile the volume, so after the run
  the output array is the cost volume of the two argument arrays.
-/
import proofs.«125826_j13580686590324_1_alg».proof.Proof.KernelIdealValue
import proofs.«125826_j13580686590324_1_alg».proof.Proof.KTile

set_option maxRecDepth 16384

noncomputable section

open scoped BigOperators

namespace Cert.KernelIdeal.Vol

open Idealize.ShloMosaic Idealize.ShloMosaic.TcCoe Idealize.SL.Sem Idealize.ShloMosaic.ValueIdx
open Idealize.ShloMosaic.Pipeline (Dat)
open Cert.KernelIdeal Cert.KernelIdeal.Gen Cert.KernelIdeal.GenP Cert.KernelIdeal.ValueP Cert.KernelIdeal.Tile Cert.Corr

variable (m : (ℓ : Loc nD τ sig) → Buf (Elt Ideal) ℓ) (ρ : Dev nD → PrngReg)

/-- The printed index maps over the 16 points: the input blocks move with the output block (same batch entry, same
    row block), every block starts at channel, displacement and column 0, and the block indices stay below 4. -/
theorem idx_facts : ∀ t : Fin cfg0.N,
    win0_0.index t (0 : Fin 4) = win0_2.index t (0 : Fin 4) ∧ win0_0.index t (1 : Fin 4) = 0
    ∧ win0_0.index t (2 : Fin 4) = win0_2.index t (2 : Fin 4) ∧ win0_0.index t (3 : Fin 4) = 0
    ∧ win0_1.index t (0 : Fin 4) = win0_2.index t (0 : Fin 4) ∧ win0_1.index t (1 : Fin 4) = 0
    ∧ win0_1.index t (2 : Fin 4) = win0_2.index t (2 : Fin 4) ∧ win0_1.index t (3 : Fin 4) = 0
    ∧ win0_2.index t (1 : Fin 4) = 0 ∧ win0_2.index t (3 : Fin 4) = 0
    ∧ win0_2.index t (0 : Fin 4) ≤ 3 ∧ win0_2.index t (2 : Fin 4) ≤ 3 :=
  (by decide +kernel : ∀ t : Fin grid0.N, _)

/-- Every (batch entry, row block) is some point's. -/
theorem idx_onto : ∀ (q0 : Fin 4) (q2 : Fin 4), ∃ t : Fin cfg0.N, win0_2.index t = ![q0.val, 0, q2.val, 0] :=
  (by decide +kernel : ∀ (q0 : Fin 4) (q2 : Fin 4), ∃ t : Fin grid0.N, win0_2.index t = ![q0.val, 0, q2.val, 0])

/-- The first image's block at point `t`, read at a block index, is the first image at the array index the block
    places it at. -/
theorem iblk0_apply (c : Dev nD) (t : Fin cfg0.N) (x : S1x128x40x320.Idx) (k : S4x128x160x320.Idx)
    (hk0 : (k 0).val = win0_0.index t (0 : Fin 4) * 1 + (x 0).val) (hk1 : (k 1).val = win0_0.index t (1 : Fin 4) * 128 + (x 1).val)
    (hk2 : (k 2).val = win0_0.index t (2 : Fin 4) * 40 + (x 2).val) (hk3 : (k 3).val = win0_0.index t (3 : Fin 4) * 320 + (x 3).val) :
    (iblk m c 0 t : Vec Ideal S1x128x40x320 .f32) x
      = (m ((c : Thread nD τ).loc main_arg0) : S4x128x160x320.Idx → Elt Ideal .f32) k := by
  unfold iblk
  rw [View.read_apply]
  show V m c main_arg0 _ = m (c.tc.loc main_arg0) _
  unfold V
  congr 1
  funext a
  apply Fin.ext
  match a with
  | ⟨0, _⟩ => show win0_0.index t (0 : Fin 4) * 1 + 1 * (x 0).val = (k 0).val; omega
  | ⟨1, _⟩ => show win0_0.index t (1 : Fin 4) * 128 + 1 * (x 1).val = (k 1).val; omega
  | ⟨2, _⟩ => show win0_0.index t (2 : Fin 4) * 40 + 1 * (x 2).val = (k 2).val; omega
  | ⟨3, _⟩ => show win0_0.index t (3 : Fin 4) * 320 + 1 * (x 3).val = (k 3).val; omega

/-- The same for the second image. -/
theorem iblk1_apply (c : Dev nD) (t : Fin cfg0.N) (x : S1x128x40x320.Idx) (k : S4x128x160x320.Idx)
    (hk0 : (k 0).val = win0_1.index t (0 : Fin 4) * 1 + (x 0).val) (hk1 : (k 1).val = win0_1.index t (1 : Fin 4) * 128 + (x 1).val)
    (hk2 : (k 2).val = win0_1.index t (2 : Fin 4) * 40 + (x 2).val) (hk3 : (k 3).val = win0_1.index t (3 : Fin 4) * 320 + (x 3).val) :
    (iblk m c 1 t : Vec Ideal S1x128x40x320 .f32) x
      = (m ((c : Thread nD τ).loc main_arg1) : S4x128x160x320.Idx → Elt Ideal .f32) k := by
  unfold iblk
  rw [View.read_apply]
  show V m c main_arg1 _ = m (c.tc.loc main_arg1) _
  unfold V
  congr 1
  funext a
  apply Fin.ext
  match a with
  | ⟨0, _⟩ => show win0_1.index t (0 : Fin 4) * 1 + 1 * (x 0).val = (k 0).val; omega
  | ⟨1, _⟩ => show win0_1.index t (1 : Fin 4) * 128 + 1 * (x 1).val = (k 1).val; omega
  | ⟨2, _⟩ => show win0_1.index t (2 : Fin 4) * 40 + 1 * (x 2).val = (k 2).val; omega
  | ⟨3, _⟩ => show win0_1.index t (3 : Fin 4) * 320 + 1 * (x 3).val = (k 3).val; omega

/-- The block's value is the cost volume's: at batch entry `q0` and row block `q2`, the block value at (d, r, w) over
    the two input blocks is the cost at (q0, d, 40 q2 + r, w) over the two images. -/
theorem tile_is_corr (c : Dev nD) (t : Fin cfg0.N) (d : Fin 41) (r : Fin 40) (w : Fin 320) (b : Fin 4) (h : Fin 160)
    (hb : b.val = win0_2.index t (0 : Fin 4)) (hh : h.val = win0_2.index t (2 : Fin 4) * 40 + r.val) :
    tileG (iblk m c 0 t) (iblk m c 1 t) d r w
      = corr (m ((c : Thread nD τ).loc main_arg0)) (m ((c : Thread nD τ).loc main_arg1)) b d h w := by
  obtain ⟨e00, e01, e02, e03, e10, e11, e12, e13, e21, e23, b0, b2⟩ := idx_facts t
  by_cases hi : Inside d.val w.val
  · have hlt := hi.lt
    rw [tileG_of_inside _ _ d r w ⟨w.val + d.val - 8, hlt⟩ (by show w.val + d.val - 8 + 8 = w.val + d.val; unfold Inside at hi; omega),
      corr_of_inside _ _ b d h w ⟨w.val + d.val - 8, hlt⟩ (by show w.val + d.val - 8 + 8 = w.val + d.val; unfold Inside at hi; omega)]
    refine Finset.sum_congr rfl fun cc _ => ?_
    rw [iblk0_apply m c t (ix4 (0 : Fin 1) cc r w) (ix4 b cc h w)
          (by show b.val = _ * 1 + 0; omega) (by show cc.val = _ * 128 + cc.val; omega)
          (by show h.val = _ * 40 + r.val; omega) (by show w.val = _ * 320 + w.val; omega),
      iblk1_apply m c t (ix4 (0 : Fin 1) cc r ⟨w.val + d.val - 8, hlt⟩) (ix4 b cc h ⟨w.val + d.val - 8, hlt⟩)
          (by show b.val = _ * 1 + 0; omega) (by show cc.val = _ * 128 + cc.val; omega)
          (by show h.val = _ * 40 + r.val; omega) (by show w.val + d.val - 8 = _ * 320 + (w.val + d.val - 8); omega)]
  · rw [tileG_of_not_inside _ _ d r w hi, corr_of_not_inside _ _ b d h w hi]

/-- WHAT POINT `t` WRITES BACK is block `t` of the cost volume of the two argument arrays. -/
theorem flushed_eq (c : Dev nD) (t : Fin cfg0.N) (hf : (cfg0.win 2).flush t = true) :
    (dats m 0 c).flushed 2 t = ((cfg0.win 2).blk t).view.read (Elt Ideal)
      (corrArr (m ((c : Thread nD τ).loc main_arg0)) (m ((c : Thread nD τ).loc main_arg1))) := by
  rw [ValueP.flushed2_A]
  obtain ⟨e00, e01, e02, e03, e10, e11, e12, e13, e21, e23, b0, b2⟩ := idx_facts t
  funext j
  obtain ⟨u, d, r, w, rfl⟩ : ∃ (u : Fin 1) (d : Fin 41) (r : Fin 40) (w : Fin 320), j = ix4 u d r w :=
    ⟨j 0, j 1, j 2, j 3, eq_ix4 j⟩
  rw [View.read_apply]
  show out0_A_2 c (grid0.coords t) (ms0_0 t) (hs0_0 t) (ms0_1 t) (hs0_1 t) (ms0_2 t) (hs0_2 t) (iblk m c 0 t) (iblk m c 1 t)
      (ix4 u d r w) = _
  rw [out_apply]
  have hr := r.isLt
  have hu := u.isLt
  have hemb : ((cfg0.win 2).blk t).view.emb (ix4 u d r w)
      = (ix4 (⟨win0_2.index t (0 : Fin 4), by omega⟩ : Fin 4) d
          (⟨win0_2.index t (2 : Fin 4) * 40 + r.val, by omega⟩ : Fin 160) w : S4x41x160x320.Idx) := by
    funext a
    apply Fin.ext
    match a with
    | ⟨0, _⟩ => show win0_2.index t (0 : Fin 4) * 1 + 1 * u.val = win0_2.index t (0 : Fin 4); omega
    | ⟨1, _⟩ => show win0_2.index t (1 : Fin 4) * 41 + 1 * d.val = d.val; omega
    | ⟨2, _⟩ => show win0_2.index t (2 : Fin 4) * 40 + 1 * r.val = win0_2.index t (2 : Fin 4) * 40 + r.val; omega
    | ⟨3, _⟩ => show win0_2.index t (3 : Fin 4) * 320 + 1 * w.val = w.val; omega
  rw [hemb, corrArr_ix4]
  exact tile_is_corr m c t d r w _ _ rfl rfl

/-- An index of the volume is in point `t`'s block iff each coordinate is in the block's range on its axis. -/
theorem mem_blk (t : Fin cfg0.N) (i : S4x41x160x320.Idx) :
    i ∈ ((cfg0.win 2).blk t).view.set ↔ ∀ a : Fin 4, win0_2.index t a * S1x41x40x320.size a ≤ (i a).val
      ∧ (i a).val < win0_2.index t a * S1x41x40x320.size a + S1x41x40x320.size a := by
  show i ∈ ((View.whole main_v0).slice (win0_2.rect t)).set ↔ _
  rw [View.set_slice_whole, Rect.mem_set_unit]
  exact Iff.rfl

/-- THE ARRAY after the run: the cost volume of the argument arrays. -/
theorem final (c : Dev nD) : (dats m 0 c).arrAt 2 cfg0.N
    = corrArr (m ((c : Thread nD τ).loc main_arg0)) (m ((c : Thread nD τ).loc main_arg1)) :=
  (dats m 0 c).arrAt_eq_of_cover 2 _ (flushed_eq m c) fun i => by
    have hi0 : (i 0).val < 4 := (i 0).isLt
    have hi1 : (i 1).val < 41 := (i 1).isLt
    have hi2 : (i 2).val < 160 := (i 2).isLt
    have hi3 : (i 3).val < 320 := (i 3).isLt
    obtain ⟨t, ht⟩ := idx_onto ⟨(i 0).val, hi0⟩ ⟨(i 2).val / 40, by omega⟩
    have q0 : win0_2.index t (0 : Fin 4) = (i 0).val := congrFun ht 0
    have q1 : win0_2.index t (1 : Fin 4) = 0 := congrFun ht 1
    have q2 : win0_2.index t (2 : Fin 4) = (i 2).val / 40 := congrFun ht 2
    have q3 : win0_2.index t (3 : Fin 4) = 0 := congrFun ht 3
    refine ⟨t, flush0_2 t, ?_⟩
    rw [mem_blk]
    intro a
    match a with
    | ⟨0, _⟩ => show win0_2.index t (0 : Fin 4) * 1 ≤ (i 0).val ∧ (i 0).val < win0_2.index t (0 : Fin 4) * 1 + 1; omega
    | ⟨1, _⟩ => show win0_2.index t (1 : Fin 4) * 41 ≤ (i 1).val ∧ (i 1).val < win0_2.index t (1 : Fin 4) * 41 + 41; omega
    | ⟨2, _⟩ => show win0_2.index t (2 : Fin 4) * 40 ≤ (i 2).val ∧ (i 2).val < win0_2.index t (2 : Fin 4) * 40 + 40; omega
    | ⟨3, _⟩ => show win0_2.index t (3 : Fin 4) * 320 ≤ (i 3).val ∧ (i 3).val < win0_2.index t (3 : Fin 4) * 320 + 320; omega

/-- The idealized kernel's run: it ends with the cost volume of its arguments in the result, the arguments unchanged. -/
theorem run : θ_run defs (onTc (τ := τ) (main (F := Ideal))) ⟨m, fun _ => 0, ρ⟩ fun r => ∀ c : Dev nD,
      r.2.mem ((c : Thread nD τ).loc main_v0)
        = corrArr (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final m c), (h c).2⟩) (ValueP.run_blocks m ρ)

end Cert.KernelIdeal.Vol

end
-- ==== Proof.RefWrites.lean ====
/-
  Which buffers each stretch of the reference program writes, and that a buffer a stretch does not write keeps its
  contents through the stretch.

  Every operation writes one buffer, its result. A stretch's written buffers are listed in order; a reference outside
  the list is untouched by the whole stretch, which lets a reading of the program step over a stretch at once.
-/
import proofs.«125826_j13580686590324_1_alg».proof.Proof.RefOps

noncomputable section

namespace Cert.ReferenceIdeal.RefOps

open Cert.ReferenceIdeal Cert.ReferenceIdeal.Gen Idealize.ShloMosaic Idealize.ShloMosaic.TcCoe Idealize.SL.Sem Idealize.ShloMosaic.StableHlo

variable {F : FTy → Type} [FloatOps F]

/-- A single written buffer lies in the buffers of a list of references that holds its reference. -/
theorem single_sub_of_mem {y : Ref sig .tc} {W : List (Ref sig .tc)} (h : y ∈ W) :
    ({Proc.devRef (τ := τ) .tc y} : Finset (DevRef τ sig)) ⊆ (W.map (Proc.devRef (τ := τ) .tc)).toFinset :=
  Finset.singleton_subset_iff.mpr (List.mem_toFinset.mpr (List.mem_map.mpr ⟨y, h, rfl⟩))

/-- The buffers stretch 0 writes. -/
abbrev writes0 : List (Ref sig .tc) :=
  [main_c, main_call0_v0, main_v0, main_c_0, main_c_1, main_c_2, main_c_3, main_v1, main_v2, main_cst, main_v3, main_c_4, main_c_5, main_c_6, main_c_7, main_v4, main_v5, main_cst_8, main_v6, main_c_9, main_c_10, main_c_11, main_c_12, main_v7, main_v8, main_cst_13, main_v9, main_c_14, main_c_15, main_c_16, main_c_17, main_v10, main_v11, main_cst_18, main_v12, main_c_19, main_c_20, main_c_21, main_c_22, main_v13, main_v14, main_cst_23, main_v15, main_c_24, main_c_25, main_c_26, main_c_27, main_v16, main_v17, main_cst_28, main_v18, main_c_29, main_c_30, main_c_31, main_c_32, main_v19, main_v20, main_cst_33, main_v21, main_c_34, main_c_35]

set_option maxRecDepth 8192 in
set_option maxHeartbeats 4000000 in
theorem ops0_writes : (ops0 : List (HloOp τ sig (Elt F))).Forall fun op => op.writes ⊆ (writes0.map (Proc.devRef (τ := τ) .tc)).toFinset :=
  ⟨single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide)⟩

/-- A buffer stretch 0 does not write keeps its contents through it. -/
theorem skip0 (W : Valuation τ sig (Elt F)) {r : Ref sig .tc} (hr : r ∉ writes0) :
    after (ops0 (F := F)) W (no_index (Proc.devRef .tc r)) = W (Proc.devRef .tc r) :=
  after_of_writes_sub ops0 W ops0_writes hr

/-- The buffers stretch 1 writes. -/
abbrev writes1 : List (Ref sig .tc) :=
  [main_c_36, main_c_37, main_v22, main_v23, main_cst_38, main_v24, main_c_39, main_c_40, main_c_41, main_c_42, main_v25, main_v26, main_cst_43, main_v27, main_c_44, main_c_45, main_c_46, main_c_47, main_v28, main_v29, main_cst_48, main_v30, main_c_49, main_c_50, main_c_51, main_c_52, main_v31, main_v32, main_cst_53, main_v33, main_c_54, main_c_55, main_c_56, main_c_57, main_v34, main_v35, main_cst_58, main_v36, main_c_59, main_c_60, main_c_61, main_c_62, main_v37, main_v38, main_cst_63, main_v39, main_c_64, main_c_65, main_c_66, main_c_67, main_v40, main_v41, main_cst_68, main_v42, main_c_69, main_c_70, main_c_71, main_c_72, main_v43, main_v44]

set_option maxRecDepth 8192 in
set_option maxHeartbeats 4000000 in
theorem ops1_writes : (ops1 : List (HloOp τ sig (Elt F))).Forall fun op => op.writes ⊆ (writes1.map (Proc.devRef (τ := τ) .tc)).toFinset :=
  ⟨single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide)⟩

/-- A buffer stretch 1 does not write keeps its contents through it. -/
theorem skip1 (W : Valuation τ sig (Elt F)) {r : Ref sig .tc} (hr : r ∉ writes1) :
    after (ops1 (F := F)) W (no_index (Proc.devRef .tc r)) = W (Proc.devRef .tc r) :=
  after_of_writes_sub ops1 W ops1_writes hr

/-- The buffers stretch 2 writes. -/
abbrev writes2 : List (Ref sig .tc) :=
  [main_cst_73, main_v45, main_c_74, main_c_75, main_c_76, main_c_77, main_v46, main_v47, main_cst_78, main_v48, main_c_79, main_c_80, main_c_81, main_c_82, main_v49, main_v50, main_cst_83, main_v51, main_c_84, main_c_85, main_c_86, main_c_87, main_v52, main_v53, main_cst_88, main_v54, main_c_89, main_c_90, main_c_91, main_c_92, main_v55, main_v56, main_cst_93, main_v57, main_c_94, main_c_95, main_c_96, main_c_97, main_v58, main_v59, main_cst_98, main_v60, main_c_99, main_c_100, main_c_101, main_c_102, main_v61, main_v62, main_cst_103, main_v63, main_c_104, main_c_105, main_c_106, main_c_107, main_v64, main_v65, main_cst_108, main_v66, main_c_109, main_c_110]

set_option maxRecDepth 8192 in
set_option maxHeartbeats 4000000 in
theorem ops2_writes : (ops2 : List (HloOp τ sig (Elt F))).Forall fun op => op.writes ⊆ (writes2.map (Proc.devRef (τ := τ) .tc)).toFinset :=
  ⟨single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide)⟩

/-- A buffer stretch 2 does not write keeps its contents through it. -/
theorem skip2 (W : Valuation τ sig (Elt F)) {r : Ref sig .tc} (hr : r ∉ writes2) :
    after (ops2 (F := F)) W (no_index (Proc.devRef .tc r)) = W (Proc.devRef .tc r) :=
  after_of_writes_sub ops2 W ops2_writes hr

/-- The buffers stretch 3 writes. -/
abbrev writes3 : List (Ref sig .tc) :=
  [main_c_111, main_c_112, main_v67, main_v68, main_cst_113, main_v69, main_c_114, main_c_115, main_c_116, main_c_117, main_v70, main_v71, main_cst_118, main_v72, main_c_119, main_c_120, main_c_121, main_c_122, main_v73, main_v74, main_cst_123, main_v75, main_c_124, main_c_125, main_c_126, main_c_127, main_v76, main_v77, main_cst_128, main_v78, main_c_129, main_c_130, main_c_131, main_c_132, main_v79, main_v80, main_cst_133, main_v81, main_c_134, main_c_135, main_c_136, main_c_137, main_v82, main_v83, main_cst_138, main_v84, main_c_139, main_c_140, main_c_141, main_c_142, main_v85, main_v86, main_cst_143, main_v87, main_c_144, main_c_145, main_c_146, main_c_147, main_v88, main_v89]

set_option maxRecDepth 8192 in
set_option maxHeartbeats 4000000 in
theorem ops3_writes : (ops3 : List (HloOp τ sig (Elt F))).Forall fun op => op.writes ⊆ (writes3.map (Proc.devRef (τ := τ) .tc)).toFinset :=
  ⟨single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide)⟩

/-- A buffer stretch 3 does not write keeps its contents through it. -/
theorem skip3 (W : Valuation τ sig (Elt F)) {r : Ref sig .tc} (hr : r ∉ writes3) :
    after (ops3 (F := F)) W (no_index (Proc.devRef .tc r)) = W (Proc.devRef .tc r) :=
  after_of_writes_sub ops3 W ops3_writes hr

/-- The buffers stretch 4 writes. -/
abbrev writes4 : List (Ref sig .tc) :=
  [main_cst_148, main_v90, main_c_149, main_c_150, main_c_151, main_c_152, main_v91, main_v92, main_cst_153, main_v93, main_c_154, main_c_155, main_c_156, main_c_157, main_v94, main_v95, main_cst_158, main_v96, main_c_159, main_c_160, main_c_161, main_c_162, main_v97, main_v98, main_cst_163, main_v99, main_c_164, main_c_165, main_c_166, main_c_167, main_v100, main_v101, main_cst_168, main_v102, main_c_169, main_c_170, main_c_171, main_c_172, main_v103, main_v104, main_cst_173, main_v105, main_c_174, main_c_175, main_c_176, main_c_177, main_v106, main_v107, main_cst_178, main_v108, main_c_179, main_c_180, main_c_181, main_c_182, main_v109, main_v110, main_cst_183, main_v111, main_c_184, main_c_185]

set_option maxRecDepth 8192 in
set_option maxHeartbeats 4000000 in
theorem ops4_writes : (ops4 : List (HloOp τ sig (Elt F))).Forall fun op => op.writes ⊆ (writes4.map (Proc.devRef (τ := τ) .tc)).toFinset :=
  ⟨single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide)⟩

/-- A buffer stretch 4 does not write keeps its contents through it. -/
theorem skip4 (W : Valuation τ sig (Elt F)) {r : Ref sig .tc} (hr : r ∉ writes4) :
    after (ops4 (F := F)) W (no_index (Proc.devRef .tc r)) = W (Proc.devRef .tc r) :=
  after_of_writes_sub ops4 W ops4_writes hr

/-- The buffers stretch 5 writes. -/
abbrev writes5 : List (Ref sig .tc) :=
  [main_c_186, main_c_187, main_v112, main_v113, main_cst_188, main_v114, main_c_189, main_c_190, main_c_191, main_c_192, main_v115, main_v116, main_cst_193, main_v117, main_c_194, main_c_195, main_c_196, main_c_197, main_v118, main_v119, main_cst_198, main_v120, main_c_199, main_c_200, main_c_201, main_c_202, main_v121, main_v122, main_cst_203, main_v123, main_v124, main_v125, main_v126, main_v127, main_v128, main_v129, main_v130, main_v131, main_v132, main_v133, main_v134, main_v135, main_v136, main_v137, main_v138, main_v139, main_v140, main_v141, main_v142, main_v143, main_v144, main_v145, main_v146, main_v147, main_v148, main_v149, main_v150, main_v151, main_v152, main_v153]

set_option maxRecDepth 8192 in
set_option maxHeartbeats 4000000 in
theorem ops5_writes : (ops5 : List (HloOp τ sig (Elt F))).Forall fun op => op.writes ⊆ (writes5.map (Proc.devRef (τ := τ) .tc)).toFinset :=
  ⟨single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide)⟩

/-- A buffer stretch 5 does not write keeps its contents through it. -/
theorem skip5 (W : Valuation τ sig (Elt F)) {r : Ref sig .tc} (hr : r ∉ writes5) :
    after (ops5 (F := F)) W (no_index (Proc.devRef .tc r)) = W (Proc.devRef .tc r) :=
  after_of_writes_sub ops5 W ops5_writes hr

/-- The buffers stretch 6 writes. -/
abbrev writes6 : List (Ref sig .tc) :=
  [main_v154, main_v155, main_v156, main_v157, main_v158, main_v159, main_v160, main_v161, main_v162, main_v163, main_v164, main_v165, main_v166, main_v167, main_v168]

set_option maxRecDepth 8192 in
set_option maxHeartbeats 4000000 in
theorem ops6_writes : (ops6 : List (HloOp τ sig (Elt F))).Forall fun op => op.writes ⊆ (writes6.map (Proc.devRef (τ := τ) .tc)).toFinset :=
  ⟨single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide)⟩

/-- A buffer stretch 6 does not write keeps its contents through it. -/
theorem skip6 (W : Valuation τ sig (Elt F)) {r : Ref sig .tc} (hr : r ∉ writes6) :
    after (ops6 (F := F)) W (no_index (Proc.devRef .tc r)) = W (Proc.devRef .tc r) :=
  after_of_writes_sub ops6 W ops6_writes hr

end Cert.ReferenceIdeal.RefOps

end
-- ==== Proof.LibHostIndexed.lean ====
/-
  A host operation with four index operands, given as a literal family of four references, read at its result:
  each index operand's contents stands at its own reference.

  `StableHlo.unaryIndexed_result` states the result of `%y = ‹op› %a, %i₀, …` with the index operands under a
  binder, `fun k => F (ix k)`; at a literal family `![i0, i1, i2, i3]` (a `stablehlo.dynamic_slice` of a rank-four
  operand) this form lists the four contents one by one, so that a rewriting pass over a line of operations goes on
  into each of them.
-/
import Idealize.ShloMosaic.Lib.StableHlo.Run

noncomputable section

namespace Idealize.ShloMosaic.StableHlo

variable {τ : Topo} {sig : RefSig} {Val : EltTy → Type}

/-- The result of `unaryIndexed` at a literal family of four index references, the result reference un-indexed as
    the library's primed result lemmas are (for `simp`). -/
theorem unaryIndexed4_result' {a i0 i1 i2 i3 y : Ref sig .tc} (T : BufTy)
    (f : a.ty.Contents Val → (Fin 4 → T.Contents Val) → y.ty.Contents Val) (hT ha hix hy) (F : Valuation τ sig Val) :
    (unaryIndexed (τ := τ) a ![i0, i1, i2, i3] T y f hT ha hix hy).result F (no_index (Proc.devRef .tc y))
      = f (F (Proc.devRef .tc a))
          ![cast (congrArg (fun U : BufTy => U.Contents Val) (hT 0)) (F (Proc.devRef .tc i0)),
            cast (congrArg (fun U : BufTy => U.Contents Val) (hT 1)) (F (Proc.devRef .tc i1)),
            cast (congrArg (fun U : BufTy => U.Contents Val) (hT 2)) (F (Proc.devRef .tc i2)),
            cast (congrArg (fun U : BufTy => U.Contents Val) (hT 3)) (F (Proc.devRef .tc i3))] := by
  rw [unaryIndexed_result']
  congr 1
  funext k
  fin_cases k <;> rfl

end Idealize.ShloMosaic.StableHlo

end
-- ==== Proof.LibHostNary.lean ====
/-
  A host operation over a literal family of 3, 9 or 16 operand references (a `stablehlo.concatenate`), read at its
  result: each operand's contents stands at its own reference.

  `StableHlo.nary_result` states the result of `nary xs y f` with the operands under a binder, `fun k => F (xs k)`.
  At a literal family `![x0, …]` these forms list the operands' contents one by one (as the library's `nary4_result`
  does for four), so that a rewriting pass over a line of operations goes on into each operand.
-/
import Idealize.ShloMosaic.Lib.StableHlo.Run

noncomputable section

namespace Idealize.ShloMosaic.StableHlo

variable {τ : Topo} {sig : RefSig} {Val : EltTy → Type}

/-- `nary` over a literal family of 3 references, the result reference un-indexed (for `simp`). -/
theorem nary3_result' {x0 x1 x2 y : Ref sig .tc}
    (f : ((k : Fin 3) → ((![x0, x1, x2] : Fin 3 → Ref sig .tc) k).ty.Contents Val) → y.ty.Contents Val) (hxs hy)
    (F : Valuation τ sig Val) :
    (nary (τ := τ) ![x0, x1, x2] y f hxs hy).result F (no_index (Proc.devRef .tc y))
      = f (Fin.cons (F (Proc.devRef .tc x0)) (Fin.cons (F (Proc.devRef .tc x1)) (Fin.cons (F (Proc.devRef .tc x2)) (fun i => i.elim0)))) := by
  rw [nary_result']; congr 1; funext k; fin_cases k <;> rfl

/-- `nary` over a literal family of 9 references, the result reference un-indexed (for `simp`). -/
theorem nary9_result' {x0 x1 x2 x3 x4 x5 x6 x7 x8 y : Ref sig .tc}
    (f : ((k : Fin 9) → ((![x0, x1, x2, x3, x4, x5, x6, x7, x8] : Fin 9 → Ref sig .tc) k).ty.Contents Val) → y.ty.Contents Val) (hxs hy)
    (F : Valuation τ sig Val) :
    (nary (τ := τ) ![x0, x1, x2, x3, x4, x5, x6, x7, x8] y f hxs hy).result F (no_index (Proc.devRef .tc y))
      = f (Fin.cons (F (Proc.devRef .tc x0)) (Fin.cons (F (Proc.devRef .tc x1)) (Fin.cons (F (Proc.devRef .tc x2)) (Fin.cons (F (Proc.devRef .tc x3)) (Fin.cons (F (Proc.devRef .tc x4)) (Fin.cons (F (Proc.devRef .tc x5)) (Fin.cons (F (Proc.devRef .tc x6)) (Fin.cons (F (Proc.devRef .tc x7)) (Fin.cons (F (Proc.devRef .tc x8)) (fun i => i.elim0)))))))))) := by
  rw [nary_result']; congr 1; funext k; fin_cases k <;> rfl

/-- `nary` over a literal family of 16 references, the result reference un-indexed (for `simp`). -/
theorem nary16_result' {x0 x1 x2 x3 x4 x5 x6 x7 x8 x9 x10 x11 x12 x13 x14 x15 y : Ref sig .tc}
    (f : ((k : Fin 16) → ((![x0, x1, x2, x3, x4, x5, x6, x7, x8, x9, x10, x11, x12, x13, x14, x15] : Fin 16 → Ref sig .tc) k).ty.Contents Val) → y.ty.Contents Val) (hxs hy)
    (F : Valuation τ sig Val) :
    (nary (τ := τ) ![x0, x1, x2, x3, x4, x5, x6, x7, x8, x9, x10, x11, x12, x13, x14, x15] y f hxs hy).result F (no_index (Proc.devRef .tc y))
      = f (Fin.cons (F (Proc.devRef .tc x0)) (Fin.cons (F (Proc.devRef .tc x1)) (Fin.cons (F (Proc.devRef .tc x2)) (Fin.cons (F (Proc.devRef .tc x3)) (Fin.cons (F (Proc.devRef .tc x4)) (Fin.cons (F (Proc.devRef .tc x5)) (Fin.cons (F (Proc.devRef .tc x6)) (Fin.cons (F (Proc.devRef .tc x7)) (Fin.cons (F (Proc.devRef .tc x8)) (Fin.cons (F (Proc.devRef .tc x9)) (Fin.cons (F (Proc.devRef .tc x10)) (Fin.cons (F (Proc.devRef .tc x11)) (Fin.cons (F (Proc.devRef .tc x12)) (Fin.cons (F (Proc.devRef .tc x13)) (Fin.cons (F (Proc.devRef .tc x14)) (Fin.cons (F (Proc.devRef .tc x15)) (fun i => i.elim0))))))))))))))))) := by
  rw [nary_result']; congr 1; funext k; fin_cases k <;> rfl

end Idealize.ShloMosaic.StableHlo

end
-- ==== Proof.RefDisp.lean ====
/-
  One displacement of the reference, read at an index, for any displacement `d`.

  The reference pads the second image with 8 zero columns on the left and 32 on the right (width 360), cuts the
  width-320 window that starts at column `d`, multiplies it with the first image and adds the channels. At
  (b, h, w) the window's entry is the padded image at column `w + d`: the second image at column `w + d - 8` when
  8 ≤ w + d < 328 and the padding zero otherwise. So the channel sum is the cost `corr … b d h w`: where the shifted
  column exists it is the sum of products, and where it does not every product has the factor zero.
-/
import Idealize.ShloMosaic.Lib.ValueIdx
import Idealize.ShloMosaic.Lib.Pipeline.Value
import Idealize.ShloMosaic.Lib.KernelVsHost
import Idealize.ShloMosaic.Lib.DynamicIndex
import Idealize.ShloMosaic.PureOps.Ideal.Laws
import proofs.«125826_j13580686590324_1_alg».proof.Proof.Spec

noncomputable section

open scoped BigOperators

namespace Cert.Corr

open Idealize.ShloMosaic Idealize.ShloMosaic.ValueIdx

/-- The second image padded to width 360. -/
abbrev SPad : Shape := ⟨4, ![4, 128, 160, 360]⟩
/-- One displacement's channel sums. -/
abbrev SSum : Shape := ⟨3, ![4, 160, 320]⟩
/-- The same with a unit displacement axis. -/
abbrev SOne : Shape := ⟨4, ![4, 1, 160, 320]⟩
/-- A scalar. -/
abbrev S0 : Shape := ⟨0, ![]⟩

/-- The padding value: the integer zero converted. -/
theorem padValue (hS : 0 < S0.numel) :
    (sitofp .f32 (constantI S0 32 0#32) : FVec Ideal S0 .f32) (Shape.Idx.first hS) = 0 :=
  sitofp_zero

/-- The padded image at column `j`: the image at column `j - 8` inside, zero on the padding. -/
theorem padded_apply (x2 : FVec Ideal SImg .f32)
    (hp : SImg.Pads (![0, 0, 0, 8] : Fin 4 → Nat) ![0, 0, 0, 32] ![0, 0, 0, 0] SPad) (hS : 0 < S0.numel)
    (b : Fin 4) (c : Fin 128) (h : Fin 160) (j : Fin 360) :
    pad SPad ![0, 0, 0, 8] ![0, 0, 0, 32] ![0, 0, 0, 0] x2 (sitofp .f32 (constantI S0 32 0#32)) hp hS (ix4 b c h j)
      = if hj : 8 ≤ j.val ∧ j.val < 328 then x2 (ix4 b c h ⟨j.val - 8, by omega⟩) else 0 := by
  by_cases hj : 8 ≤ j.val ∧ j.val < 328
  · rw [dif_pos hj]
    refine pad_apply_of_inside _ _ _ x2 _ hp hS _ (ix4 b c h ⟨j.val - 8, by omega⟩) fun a => ?_
    match a with
    | ⟨0, _⟩ => show b.val = 0 + b.val * (0 + 1); omega
    | ⟨1, _⟩ => show c.val = 0 + c.val * (0 + 1); omega
    | ⟨2, _⟩ => show h.val = 0 + h.val * (0 + 1); omega
    | ⟨3, _⟩ => show j.val = 8 + (j.val - 8) * (0 + 1); omega
  · rw [dif_neg hj]
    refine (pad_apply_of_not_inside _ _ _ x2 _ hp hS _ (3 : Fin 4) ?_).trans (padValue hS)
    show ¬(8 ≤ j.val ∧ (j.val - 8) % (0 + 1) = 0 ∧ (j.val - 8) / (0 + 1) < 320)
    omega

/-- The window of the padded image that starts at column `d`, at column `w`: the padded image at column `w + d`. -/
theorem window_apply (d : ℕ) (hd : d < 41) (P : FVec Ideal SPad .f32) (hs : SPad.Slices (fun _ => 0) SImg)
    (hS : 0 < S0.numel) (b : Fin 4) (c : Fin 128) (h : Fin 160) (w : Fin 320) :
    Host.dynamicSlice SImg P (fun k => ((![constantI S0 32 0#32, constantI S0 32 0#32, constantI S0 32 0#32,
        constantI S0 32 (BitVec.ofNat 32 d)] : Fin 4 → IVec S0 32) k (Shape.Idx.first hS)).toInt) hs (ix4 b c h w)
      = P (ix4 b c h ⟨w.val + d, by omega⟩) := by
  have hoff : SPad.Slices (![0, 0, 0, d] : Fin 4 → Nat) SImg := ⟨rfl, fun a => by
    match a with
    | ⟨0, _⟩ => show 0 + 4 ≤ 4; omega
    | ⟨1, _⟩ => show 0 + 128 ≤ 128; omega
    | ⟨2, _⟩ => show 0 + 160 ≤ 160; omega
    | ⟨3, _⟩ => show d + 320 ≤ 360; omega⟩
  rw [Host.dynamicSlice_eq_extractStridedSlice SImg P _ (![0, 0, 0, d] : Fin 4 → Nat) hs hoff (fun a => by
    match a with
    | ⟨0, _⟩ => show (0#32 : BitVec 32).toInt = ((0 : ℕ) : ℤ); rfl
    | ⟨1, _⟩ => show (0#32 : BitVec 32).toInt = ((0 : ℕ) : ℤ); rfl
    | ⟨2, _⟩ => show (0#32 : BitVec 32).toInt = ((0 : ℕ) : ℤ); rfl
    | ⟨3, _⟩ => show (BitVec.ofNat 32 d).toInt = ((d : ℕ) : ℤ); exact toInt_ofNat_of_lt (by omega))]
  refine extractStridedSlice_apply _ P hoff _ (ix4 b c h ⟨w.val + d, by omega⟩) fun a => ?_
  match a with
  | ⟨0, _⟩ => show b.val = 0 + b.val; omega
  | ⟨1, _⟩ => show c.val = 0 + c.val; omega
  | ⟨2, _⟩ => show h.val = 0 + h.val; omega
  | ⟨3, _⟩ => show w.val + d = d + w.val; omega

/-- One displacement of the reference, with its unit displacement axis, is the cost at that displacement. -/
theorem disp_apply (d : ℕ) (hd : d < 41) (x1 x2 : FVec Ideal SImg .f32)
    (hp : SImg.Pads (![0, 0, 0, 8] : Fin 4 → Nat) ![0, 0, 0, 32] ![0, 0, 0, 0] SPad) (hS : 0 < S0.numel)
    (hs : SPad.Slices (fun _ => 0) SImg) (hr : SImg.ReducesTo [1] SSum)
    (hb : SSum.BroadcastsInDim SOne (![0, 2, 3] : Fin 3 → Fin SOne.rank))
    (b : Fin 4) (u : Fin 1) (h : Fin 160) (w : Fin 320) :
    broadcastInDim SOne ![0, 2, 3] hb
        (Host.reduceAdd
          (mulf x1 (Host.dynamicSlice SImg
            (pad SPad ![0, 0, 0, 8] ![0, 0, 0, 32] ![0, 0, 0, 0] x2 (sitofp .f32 (constantI S0 32 0#32)) hp hS)
            (fun k => ((![constantI S0 32 0#32, constantI S0 32 0#32, constantI S0 32 0#32,
              constantI S0 32 (BitVec.ofNat 32 d)] : Fin 4 → IVec S0 32) k (Shape.Idx.first hS)).toInt) hs))
          (constant (F := Ideal) S0 .f32 0x00000000#32) hr hS) (ix4 b u h w)
      = corr x1 x2 b ⟨d, hd⟩ h w := by
  refine (broadcastInDim_apply _ hb _ _ (ix3 b h w) fun a => ?_).trans ?_
  · match a with
    | ⟨0, _⟩ => show b.val = if (4 : Nat) = 1 then 0 else b.val; rw [if_neg (by decide)]
    | ⟨1, _⟩ => show h.val = if (160 : Nat) = 1 then 0 else h.val; rw [if_neg (by decide)]
    | ⟨2, _⟩ => show w.val = if (320 : Nat) = 1 then 0 else w.val; rw [if_neg (by decide)]
  simp only [Host.reduceAdd, Ideal.hostReduceAdd_def]
  rw [Ideal.hostReduceAdd_single hr (by decide)]
  have hz : (constant (F := Ideal) S0 .f32 0x00000000#32) (Shape.Idx.first hS) = 0 := Ideal.ofBits_zero_f32
  rw [hz, zero_add]
  show ∑ k : Fin 128, _ = _
  have hterm : ∀ k : Fin 128,
      (mulf x1 (Host.dynamicSlice SImg
            (pad SPad ![0, 0, 0, 8] ![0, 0, 0, 32] ![0, 0, 0, 0] x2 (sitofp .f32 (constantI S0 32 0#32)) hp hS)
            (fun k => ((![constantI S0 32 0#32, constantI S0 32 0#32, constantI S0 32 0#32,
              constantI S0 32 (BitVec.ofNat 32 d)] : Fin 4 → IVec S0 32) k (Shape.Idx.first hS)).toInt) hs)
          : FVec Ideal SImg .f32) (ix4 b k h w)
        = x1 (ix4 b k h w) * (if hj : 8 ≤ w.val + d ∧ w.val + d < 328 then x2 (ix4 b k h ⟨w.val + d - 8, by omega⟩) else 0) := by
    intro k
    rw [mulf_apply, window_apply d hd _ hs hS b k h w, padded_apply x2 hp hS b k h ⟨w.val + d, by omega⟩]
  by_cases hi : Inside d w.val
  · have hj : 8 ≤ w.val + d ∧ w.val + d < 328 := hi
    rw [corr_of_inside x1 x2 b ⟨d, hd⟩ h w ⟨w.val + d - 8, by omega⟩ (by show w.val + d - 8 + 8 = w.val + d; omega)]
    refine Finset.sum_congr rfl fun k _ => ?_
    refine (congrArg _ (funext fun a => Fin.ext ?_)).trans ((hterm k).trans ?_)
    · match a with
      | ⟨0, _⟩ => rfl
      | ⟨1, _⟩ => rfl
      | ⟨2, _⟩ => rfl
      | ⟨3, _⟩ => rfl
    · rw [dif_pos hj]
  · have hj : ¬(8 ≤ w.val + d ∧ w.val + d < 328) := hi
    rw [corr_of_not_inside x1 x2 b ⟨d, hd⟩ h w hi]
    refine Finset.sum_eq_zero fun k _ => ?_
    refine (congrArg _ (funext fun a => Fin.ext ?_)).trans ((hterm k).trans ?_)
    · match a with
      | ⟨0, _⟩ => rfl
      | ⟨1, _⟩ => rfl
      | ⟨2, _⟩ => rfl
      | ⟨3, _⟩ => rfl
    · rw [dif_neg hj, mul_zero]

end Cert.Corr

end
-- ==== Proof.RefValue.lean ====
/-
  The reference's result as one array: the 41 displacement sums laid along the displacement axis.

  The reference computes one [4, 1, 160, 320] array per displacement and joins them along axis 1 in three groups
  (displacements 0..15, 16..31, 32..40), then joins the three groups. Reading the joined array at displacement `d`
  picks the group `d` falls in, and inside the group the piece of that displacement, at the same batch, row and
  column; that piece is the cost at `d`. So the whole result is the cost volume.
-/
import proofs.«125826_j13580686590324_1_alg».proof.ReferenceIdeal
import proofs.«125826_j13580686590324_1_alg».proof.Proof.Gen.ReferenceIdeal
import proofs.«125826_j13580686590324_1_alg».proof.Proof.RefDisp

set_option maxRecDepth 8192

noncomputable section

open scoped BigOperators

namespace Cert.ReferenceIdeal.RefValue

open Idealize.ShloMosaic Idealize.ShloMosaic.ValueIdx
open Cert.ReferenceIdeal Cert.ReferenceIdeal.Gen Cert.Corr

variable {F : FTy → Type} [FloatOps F]

/-- One displacement's sums, as the reference computes them: the window of the padded second image that starts at
    column `d`, times the first image, summed over the channels, with a unit displacement axis. -/
def dispSum (d : ℕ) (x0 x1 : (⟨S4x128x160x320, .f32⟩ : BufTy).Contents (Elt F)) :
    (⟨S4x1x160x320, .f32⟩ : BufTy).Contents (Elt F) :=
  broadcastInDim S4x1x160x320 ![0, 2, 3] bcast_S4x160x320_S4x1x160x320_0_2_3
    (Host.reduceAdd
      (mulf x0 (Host.dynamicSlice S4x128x160x320
        (pad S4x128x160x360 ![0, 0, 0, 8] ![0, 0, 0, 32] ![0, 0, 0, 0] x1 (sitofp .f32 (constantI S_ 32 0#32))
          pads_S4x128x160x320_S4x128x160x360_000_000_000_8320 h_S_)
        (fun k => ((![constantI S_ 32 0#32, constantI S_ 32 0#32, constantI S_ 32 0#32,
          constantI S_ 32 (BitVec.ofNat 32 d)] : Fin 4 → (⟨S_, .i32⟩ : BufTy).Contents (Elt F)) k
            (Shape.Idx.first h_S_)).toInt) sliceFits_S4x128x160x360_S4x128x160x320))
      (constant S_ .f32 0x00000000#32) reducesTo_S4x128x160x320_S4x160x320_d1 h_S_)

/-- It is the cost at displacement `d`. -/
theorem dispSum_apply (d : ℕ) (hd : d < 41) (x0 x1 : (⟨S4x128x160x320, .f32⟩ : BufTy).Contents (Elt Ideal))
    (b : Fin 4) (u : Fin 1) (h : Fin 160) (w : Fin 320) :
    dispSum (F := Ideal) d x0 x1 (ix4 b u h w) = corr x0 x1 b ⟨d, hd⟩ h w := by
  unfold dispSum
  exact disp_apply d hd x0 x1 _ h_S_ _ _ _ b u h w

/-- `n` consecutive displacements from `base`, as the pieces of a join. -/
abbrev dispPieces (base n : ℕ) (x0 x1 : (⟨S4x128x160x320, .f32⟩ : BufTy).Contents (Elt F)) :
    List ((s : Shape) × (s.Idx → Elt F .f32)) :=
  List.ofFn fun k : Fin n => ⟨S4x1x160x320, dispSum (base + k.val) x0 x1⟩

/-- A group of `n` consecutive displacements from `base`, joined along the displacement axis, read at the
    group's displacement `e`: the cost at displacement `base + e`. -/
theorem group_apply (base n : ℕ) (hn : base + n ≤ 41) (x0 x1 : (⟨S4x128x160x320, .f32⟩ : BufTy).Contents (Elt Ideal))
    (hc : Shape.Concatenates ((dispPieces (F := Ideal) base n x0 x1).map (·.1)) ⟨4, ![4, n, 160, 320]⟩ 1)
    (b : Fin 4) (e : Fin n) (h : Fin 160) (w : Fin 320) :
    concatenate ⟨4, ![4, n, 160, 320]⟩ 1 (dispPieces (F := Ideal) base n x0 x1) hc (ix4 b e h w)
      = corr x0 x1 b ⟨base + e.val, by omega⟩ h w := by
  refine (concatenate_ofFn_unit_apply (t := ⟨4, ![4, n, 160, 320]⟩) (s₁ := S4x1x160x320) (1 : Fin 4)
    (fun k : Fin n => dispSum (F := Ideal) (base + k.val) x0 x1) hc rfl rfl
    (ix4 b e h w) e rfl (ix4 b (0 : Fin 1) h w) fun a ha => ?_).trans (dispSum_apply (base + e.val) (by omega) x0 x1 b 0 h w)
  match a with
  | ⟨0, _⟩ => rfl
  | ⟨1, _⟩ => exact absurd rfl ha
  | ⟨2, _⟩ => rfl
  | ⟨3, _⟩ => rfl

/-- Three groups of 16, 16 and 9 displacements joined along the displacement axis, read at displacement `d`:
    the group that holds `d`, at `d` less the displacements before the group. -/
theorem join3_apply {α : Type} (A B : S4x16x160x320.Idx → α) (C : S4x9x160x320.Idx → α)
    (hc : Shape.Concatenates [S4x16x160x320, S4x16x160x320, S4x9x160x320] S4x41x160x320 1)
    (b : Fin 4) (d : Fin 41) (h : Fin 160) (w : Fin 320) :
    concatenate S4x41x160x320 1 [⟨S4x16x160x320, A⟩, ⟨S4x16x160x320, B⟩, ⟨S4x9x160x320, C⟩] hc (ix4 b d h w)
      = if h1 : d.val < 16 then A (ix4 b ⟨d.val, h1⟩ h w)
        else if h2 : d.val < 32 then B (ix4 b ⟨d.val - 16, by omega⟩ h w)
        else C (ix4 b ⟨d.val - 32, by omega⟩ h w) := by
  have hd := d.isLt
  by_cases h1 : d.val < 16
  · rw [dif_pos h1]
    refine concatenate_apply_piece (t := S4x41x160x320) (1 : Fin 4) [⟨S4x16x160x320, A⟩, ⟨S4x16x160x320, B⟩, ⟨S4x9x160x320, C⟩] hc
      (ix4 b d h w) 0 (Nat.zero_lt_succ 2) S4x16x160x320 A rfl rfl 0 rfl (ix4 b ⟨d.val, h1⟩ h w) (fun a ha => ?_)
      (by show 0 + d.val = d.val; omega)
    match a with
    | ⟨0, _⟩ => rfl
    | ⟨1, _⟩ => exact absurd rfl ha
    | ⟨2, _⟩ => rfl
    | ⟨3, _⟩ => rfl
  · rw [dif_neg h1]
    by_cases h2 : d.val < 32
    · rw [dif_pos h2]
      refine concatenate_apply_piece (t := S4x41x160x320) (1 : Fin 4) [⟨S4x16x160x320, A⟩, ⟨S4x16x160x320, B⟩, ⟨S4x9x160x320, C⟩] hc
        (ix4 b d h w) 1 (Nat.succ_lt_succ (Nat.zero_lt_succ 1)) S4x16x160x320 B rfl rfl 16 rfl
        (ix4 b ⟨d.val - 16, by omega⟩ h w) (fun a ha => ?_) (by show 16 + (d.val - 16) = d.val; omega)
      match a with
      | ⟨0, _⟩ => rfl
      | ⟨1, _⟩ => exact absurd rfl ha
      | ⟨2, _⟩ => rfl
      | ⟨3, _⟩ => rfl
    · rw [dif_neg h2]
      refine concatenate_apply_piece (t := S4x41x160x320) (1 : Fin 4) [⟨S4x16x160x320, A⟩, ⟨S4x16x160x320, B⟩, ⟨S4x9x160x320, C⟩] hc
        (ix4 b d h w) 2 (Nat.lt_succ_self 2) S4x9x160x320 C rfl rfl 32 rfl
        (ix4 b ⟨d.val - 32, by omega⟩ h w) (fun a ha => ?_) (by show 32 + (d.val - 32) = d.val; omega)
      match a with
      | ⟨0, _⟩ => rfl
      | ⟨1, _⟩ => exact absurd rfl ha
      | ⟨2, _⟩ => rfl
      | ⟨3, _⟩ => rfl

/-- The reference's result: the three groups joined. -/
def refVol (x0 x1 : (⟨S4x128x160x320, .f32⟩ : BufTy).Contents (Elt F)) : (⟨S4x41x160x320, .f32⟩ : BufTy).Contents (Elt F) :=
  concatenate S4x41x160x320 1
    [⟨S4x16x160x320, concatenate S4x16x160x320 1 (dispPieces 0 16 x0 x1) concatenates_S4x1x160x320_S4x1x160x320_S4x1x160x320_S4x1x160x320_S4x1x160x320_S4x1x160x320_S4x1x160x320_S4x1x160x320_S4x1x160x320_S4x1x160x320_S4x1x160x320_S4x1x160x320_S4x1x160x320_S4x1x160x320_S4x1x160x320_S4x1x160x320_S4x16x160x320_d1⟩,
     ⟨S4x16x160x320, concatenate S4x16x160x320 1 (dispPieces 16 16 x0 x1) concatenates_S4x1x160x320_S4x1x160x320_S4x1x160x320_S4x1x160x320_S4x1x160x320_S4x1x160x320_S4x1x160x320_S4x1x160x320_S4x1x160x320_S4x1x160x320_S4x1x160x320_S4x1x160x320_S4x1x160x320_S4x1x160x320_S4x1x160x320_S4x1x160x320_S4x16x160x320_d1⟩,
     ⟨S4x9x160x320, concatenate S4x9x160x320 1 (dispPieces 32 9 x0 x1) concatenates_S4x1x160x320_S4x1x160x320_S4x1x160x320_S4x1x160x320_S4x1x160x320_S4x1x160x320_S4x1x160x320_S4x1x160x320_S4x1x160x320_S4x9x160x320_d1⟩]
    concatenates_S4x16x160x320_S4x16x160x320_S4x9x160x320_S4x41x160x320_d1

/-- The reference's result is the cost volume. -/
theorem refVol_eq (x0 x1 : (⟨S4x128x160x320, .f32⟩ : BufTy).Contents (Elt Ideal)) :
    refVol (F := Ideal) x0 x1 = corrArr x0 x1 := by
  funext j
  obtain ⟨b, d, h, w, rfl⟩ : ∃ (b : Fin 4) (d : Fin 41) (h : Fin 160) (w : Fin 320), j = ix4 b d h w :=
    ⟨j 0, j 1, j 2, j 3, eq_ix4 j⟩
  rw [corrArr_ix4]
  unfold refVol
  rw [join3_apply]
  have hd := d.isLt
  by_cases h1 : d.val < 16
  · rw [dif_pos h1]
    refine (group_apply 0 16 (by decide) x0 x1 _ b ⟨d.val, h1⟩ h w).trans ?_
    congr 1; exact Fin.ext (by show 0 + d.val = d.val; omega)
  · rw [dif_neg h1]
    by_cases h2 : d.val < 32
    · rw [dif_pos h2]
      refine (group_apply 16 16 (by decide) x0 x1 _ b ⟨d.val - 16, by omega⟩ h w).trans ?_
      congr 1; exact Fin.ext (by show 16 + (d.val - 16) = d.val; omega)
    · rw [dif_neg h2]
      refine (group_apply 32 9 (by decide) x0 x1 _ b ⟨d.val - 32, by omega⟩ h w).trans ?_
      congr 1; exact Fin.ext (by show 32 + (d.val - 32) = d.val; omega)

end Cert.ReferenceIdeal.RefValue

end
-- ==== Proof.RefAfter.lean ====
/-
  What the reference's operations leave in the result buffer, and that they leave the arguments alone.

  The last stretch of the program broadcasts the last eleven displacement sums to a unit displacement axis and joins
  all 41 along that axis, in three groups. Before it, each displacement's eight operations write its four start
  indices, cut the window of the padded second image, multiply with the first image and add the channels; the padded
  image is written once, at the start. Following each buffer back to the operation that wrote it gives the result as
  the joined displacement sums of the two argument arrays, which is the array `RefValue.refVol`.
-/
import proofs.«125826_j13580686590324_1_alg».proof.Proof.RefWrites
import proofs.«125826_j13580686590324_1_alg».proof.Proof.LibHostIndexed
import proofs.«125826_j13580686590324_1_alg».proof.Proof.LibHostNary
import proofs.«125826_j13580686590324_1_alg».proof.Proof.RefValue
import Idealize.ShloMosaic.Lib.Pipeline.Frame

set_option maxRecDepth 16384

noncomputable section

namespace Cert.ReferenceIdeal.RefAfter

open Cert.ReferenceIdeal Cert.ReferenceIdeal.Gen Idealize.ShloMosaic Idealize.ShloMosaic.TcCoe Idealize.SL.Sem Idealize.ShloMosaic.StableHlo
open Cert.ReferenceIdeal.RefOps Cert.ReferenceIdeal.RefValue

variable {F : FTy → Type} [FloatOps F]

/-- The 41 displacement sums joined, written out piece by piece. -/
def joined (x0 x1 : (⟨S4x128x160x320, .f32⟩ : BufTy).Contents (Elt F)) : (⟨S4x41x160x320, .f32⟩ : BufTy).Contents (Elt F) :=
  concatenate S4x41x160x320 1
    [⟨S4x16x160x320, concatenate S4x16x160x320 1 [⟨S4x1x160x320, dispSum 0 x0 x1⟩, ⟨S4x1x160x320, dispSum 1 x0 x1⟩, ⟨S4x1x160x320, dispSum 2 x0 x1⟩, ⟨S4x1x160x320, dispSum 3 x0 x1⟩, ⟨S4x1x160x320, dispSum 4 x0 x1⟩, ⟨S4x1x160x320, dispSum 5 x0 x1⟩, ⟨S4x1x160x320, dispSum 6 x0 x1⟩, ⟨S4x1x160x320, dispSum 7 x0 x1⟩, ⟨S4x1x160x320, dispSum 8 x0 x1⟩, ⟨S4x1x160x320, dispSum 9 x0 x1⟩, ⟨S4x1x160x320, dispSum 10 x0 x1⟩, ⟨S4x1x160x320, dispSum 11 x0 x1⟩, ⟨S4x1x160x320, dispSum 12 x0 x1⟩, ⟨S4x1x160x320, dispSum 13 x0 x1⟩, ⟨S4x1x160x320, dispSum 14 x0 x1⟩, ⟨S4x1x160x320, dispSum 15 x0 x1⟩] concatenates_S4x1x160x320_S4x1x160x320_S4x1x160x320_S4x1x160x320_S4x1x160x320_S4x1x160x320_S4x1x160x320_S4x1x160x320_S4x1x160x320_S4x1x160x320_S4x1x160x320_S4x1x160x320_S4x1x160x320_S4x1x160x320_S4x1x160x320_S4x1x160x320_S4x16x160x320_d1⟩,
     ⟨S4x16x160x320, concatenate S4x16x160x320 1 [⟨S4x1x160x320, dispSum 16 x0 x1⟩, ⟨S4x1x160x320, dispSum 17 x0 x1⟩, ⟨S4x1x160x320, dispSum 18 x0 x1⟩, ⟨S4x1x160x320, dispSum 19 x0 x1⟩, ⟨S4x1x160x320, dispSum 20 x0 x1⟩, ⟨S4x1x160x320, dispSum 21 x0 x1⟩, ⟨S4x1x160x320, dispSum 22 x0 x1⟩, ⟨S4x1x160x320, dispSum 23 x0 x1⟩, ⟨S4x1x160x320, dispSum 24 x0 x1⟩, ⟨S4x1x160x320, dispSum 25 x0 x1⟩, ⟨S4x1x160x320, dispSum 26 x0 x1⟩, ⟨S4x1x160x320, dispSum 27 x0 x1⟩, ⟨S4x1x160x320, dispSum 28 x0 x1⟩, ⟨S4x1x160x320, dispSum 29 x0 x1⟩, ⟨S4x1x160x320, dispSum 30 x0 x1⟩, ⟨S4x1x160x320, dispSum 31 x0 x1⟩] concatenates_S4x1x160x320_S4x1x160x320_S4x1x160x320_S4x1x160x320_S4x1x160x320_S4x1x160x320_S4x1x160x320_S4x1x160x320_S4x1x160x320_S4x1x160x320_S4x1x160x320_S4x1x160x320_S4x1x160x320_S4x1x160x320_S4x1x160x320_S4x1x160x320_S4x16x160x320_d1⟩,
     ⟨S4x9x160x320, concatenate S4x9x160x320 1 [⟨S4x1x160x320, dispSum 32 x0 x1⟩, ⟨S4x1x160x320, dispSum 33 x0 x1⟩, ⟨S4x1x160x320, dispSum 34 x0 x1⟩, ⟨S4x1x160x320, dispSum 35 x0 x1⟩, ⟨S4x1x160x320, dispSum 36 x0 x1⟩, ⟨S4x1x160x320, dispSum 37 x0 x1⟩, ⟨S4x1x160x320, dispSum 38 x0 x1⟩, ⟨S4x1x160x320, dispSum 39 x0 x1⟩, ⟨S4x1x160x320, dispSum 40 x0 x1⟩] concatenates_S4x1x160x320_S4x1x160x320_S4x1x160x320_S4x1x160x320_S4x1x160x320_S4x1x160x320_S4x1x160x320_S4x1x160x320_S4x1x160x320_S4x9x160x320_d1⟩]
    concatenates_S4x16x160x320_S4x16x160x320_S4x9x160x320_S4x41x160x320_d1

/-- Written out or as a table of pieces, the same array. -/
theorem joined_eq_refVol (x0 x1 : (⟨S4x128x160x320, .f32⟩ : BufTy).Contents (Elt F)) : joined x0 x1 = refVol x0 x1 := rfl

set_option maxHeartbeats 4000000 in
/-- The last stretch, from any contents `W`: the result buffer ends holding the 41 pieces joined, the first thirty
    as `W` has them, the last eleven broadcast from `W`'s sums. -/
theorem after_last (W : Valuation τ sig (Elt F)) :
    after (ops6 (F := F)) W (Proc.devRef .tc main_v168) =
  concatenate S4x41x160x320 1
    [⟨S4x16x160x320, concatenate S4x16x160x320 1 [⟨S4x1x160x320, (W (Proc.devRef .tc main_v124))⟩, ⟨S4x1x160x320, (W (Proc.devRef .tc main_v125))⟩, ⟨S4x1x160x320, (W (Proc.devRef .tc main_v126))⟩, ⟨S4x1x160x320, (W (Proc.devRef .tc main_v127))⟩, ⟨S4x1x160x320, (W (Proc.devRef .tc main_v128))⟩, ⟨S4x1x160x320, (W (Proc.devRef .tc main_v129))⟩, ⟨S4x1x160x320, (W (Proc.devRef .tc main_v130))⟩, ⟨S4x1x160x320, (W (Proc.devRef .tc main_v131))⟩, ⟨S4x1x160x320, (W (Proc.devRef .tc main_v132))⟩, ⟨S4x1x160x320, (W (Proc.devRef .tc main_v133))⟩, ⟨S4x1x160x320, (W (Proc.devRef .tc main_v134))⟩, ⟨S4x1x160x320, (W (Proc.devRef .tc main_v135))⟩, ⟨S4x1x160x320, (W (Proc.devRef .tc main_v136))⟩, ⟨S4x1x160x320, (W (Proc.devRef .tc main_v137))⟩, ⟨S4x1x160x320, (W (Proc.devRef .tc main_v138))⟩, ⟨S4x1x160x320, (W (Proc.devRef .tc main_v139))⟩] concatenates_S4x1x160x320_S4x1x160x320_S4x1x160x320_S4x1x160x320_S4x1x160x320_S4x1x160x320_S4x1x160x320_S4x1x160x320_S4x1x160x320_S4x1x160x320_S4x1x160x320_S4x1x160x320_S4x1x160x320_S4x1x160x320_S4x1x160x320_S4x1x160x320_S4x16x160x320_d1⟩,
     ⟨S4x16x160x320, concatenate S4x16x160x320 1 [⟨S4x1x160x320, (W (Proc.devRef .tc main_v140))⟩, ⟨S4x1x160x320, (W (Proc.devRef .tc main_v141))⟩, ⟨S4x1x160x320, (W (Proc.devRef .tc main_v142))⟩, ⟨S4x1x160x320, (W (Proc.devRef .tc main_v143))⟩, ⟨S4x1x160x320, (W (Proc.devRef .tc main_v144))⟩, ⟨S4x1x160x320, (W (Proc.devRef .tc main_v145))⟩, ⟨S4x1x160x320, (W (Proc.devRef .tc main_v146))⟩, ⟨S4x1x160x320, (W (Proc.devRef .tc main_v147))⟩, ⟨S4x1x160x320, (W (Proc.devRef .tc main_v148))⟩, ⟨S4x1x160x320, (W (Proc.devRef .tc main_v149))⟩, ⟨S4x1x160x320, (W (Proc.devRef .tc main_v150))⟩, ⟨S4x1x160x320, (W (Proc.devRef .tc main_v151))⟩, ⟨S4x1x160x320, (W (Proc.devRef .tc main_v152))⟩, ⟨S4x1x160x320, (W (Proc.devRef .tc main_v153))⟩, ⟨S4x1x160x320, broadcastInDim S4x1x160x320 ![0, 2, 3] bcast_S4x160x320_S4x1x160x320_0_2_3 (W (Proc.devRef .tc main_v93))⟩, ⟨S4x1x160x320, broadcastInDim S4x1x160x320 ![0, 2, 3] bcast_S4x160x320_S4x1x160x320_0_2_3 (W (Proc.devRef .tc main_v96))⟩] concatenates_S4x1x160x320_S4x1x160x320_S4x1x160x320_S4x1x160x320_S4x1x160x320_S4x1x160x320_S4x1x160x320_S4x1x160x320_S4x1x160x320_S4x1x160x320_S4x1x160x320_S4x1x160x320_S4x1x160x320_S4x1x160x320_S4x1x160x320_S4x1x160x320_S4x16x160x320_d1⟩,
     ⟨S4x9x160x320, concatenate S4x9x160x320 1 [⟨S4x1x160x320, broadcastInDim S4x1x160x320 ![0, 2, 3] bcast_S4x160x320_S4x1x160x320_0_2_3 (W (Proc.devRef .tc main_v99))⟩, ⟨S4x1x160x320, broadcastInDim S4x1x160x320 ![0, 2, 3] bcast_S4x160x320_S4x1x160x320_0_2_3 (W (Proc.devRef .tc main_v102))⟩, ⟨S4x1x160x320, broadcastInDim S4x1x160x320 ![0, 2, 3] bcast_S4x160x320_S4x1x160x320_0_2_3 (W (Proc.devRef .tc main_v105))⟩, ⟨S4x1x160x320, broadcastInDim S4x1x160x320 ![0, 2, 3] bcast_S4x160x320_S4x1x160x320_0_2_3 (W (Proc.devRef .tc main_v108))⟩, ⟨S4x1x160x320, broadcastInDim S4x1x160x320 ![0, 2, 3] bcast_S4x160x320_S4x1x160x320_0_2_3 (W (Proc.devRef .tc main_v111))⟩, ⟨S4x1x160x320, broadcastInDim S4x1x160x320 ![0, 2, 3] bcast_S4x160x320_S4x1x160x320_0_2_3 (W (Proc.devRef .tc main_v114))⟩, ⟨S4x1x160x320, broadcastInDim S4x1x160x320 ![0, 2, 3] bcast_S4x160x320_S4x1x160x320_0_2_3 (W (Proc.devRef .tc main_v117))⟩, ⟨S4x1x160x320, broadcastInDim S4x1x160x320 ![0, 2, 3] bcast_S4x160x320_S4x1x160x320_0_2_3 (W (Proc.devRef .tc main_v120))⟩, ⟨S4x1x160x320, broadcastInDim S4x1x160x320 ![0, 2, 3] bcast_S4x160x320_S4x1x160x320_0_2_3 (W (Proc.devRef .tc main_v123))⟩] concatenates_S4x1x160x320_S4x1x160x320_S4x1x160x320_S4x1x160x320_S4x1x160x320_S4x1x160x320_S4x1x160x320_S4x1x160x320_S4x1x160x320_S4x9x160x320_d1⟩]
    concatenates_S4x16x160x320_S4x16x160x320_S4x9x160x320_S4x41x160x320_d1 := by
  simp (disch := decide) only [after_cons, after_nil, nullary_result', unary_result', binary_result', unaryIndexed4_result',
    nary3_result', nary9_result', nary16_result',
    nullary_result_ne', unary_result_ne', binary_result_ne', unaryIndexed_result_ne', nary_result_ne', cast_eq]
  rfl

set_option maxHeartbeats 40000000 in
/-- Before the last stretch, from any contents `V`: each of the first thirty pieces is its displacement's sum of the
    two argument arrays as `V` has them, and each of the last eleven sums, broadcast, is too. The stretches are read
    one at a time, last first, each from the contents the stretches before it leave (a variable while the stretch is
    read): a buffer the stretch does not write is stepped over at once, the others are followed back through the
    stretch's operations. -/
theorem pieces (V W : Valuation τ sig (Elt F))
    (hW : W = after (ops5 (F := F)) (after ops4 (after ops3 (after ops2 (after ops1 (after ops0 V)))))) :
    (W (Proc.devRef .tc main_v124) = dispSum 0 (V (Proc.devRef .tc main_arg0)) (V (Proc.devRef .tc main_arg1)))
    ∧ (W (Proc.devRef .tc main_v125) = dispSum 1 (V (Proc.devRef .tc main_arg0)) (V (Proc.devRef .tc main_arg1)))
    ∧ (W (Proc.devRef .tc main_v126) = dispSum 2 (V (Proc.devRef .tc main_arg0)) (V (Proc.devRef .tc main_arg1)))
    ∧ (W (Proc.devRef .tc main_v127) = dispSum 3 (V (Proc.devRef .tc main_arg0)) (V (Proc.devRef .tc main_arg1)))
    ∧ (W (Proc.devRef .tc main_v128) = dispSum 4 (V (Proc.devRef .tc main_arg0)) (V (Proc.devRef .tc main_arg1)))
    ∧ (W (Proc.devRef .tc main_v129) = dispSum 5 (V (Proc.devRef .tc main_arg0)) (V (Proc.devRef .tc main_arg1)))
    ∧ (W (Proc.devRef .tc main_v130) = dispSum 6 (V (Proc.devRef .tc main_arg0)) (V (Proc.devRef .tc main_arg1)))
    ∧ (W (Proc.devRef .tc main_v131) = dispSum 7 (V (Proc.devRef .tc main_arg0)) (V (Proc.devRef .tc main_arg1)))
    ∧ (W (Proc.devRef .tc main_v132) = dispSum 8 (V (Proc.devRef .tc main_arg0)) (V (Proc.devRef .tc main_arg1)))
    ∧ (W (Proc.devRef .tc main_v133) = dispSum 9 (V (Proc.devRef .tc main_arg0)) (V (Proc.devRef .tc main_arg1)))
    ∧ (W (Proc.devRef .tc main_v134) = dispSum 10 (V (Proc.devRef .tc main_arg0)) (V (Proc.devRef .tc main_arg1)))
    ∧ (W (Proc.devRef .tc main_v135) = dispSum 11 (V (Proc.devRef .tc main_arg0)) (V (Proc.devRef .tc main_arg1)))
    ∧ (W (Proc.devRef .tc main_v136) = dispSum 12 (V (Proc.devRef .tc main_arg0)) (V (Proc.devRef .tc main_arg1)))
    ∧ (W (Proc.devRef .tc main_v137) = dispSum 13 (V (Proc.devRef .tc main_arg0)) (V (Proc.devRef .tc main_arg1)))
    ∧ (W (Proc.devRef .tc main_v138) = dispSum 14 (V (Proc.devRef .tc main_arg0)) (V (Proc.devRef .tc main_arg1)))
    ∧ (W (Proc.devRef .tc main_v139) = dispSum 15 (V (Proc.devRef .tc main_arg0)) (V (Proc.devRef .tc main_arg1)))
    ∧ (W (Proc.devRef .tc main_v140) = dispSum 16 (V (Proc.devRef .tc main_arg0)) (V (Proc.devRef .tc main_arg1)))
    ∧ (W (Proc.devRef .tc main_v141) = dispSum 17 (V (Proc.devRef .tc main_arg0)) (V (Proc.devRef .tc main_arg1)))
    ∧ (W (Proc.devRef .tc main_v142) = dispSum 18 (V (Proc.devRef .tc main_arg0)) (V (Proc.devRef .tc main_arg1)))
    ∧ (W (Proc.devRef .tc main_v143) = dispSum 19 (V (Proc.devRef .tc main_arg0)) (V (Proc.devRef .tc main_arg1)))
    ∧ (W (Proc.devRef .tc main_v144) = dispSum 20 (V (Proc.devRef .tc main_arg0)) (V (Proc.devRef .tc main_arg1)))
    ∧ (W (Proc.devRef .tc main_v145) = dispSum 21 (V (Proc.devRef .tc main_arg0)) (V (Proc.devRef .tc main_arg1)))
    ∧ (W (Proc.devRef .tc main_v146) = dispSum 22 (V (Proc.devRef .tc main_arg0)) (V (Proc.devRef .tc main_arg1)))
    ∧ (W (Proc.devRef .tc main_v147) = dispSum 23 (V (Proc.devRef .tc main_arg0)) (V (Proc.devRef .tc main_arg1)))
    ∧ (W (Proc.devRef .tc main_v148) = dispSum 24 (V (Proc.devRef .tc main_arg0)) (V (Proc.devRef .tc main_arg1)))
    ∧ (W (Proc.devRef .tc main_v149) = dispSum 25 (V (Proc.devRef .tc main_arg0)) (V (Proc.devRef .tc main_arg1)))
    ∧ (W (Proc.devRef .tc main_v150) = dispSum 26 (V (Proc.devRef .tc main_arg0)) (V (Proc.devRef .tc main_arg1)))
    ∧ (W (Proc.devRef .tc main_v151) = dispSum 27 (V (Proc.devRef .tc main_arg0)) (V (Proc.devRef .tc main_arg1)))
    ∧ (W (Proc.devRef .tc main_v152) = dispSum 28 (V (Proc.devRef .tc main_arg0)) (V (Proc.devRef .tc main_arg1)))
    ∧ (W (Proc.devRef .tc main_v153) = dispSum 29 (V (Proc.devRef .tc main_arg0)) (V (Proc.devRef .tc main_arg1)))
    ∧ (broadcastInDim S4x1x160x320 ![0, 2, 3] bcast_S4x160x320_S4x1x160x320_0_2_3 (W (Proc.devRef .tc main_v93)) = dispSum 30 (V (Proc.devRef .tc main_arg0)) (V (Proc.devRef .tc main_arg1)))
    ∧ (broadcastInDim S4x1x160x320 ![0, 2, 3] bcast_S4x160x320_S4x1x160x320_0_2_3 (W (Proc.devRef .tc main_v96)) = dispSum 31 (V (Proc.devRef .tc main_arg0)) (V (Proc.devRef .tc main_arg1)))
    ∧ (broadcastInDim S4x1x160x320 ![0, 2, 3] bcast_S4x160x320_S4x1x160x320_0_2_3 (W (Proc.devRef .tc main_v99)) = dispSum 32 (V (Proc.devRef .tc main_arg0)) (V (Proc.devRef .tc main_arg1)))
    ∧ (broadcastInDim S4x1x160x320 ![0, 2, 3] bcast_S4x160x320_S4x1x160x320_0_2_3 (W (Proc.devRef .tc main_v102)) = dispSum 33 (V (Proc.devRef .tc main_arg0)) (V (Proc.devRef .tc main_arg1)))
    ∧ (broadcastInDim S4x1x160x320 ![0, 2, 3] bcast_S4x160x320_S4x1x160x320_0_2_3 (W (Proc.devRef .tc main_v105)) = dispSum 34 (V (Proc.devRef .tc main_arg0)) (V (Proc.devRef .tc main_arg1)))
    ∧ (broadcastInDim S4x1x160x320 ![0, 2, 3] bcast_S4x160x320_S4x1x160x320_0_2_3 (W (Proc.devRef .tc main_v108)) = dispSum 35 (V (Proc.devRef .tc main_arg0)) (V (Proc.devRef .tc main_arg1)))
    ∧ (broadcastInDim S4x1x160x320 ![0, 2, 3] bcast_S4x160x320_S4x1x160x320_0_2_3 (W (Proc.devRef .tc main_v111)) = dispSum 36 (V (Proc.devRef .tc main_arg0)) (V (Proc.devRef .tc main_arg1)))
    ∧ (broadcastInDim S4x1x160x320 ![0, 2, 3] bcast_S4x160x320_S4x1x160x320_0_2_3 (W (Proc.devRef .tc main_v114)) = dispSum 37 (V (Proc.devRef .tc main_arg0)) (V (Proc.devRef .tc main_arg1)))
    ∧ (broadcastInDim S4x1x160x320 ![0, 2, 3] bcast_S4x160x320_S4x1x160x320_0_2_3 (W (Proc.devRef .tc main_v117)) = dispSum 38 (V (Proc.devRef .tc main_arg0)) (V (Proc.devRef .tc main_arg1)))
    ∧ (broadcastInDim S4x1x160x320 ![0, 2, 3] bcast_S4x160x320_S4x1x160x320_0_2_3 (W (Proc.devRef .tc main_v120)) = dispSum 39 (V (Proc.devRef .tc main_arg0)) (V (Proc.devRef .tc main_arg1)))
    ∧ (broadcastInDim S4x1x160x320 ![0, 2, 3] bcast_S4x160x320_S4x1x160x320_0_2_3 (W (Proc.devRef .tc main_v123)) = dispSum 40 (V (Proc.devRef .tc main_arg0)) (V (Proc.devRef .tc main_arg1))) := by
  subst hW
  generalize h5 : after (ops4 (F := F)) (after ops3 (after ops2 (after ops1 (after ops0 V)))) = W5
  simp (disch := decide) only [skip5]
  simp (disch := decide) only [after_cons, after_nil, nullary_result', unary_result', binary_result', unaryIndexed4_result',
    nary3_result', nary9_result', nary16_result',
    nullary_result_ne', unary_result_ne', binary_result_ne', unaryIndexed_result_ne', nary_result_ne', cast_eq]
  subst h5
  generalize h4 : after (ops3 (F := F)) (after ops2 (after ops1 (after ops0 V))) = W4
  simp (disch := decide) only [skip4]
  simp (disch := decide) only [after_cons, after_nil, nullary_result', unary_result', binary_result', unaryIndexed4_result',
    nary3_result', nary9_result', nary16_result',
    nullary_result_ne', unary_result_ne', binary_result_ne', unaryIndexed_result_ne', nary_result_ne', cast_eq]
  subst h4
  generalize h3 : after (ops2 (F := F)) (after ops1 (after ops0 V)) = W3
  simp (disch := decide) only [skip3]
  simp (disch := decide) only [after_cons, after_nil, nullary_result', unary_result', binary_result', unaryIndexed4_result',
    nary3_result', nary9_result', nary16_result',
    nullary_result_ne', unary_result_ne', binary_result_ne', unaryIndexed_result_ne', nary_result_ne', cast_eq]
  subst h3
  generalize h2 : after (ops1 (F := F)) (after ops0 V) = W2
  simp (disch := decide) only [skip2]
  simp (disch := decide) only [after_cons, after_nil, nullary_result', unary_result', binary_result', unaryIndexed4_result',
    nary3_result', nary9_result', nary16_result',
    nullary_result_ne', unary_result_ne', binary_result_ne', unaryIndexed_result_ne', nary_result_ne', cast_eq]
  subst h2
  generalize h1 : after (ops0 (F := F)) V = W1
  simp (disch := decide) only [skip1]
  simp (disch := decide) only [after_cons, after_nil, nullary_result', unary_result', binary_result', unaryIndexed4_result',
    nary3_result', nary9_result', nary16_result',
    nullary_result_ne', unary_result_ne', binary_result_ne', unaryIndexed_result_ne', nary_result_ne', cast_eq]
  subst h1
  simp (disch := decide) only [skip0]
  simp (disch := decide) only [after_cons, after_nil, nullary_result', unary_result', binary_result', unaryIndexed4_result',
    nary3_result', nary9_result', nary16_result',
    nullary_result_ne', unary_result_ne', binary_result_ne', unaryIndexed_result_ne', nary_result_ne', cast_eq]
  unfold dispSum
  exact ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

/-- The whole program, from any contents `V`: the result buffer ends holding the joined displacement sums of the two
    argument arrays as `V` has them. -/
theorem after_result (V : Valuation τ sig (Elt F)) :
    after (ops (F := F)) V (Proc.devRef .tc main_v168)
      = refVol (V (Proc.devRef .tc main_arg0)) (V (Proc.devRef .tc main_arg1)) := by
  simp only [ops, StableHlo.after_append]
  rw [after_last, ← joined_eq_refVol]
  obtain ⟨h0, h1, h2, h3, h4, h5, h6, h7, h8, h9, h10, h11, h12, h13, h14, h15, h16, h17, h18, h19, h20, h21, h22, h23, h24, h25, h26, h27, h28, h29, h30, h31, h32, h33, h34, h35, h36, h37, h38, h39, h40⟩ := pieces V _ rfl
  rw [h0, h1, h2, h3, h4, h5, h6, h7, h8, h9, h10, h11, h12, h13, h14, h15, h16, h17, h18, h19, h20, h21, h22, h23, h24, h25, h26, h27, h28, h29, h30, h31, h32, h33, h34, h35, h36, h37, h38, h39, h40]
  rfl

end Cert.ReferenceIdeal.RefAfter

end
-- ==== Proof.RefRun.lean ====
/-
  The reference's run: every execution ends with the cost volume of the two arguments in the result buffer and the
  arguments as they were.

  The program is a straight line of host operations, so its executions end with every buffer at what the operations,
  taken in order, leave in it. The result buffer is left holding the joined displacement sums of the arguments
  (`RefAfter.after_result`), which is the cost volume (`RefValue.refVol_eq`); no operation writes an argument.
-/
import proofs.«125826_j13580686590324_1_alg».proof.Proof.RefAfter

set_option maxRecDepth 16384

noncomputable section

namespace Cert.ReferenceIdeal.RefRun

open Idealize.ShloMosaic Idealize.ShloMosaic.TcCoe Idealize.SL.Sem Idealize.ShloMosaic.StableHlo
open Cert.ReferenceIdeal Cert.ReferenceIdeal.Gen Cert.Corr
open Cert.ReferenceIdeal.RefOps Cert.ReferenceIdeal.RefAfter Cert.ReferenceIdeal.RefValue

variable {F : FTy → Type} [FloatOps F]

set_option maxHeartbeats 4000000 in
/-- No operation writes the first argument. -/
theorem after_arg0 (V : Valuation τ sig (Elt F)) :
    after (ops (F := F)) V (Proc.devRef .tc main_arg0) = V (Proc.devRef .tc main_arg0) := by
  simp only [ops, StableHlo.after_append]
  simp (disch := decide) only [skip6, skip5, skip4, skip3, skip2, skip1, skip0]

set_option maxHeartbeats 4000000 in
/-- No operation writes the second argument. -/
theorem after_arg1 (V : Valuation τ sig (Elt F)) :
    after (ops (F := F)) V (Proc.devRef .tc main_arg1) = V (Proc.devRef .tc main_arg1) := by
  simp only [ops, StableHlo.after_append]
  simp (disch := decide) only [skip6, skip5, skip4, skip3, skip2, skip1, skip0]

/-- Every execution of the reference ends with the cost volume of its arguments in the result, the arguments unchanged. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v168)
        = corrArr (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c =>
      ⟨(h c main_v168).trans ((after_result _).trans (refVol_eq _ _)),
       (h c main_arg0).trans (after_arg0 _),
       (h c main_arg1).trans (after_arg1 _)⟩)
    (run_seq scopedRefs_eq scopedSems_eq defs main (fun _ => ops) main_eq (fun _ => ops_sub) m ρ (fun _ => ops_fresh))

end Cert.ReferenceIdeal.RefRun

end
-- ==== Proof.lean ====
/-
  The certificate of the cost-volume kernel against its reference.

  Both programs compute, for two images `x1`, `x2` of shape [4, 128, 160, 320] and the 41 displacements `d`, the
  array whose entry (b, d, h, w) is the sum over the 128 channels `c` of `x1[b, c, h, w] * x2[b, c, h, w + d - 8]`
  where column `w + d - 8` exists, and zero where it does not (`Cert.Corr.corrArr`).
  The kernel zero-fills each [41, 40, 320] block and overwrites, per displacement, the columns whose partner exists;
  the reference pads the second image with zeros and takes every column, a product with a padding zero adding nothing.
  The two are equal over the extended reals for all inputs: the only laws used are `x * 0 = 0` and `0 + s = s`, so the
  precondition (finite inputs) is never opened. The frames of the two kernel programs are their generated frame
  certificates; the reference's frame is its run with the result dropped; the ideal pass rewrote nothing.
-/
import proofs.«125826_j13580686590324_1_alg».proof.Defs
import proofs.«125826_j13580686590324_1_alg».proof.Proof.Gen.Kernel
import proofs.«125826_j13580686590324_1_alg».proof.Proof.Gen.KernelIdeal
import proofs.«125826_j13580686590324_1_alg».proof.Proof.Gen.ReferenceIdeal
import proofs.«125826_j13580686590324_1_alg».proof.Proof.Gen.Pre_finite_inputs
import proofs.«125826_j13580686590324_1_alg».proof.Proof.KernelFrame
import proofs.«125826_j13580686590324_1_alg».proof.Proof.KVol
import proofs.«125826_j13580686590324_1_alg».proof.Proof.RefRun
import Idealize.ShloMosaic.Adequacy
import Idealize.ShloMosaic.Init

noncomputable section

namespace Cert.Proof

open Idealize.ShloMosaic Idealize.SL.Sem

theorem claim : Cert.Claim := ⟨Cert.Kernel.Gen.facts, Cert.KernelIdeal.Gen.facts, Cert.ReferenceIdeal.Gen.facts, Cert.Pre_finite_inputs.Gen.facts,
  fun m ρ _ => Cert.Kernel.GenP.frame m ρ,
  fun m ρ _ => Cert.KernelIdeal.GenP.frame m ρ,
  fun m ρ _ => (θ_run Cert.ReferenceIdeal.defs _ _).mono (fun _ h c => (h c).2) (Cert.ReferenceIdeal.RefRun.run m ρ),
  trivial,
  fun m ρ m' ρ' _ hagree =>
    ⟨fun c => Cert.Corr.corrArr (m ((c.tc : Thread Cert.KernelIdeal.nD Cert.KernelIdeal.τ).loc Cert.KernelIdeal.main_arg0))
        (m ((c.tc : Thread Cert.KernelIdeal.nD Cert.KernelIdeal.τ).loc Cert.KernelIdeal.main_arg1)),
      Cert.KernelIdeal.Vol.run m ρ,
      (θ_run Cert.ReferenceIdeal.defs _ _).mono
        (fun _ h c => ⟨by rw [(h c).1, (hagree c).1, (hagree c).2], (h c).2⟩)
        (Cert.ReferenceIdeal.RefRun.run m' ρ')⟩⟩

end Cert.Proof

end
